-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1024 : Shape := ⟨2, ![10000, 1024]⟩
abbrev S320000 : Shape := ⟨1, ![320000]⟩
abbrev S1024x64 : Shape := ⟨2, ![1024, 64]⟩
abbrev S64x32 : Shape := ⟨2, ![64, 32]⟩
abbrev S10000x32 : Shape := ⟨2, ![10000, 32]⟩
abbrev S_ : Shape := ⟨0, ![]⟩

class Facts : Prop where
  bcast_S_S10000x1024 : S_.BroadcastsInDim S10000x1024 (![] : Fin 0 → Fin S10000x1024.rank)
  reducesTo_S10000x1024_S_d0_1 : S10000x1024.ReducesTo [0, 1] S_
  h_S_ : 0 < S_.numel
  bcast_S_S320000 : S_.BroadcastsInDim S320000 (![] : Fin 0 → Fin S320000.rank)
  reducesTo_S320000_S_d0 : S320000.ReducesTo [0] S_
  bcast_S_S1024x64 : S_.BroadcastsInDim S1024x64 (![] : Fin 0 → Fin S1024x64.rank)
  reducesTo_S1024x64_S_d0_1 : S1024x64.ReducesTo [0, 1] S_
  bcast_S_S64x32 : S_.BroadcastsInDim S64x32 (![] : Fin 0 → Fin S64x32.rank)
  reducesTo_S64x32_S_d0_1 : S64x32.ReducesTo [0, 1] S_
  bcast_S_S10000x32 : S_.BroadcastsInDim S10000x32 (![] : Fin 0 → Fin S10000x32.rank)
  reducesTo_S10000x32_S_d0_1 : S10000x32.ReducesTo [0, 1] S_

variable [Facts]

def fn_part1 {F : FTy → Type} [FloatOps F] (main_arg6 : FVec F S64x32 .f32) (main_arg7 : FVec F S10000x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S10000x32 .f32 := Host.absf main_arg7
  let main_cst_8 : FVec F S_ .f32 := constant S_ .f32 0x7F800000#32
  let main_v25 : FVec F S10000x32 .f32 := broadcastInDim S10000x32 ![] bcast_S_S10000x32 main_cst_8
  let main_v26 : IVec S10000x32 1 := cmpf .olt main_v24 main_v25
  let main_c_9 : IVec S_ 1 := constantI S_ 1 1#1
  let main_v27 : IVec S_ 1 := (fun x v => Host.reduce IntOp.andi x v reducesTo_S10000x32_S_d0_1 h_S_) main_v26 main_c_9
  let main_v28 : IVec S_ 1 := andi main_v23 main_v27
  main_v28

def fn {F : FTy → Type} [FloatOps F] (main_arg0 : FVec F S10000x1024 .f32) (main_arg1 : IVec S320000 32) (main_arg2 : IVec S320000 32) (main_arg3 : FVec F S320000 .f32) (main_arg4 : FVec F S1024x64 .f32) (main_arg5 : FVec F S64x32 .f32) (main_arg6 : FVec F S64x32 .f32) (main_arg7 : FVec F S10000x32 .f32) : IVec S_ 1 :=
  let main_v0 : FVec F S10000x1024 .f32 := Host.absf main_arg0
  let main_cst : FVec F S_ .f32 := constant S_ .f32 0x7F800000#32
  let main_v1 : FVec F S10000x1024 .f32 := broadcastInDim S10000x1024 ![] bcast_S_S10000x1024 main_cst
  let main_v2 : IVec S10000x1024 1 := cmpf .olt main_v0 main_v1
  let main_c : IVec S_ 1 := constantI S_ 1 1#1
  let main_v3 : IVec S_ 1 := (fun x v => Host.reduce IntOp.andi x v reducesTo_S10000x1024_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S1024x64 .f32 := Host.absf main_arg4
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_v13 main_v16
-- ==== Kernel.lean ====
abbrev S10000x1024 : Shape := ⟨2, ![10000, 1024]⟩
abbrev S320000 : Shape := ⟨1, ![320000]⟩
abbrev S1024x64 : Shape := ⟨2, ![1024, 64]⟩
abbrev S64x32 : Shape := ⟨2, ![64, 32]⟩
abbrev S10000x32 : Shape := ⟨2, ![10000, 32]⟩
abbrev S_ : Shape := ⟨0, ![]⟩
abbrev S10240x1024 : Shape := ⟨2, ![10240, 1024]⟩
abbrev S10240x64 : Shape := ⟨2, ![10240, 64]⟩
abbrev S1280x1024 : Shape := ⟨2, ![1280, 1024]⟩
abbrev S1280x64 : Shape := ⟨2, ![1280, 64]⟩
abbrev S10000x64 : Shape := ⟨2, ![10000, 64]⟩
abbrev S320000x1 : Shape := ⟨2, ![320000, 1]⟩
abbrev S320000x64 : Shape := ⟨2, ![320000, 64]⟩
abbrev S64x64 : Shape := ⟨2, ![64, 64]⟩
abbrev S10240x32 : Shape := ⟨2, ![10240, 32]⟩
abbrev S10240x10240 : Shape := ⟨2, ![10240, 10240]⟩
abbrev S1280x32 : Shape := ⟨2, ![1280, 32]⟩
abbrev S1280x1280 : Shape := ⟨2, ![1280, 1280]⟩
abbrev S10000x10000 : Shape := ⟨2, ![10000, 10000]⟩
abbrev S100000000 : Shape := ⟨1, ![100000000]⟩

abbrev nBuf : Space → Nat
  | .hbm => 70
  | .vmem => 16
  | .smem => 0
  | _ => 0

abbrev bufTy : (tb : Table) → Fin (tcTables nBuf tb) → BufTy
  | .hbm, ⟨0, _⟩ => ⟨S10000x1024, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S1024x64, .f32⟩
  | .hbm, ⟨5, _⟩ => ⟨S64x32, .f32⟩
  | .hbm, ⟨6, _⟩ => ⟨S64x32, .f32⟩
  | .hbm, ⟨7, _⟩ => ⟨S10000x32, .f32⟩
  | .hbm, ⟨8, _⟩ => ⟨S_, .i32⟩
  | .hbm, ⟨9, _⟩ => ⟨S_, .f32⟩
  | .hbm, ⟨10, _⟩ => ⟨S10240x1024, .f32⟩
  | .hbm, ⟨11, _⟩ => ⟨S10240x1024, .bf16⟩
  | .hbm, ⟨12, _⟩ => ⟨S1024x64, .bf16⟩
  | .hbm, ⟨13, _⟩ => ⟨S10240x64, .f32⟩
  | .hbm, ⟨14, _⟩ => ⟨S10000x64, .f32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x64, .f32⟩
  | .hbm, ⟨24, _⟩ => ⟨S320000x1, .f32⟩
  | .hbm, ⟨25, _⟩ => ⟨S320000x64, .f32⟩
  | .hbm, ⟨26, _⟩ => ⟨S320000x64, .f32⟩
  | .hbm, ⟨27, _⟩ => ⟨S_, .f32⟩
  | .hbm, ⟨28, _⟩ => ⟨S10000x64, .f32⟩
  | .hbm, ⟨29, _⟩ => ⟨S320000x1, .i32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S_, .i32⟩
  | .hbm, ⟨35, _⟩ => ⟨S_, .f32⟩
  | .hbm, ⟨36, _⟩ => ⟨S10240x64, .f32⟩
  | .hbm, ⟨37, _⟩ => ⟨S10240x64, .bf16⟩
  | .hbm, ⟨38, _⟩ => ⟨S64x64, .f32⟩
  | .hbm, ⟨39, _⟩ => ⟨S64x64, .bf16⟩
  | .hbm, ⟨40, _⟩ => ⟨S10240x64, .f32⟩
  | .hbm, ⟨41, _⟩ => ⟨S10000x64, .f32⟩
  | .hbm, ⟨42, _⟩ => ⟨S_, .i32⟩
  | .hbm, ⟨43, _⟩ => ⟨S320000, .i32⟩
  | .hbm, ⟨44, _⟩ => ⟨S320000, .i1⟩
  | .hbm, ⟨45, _⟩ => ⟨S_, .i32⟩
  | .hbm, ⟨46, _⟩ => ⟨S320000, .i32⟩
  | .hbm, ⟨47, _⟩ => ⟨S320000, .i32⟩
  | .hbm, ⟨48, _⟩ => ⟨S320000, .i32⟩
  | .hbm, ⟨49, _⟩ => ⟨S320000x1, .i32⟩
  | .hbm, ⟨50, _⟩ => ⟨S320000x64, .f32⟩
  | .hbm, ⟨51, _⟩ => ⟨S320000x1, .f32⟩
  | .hbm, ⟨52, _⟩ => ⟨S320000x64, .f32⟩
  | .hbm, ⟨53, _⟩ => ⟨S320000x64, .f32⟩
  | .hbm, ⟨54, _⟩ => ⟨S_, .f32⟩
  | .hbm, ⟨55, _⟩ => ⟨S10000x64, .f32⟩
  | .hbm, ⟨56, _⟩ => ⟨S320000x1, .i32⟩
  | .hbm, ⟨57, _⟩ => ⟨S10000x64, .f32⟩
  | .hbm, ⟨58, _⟩ => ⟨S10000x32, .f32⟩
  | .hbm, ⟨59, _⟩ => ⟨S10000x32, .f32⟩
  | .hbm, ⟨60, _⟩ => ⟨S10000x32, .f32⟩
  | .hbm, ⟨61, _⟩ => ⟨S10000x32, .f32⟩
  | .hbm, ⟨62, _⟩ => ⟨S10000x32, .f32⟩
  | .hbm, ⟨63, _⟩ => ⟨S_, .i32⟩
  | .hbm, ⟨64, _⟩ => ⟨S_, .f32⟩
  | .hbm, ⟨65, _⟩ => ⟨S10240x32, .f32⟩
  | .hbm, ⟨66, _⟩ => ⟨S10240x32, .bf16⟩
  | .hbm, ⟨67, _⟩ => ⟨S10240x10240, .f32⟩
  | .hbm, ⟨68, _⟩ => ⟨S10000x10000, .f32⟩
  | .hbm, ⟨69, _⟩ => ⟨S100000000, .f32⟩
  | .local _ .vmem, ⟨0, _⟩ => ⟨S1280x1024, .bf16⟩
  | .local _ .vmem, ⟨1, _⟩ => ⟨S1280x1024, .bf16⟩
  | .local _ .vmem, ⟨2, _⟩ => ⟨S1024x64, .bf16⟩
  | .local _ .vmem, ⟨3, _⟩ => ⟨S1280x64, .f32⟩
  | .local _ .vmem, ⟨4, _⟩ => ⟨S1280x64, .f32⟩
  | .local _ .vmem, ⟨5, _⟩ => ⟨S1280x64, .bf16⟩
  | .local _ .vmem, ⟨6, _⟩ => ⟨S1280x64, .bf16⟩
  | .local _ .vmem, ⟨7, _⟩ => ⟨S64x64, .bf16⟩
  | .local _ .vmem, ⟨8, _⟩ => ⟨S1280x64, .f32⟩
  | .local _ .vmem, ⟨9, _⟩ => ⟨S1280x64, .f32⟩
  | .local _ .vmem, ⟨10, _⟩ => ⟨S1280x32, .bf16⟩
  | .local _ .vmem, ⟨11, _⟩ => ⟨S1280x32, .bf16⟩
  | .local _ .vmem, ⟨12, _⟩ => ⟨S1280x32, .bf16⟩
  | .local _ .vmem, ⟨13, _⟩ => ⟨S1280x32, .bf16⟩
  | .local _ .vmem, ⟨14, _⟩ => ⟨S1280x1280, .f32⟩
  | .local _ .vmem, ⟨15, _⟩ => ⟨S1280x1280, .f32⟩
  | _, _ => ⟨S10000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_cst : Ref sig .tc := ⟨.hbm, 31, rfl⟩
abbrev main_call1_v0 : Ref sig .tc := ⟨.hbm, 32, rfl⟩
abbrev main_v18 : Ref sig .tc := ⟨.hbm, 33, rfl⟩
abbrev main_c_2 : Ref sig .tc := ⟨.hbm, 34, rfl⟩
abbrev main_call2_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_6 : Ref sig .tc := ⟨.hbm, 63, rfl⟩
abbrev main_call3_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1280x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1280x32 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1280x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1280x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  pads_S10000x1024_S10240x1024_02400_000 : S10000x1024.Pads (![0, 0] : Fin 2 → Nat) ![240, 0] ![0, 0] S10240x1024
  h_S_ : 0 < S_.numel
  bitsLt_bf16_f32 : FTy.bits .bf16 < FTy.bits .f32
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1280x64_S1280x64_0_0 : ∀ a, (![0, 0] : Fin 2 → Nat) a + S1280x64.size a ≤ S1280x64.size a
  h_S1280x64 : 0 < S1280x64.numel
  slices_S10240x64_S10000x64_0_0 : S10240x64.Slices ![0, 0] S10000x64
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x64_0_1 : S320000x1.BroadcastsInDim S320000x64 (![0, 1] : Fin 2 → Fin S320000x64.rank)
  bcast_S_S10000x64 : S_.BroadcastsInDim S10000x64 (![] : Fin 0 → Fin S10000x64.rank)
  pads_S10000x64_S10240x64_02400_000 : S10000x64.Pads (![0, 0] : Fin 2 → Nat) ![240, 0] ![0, 0] S10240x64
  concatenates_S64x32_S64x32_S64x64_d1 : Shape.Concatenates [S64x32, S64x32] S64x64 1
  shapeCasts_S1280x64_S1280x64 : S1280x64.ShapeCasts S1280x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S10000x64_S10000x32_0_0 : S10000x64.Slices ![0, 0] S10000x32
  slices_S10000x64_S10000x32_0_32 : S10000x64.Slices ![0, 32] S10000x32
  pads_S10000x32_S10240x32_02400_000 : S10000x32.Pads (![0, 0] : Fin 2 → Nat) ![240, 0] ![0, 0] S10240x32
  inb_S1280x32_S1280x32_0_0 : ∀ a, (![0, 0] : Fin 2 → Nat) a + S1280x32.size a ≤ S1280x32.size a
  h_S1280x32 : 0 < S1280x32.numel
  shapeCasts_S1280x32_S1280x32 : S1280x32.ShapeCasts S1280x32
  inb_S1280x1280_S1280x1280_0_0 : ∀ a, (![0, 0] : Fin 2 → Nat) a + S1280x1280.size a ≤ S1280x1280.size a
  h_S1280x1280 : 0 < S1280x1280.numel
  slices_S10240x10240_S10000x10000_0_0 : S10240x10240.Slices ![0, 0] S10000x10000
  shapeCasts_S10000x10000_S100000000 : S10000x10000.ShapeCasts S100000000
  dot_S1280x1024_S1024x64_S1280x64_1_0_0_1_n_n_wf : DotDims.WF S1280x1024 S1024x64 S1280x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S1280x64_S64x64_S1280x64_1_0_0_1_n_n_wf : DotDims.WF S1280x64 S64x64 S1280x64 [1] [0] [0] [1] [] []
  dot_S1280x32_S1280x32_S1280x1280_1_1_0_0_n_n_wf : DotDims.WF S1280x32 S1280x32 S1280x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x1024.size a ≤ S10240x1024.size a
  hwx0_0 : ∀ i : grid0.Coords, EltTy.bits .bf16 = 32 ∨ (Rect.block (s := S10240x1024) S1280x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x64.size a ≤ S10240x64.size a
  hwx0_2 : ∀ i : grid0.Coords, EltTy.bits .f32 = 32 ∨ (Rect.block (s := S10240x64) S1280x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x64.size a ≤ S10240x64.size a
  hwx1_0 : ∀ i : grid1.Coords, EltTy.bits .bf16 = 32 ∨ (Rect.block (s := S10240x64) S1280x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x64.size a ≤ S10240x64.size a
  hwx1_2 : ∀ i : grid1.Coords, EltTy.bits .f32 = 32 ∨ (Rect.block (s := S10240x64) S1280x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x32.size a ≤ S10240x32.size a
  hwx2_0 : ∀ i : grid2.Coords, EltTy.bits .bf16 = 32 ∨ (Rect.block (s := S10240x32) S1280x32.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x32.size a ≤ S10240x32.size a
  hwx2_1 : ∀ i : grid2.Coords, EltTy.bits .bf16 = 32 ∨ (Rect.block (s := S10240x32) S1280x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1280x1280.size a ≤ S10240x10240.size a
  hwx2_2 : ∀ i : grid2.Coords, EltTy.bits .f32 = 32 ∨ (Rect.block (s := S10240x10240) S1280x1280.size (cc2_transform_2 i) (hinb2_2 i)).WholeWords (EltTy.packing .f32)

variable [Facts₀]

def dot_S1280x1024_S1024x64_S1280x64_1_0_0_1_n_n : DotDims S1280x1024 S1024x64 S1280x64 where
  lhsContracting := [1]
  rhsContracting := [0]
  lhsNonContracting := [0]
  rhsNonContracting := [1]
  lhsBatch := []
  rhsBatch := []
  wf := dot_S1280x1024_S1024x64_S1280x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S1280x64_S64x64_S1280x64_1_0_0_1_n_n : DotDims S1280x64 S64x64 S1280x64 where
  lhsContracting := [1]
  rhsContracting := [0]
  lhsNonContracting := [0]
  rhsNonContracting := [1]
  lhsBatch := []
  rhsBatch := []
  wf := dot_S1280x64_S64x64_S1280x64_1_0_0_1_n_n_wf
def dot_S1280x32_S1280x32_S1280x1280_1_1_0_0_n_n : DotDims S1280x32 S1280x32 S1280x1280 where
  lhsContracting := [1]
  rhsContracting := [1]
  lhsNonContracting := [0]
  rhsNonContracting := [0]
  lhsBatch := []
  rhsBatch := []
  wf := dot_S1280x32_S1280x32_S1280x1280_1_1_0_0_n_n_wf

abbrev win0_0 : Pipeline.Window sig grid0 :=
  Pipeline.Window.ofSpec (Memref.whole main_v1) S1280x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1280x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S1280x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1280x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S1280x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1280x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1280x1280.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x1024 : Shape := ⟨2, ![10000, 1024]⟩
abbrev S320000 : Shape := ⟨1, ![320000]⟩
abbrev S1024x64 : Shape := ⟨2, ![1024, 64]⟩
abbrev S64x32 : Shape := ⟨2, ![64, 32]⟩
abbrev S10000x32 : Shape := ⟨2, ![10000, 32]⟩
abbrev S10000x64 : Shape := ⟨2, ![10000, 64]⟩
abbrev S_ : Shape := ⟨0, ![]⟩
abbrev S320000x1 : Shape := ⟨2, ![320000, 1]⟩
abbrev S320000x64 : Shape := ⟨2, ![320000, 64]⟩
abbrev S320000x32 : Shape := ⟨2, ![320000, 32]⟩
abbrev S32x10000 : Shape := ⟨2, ![32, 10000]⟩
abbrev S10000x10000 : Shape := ⟨2, ![10000, 10000]⟩
abbrev S100000000 : Shape := ⟨1, ![100000000]⟩

abbrev nBuf : Space → Nat
  | .hbm => 68
  | .vmem => 0
  | .smem => 0
  | _ => 0

abbrev bufTy : (tb : Table) → Fin (tcTables nBuf tb) → BufTy
  | .hbm, ⟨0, _⟩ => ⟨S10000x1024, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S1024x64, .f32⟩
  | .hbm, ⟨5, _⟩ => ⟨S64x32, .f32⟩
  | .hbm, ⟨6, _⟩ => ⟨S64x32, .f32⟩
  | .hbm, ⟨7, _⟩ => ⟨S10000x32, .f32⟩
  | .hbm, ⟨8, _⟩ => ⟨S10000x64, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x64, .f32⟩
  | .hbm, ⟨18, _⟩ => ⟨S320000x1, .f32⟩
  | .hbm, ⟨19, _⟩ => ⟨S320000x64, .f32⟩
  | .hbm, ⟨20, _⟩ => ⟨S320000x64, .f32⟩
  | .hbm, ⟨21, _⟩ => ⟨S_, .f32⟩
  | .hbm, ⟨22, _⟩ => ⟨S10000x64, .f32⟩
  | .hbm, ⟨23, _⟩ => ⟨S320000x1, .i32⟩
  | .hbm, ⟨24, _⟩ => ⟨S10000x64, .f32⟩
  | .hbm, ⟨25, _⟩ => ⟨S_, .f32⟩
  | .hbm, ⟨26, _⟩ => ⟨S10000x64, .f32⟩
  | .hbm, ⟨27, _⟩ => ⟨S10000x64, .f32⟩
  | .hbm, ⟨28, _⟩ => ⟨S10000x32, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x32, .f32⟩
  | .hbm, ⟨38, _⟩ => ⟨S320000x1, .f32⟩
  | .hbm, ⟨39, _⟩ => ⟨S320000x32, .f32⟩
  | .hbm, ⟨40, _⟩ => ⟨S320000x32, .f32⟩
  | .hbm, ⟨41, _⟩ => ⟨S_, .f32⟩
  | .hbm, ⟨42, _⟩ => ⟨S10000x32, .f32⟩
  | .hbm, ⟨43, _⟩ => ⟨S320000x1, .i32⟩
  | .hbm, ⟨44, _⟩ => ⟨S10000x32, .f32⟩
  | .hbm, ⟨45, _⟩ => ⟨S10000x32, .f32⟩
  | .hbm, ⟨46, _⟩ => ⟨S_, .i32⟩
  | .hbm, ⟨47, _⟩ => ⟨S320000, .i32⟩
  | .hbm, ⟨48, _⟩ => ⟨S320000, .i1⟩
  | .hbm, ⟨49, _⟩ => ⟨S_, .i32⟩
  | .hbm, ⟨50, _⟩ => ⟨S320000, .i32⟩
  | .hbm, ⟨51, _⟩ => ⟨S320000, .i32⟩
  | .hbm, ⟨52, _⟩ => ⟨S320000, .i32⟩
  | .hbm, ⟨53, _⟩ => ⟨S320000x1, .i32⟩
  | .hbm, ⟨54, _⟩ => ⟨S320000x32, .f32⟩
  | .hbm, ⟨55, _⟩ => ⟨S320000x1, .f32⟩
  | .hbm, ⟨56, _⟩ => ⟨S320000x32, .f32⟩
  | .hbm, ⟨57, _⟩ => ⟨S320000x32, .f32⟩
  | .hbm, ⟨58, _⟩ => ⟨S_, .f32⟩
  | .hbm, ⟨59, _⟩ => ⟨S10000x32, .f32⟩
  | .hbm, ⟨60, _⟩ => ⟨S320000x1, .i32⟩
  | .hbm, ⟨61, _⟩ => ⟨S10000x32, .f32⟩
  | .hbm, ⟨62, _⟩ => ⟨S10000x32, .f32⟩
  | .hbm, ⟨63, _⟩ => ⟨S10000x32, .f32⟩
  | .hbm, ⟨64, _⟩ => ⟨S10000x32, .f32⟩
  | .hbm, ⟨65, _⟩ => ⟨S32x10000, .f32⟩
  | .hbm, ⟨66, _⟩ => ⟨S10000x10000, .f32⟩
  | .hbm, ⟨67, _⟩ => ⟨S100000000, .f32⟩
  | _, _ => ⟨S10000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x64_0_1 : S320000x1.BroadcastsInDim S320000x64 (![0, 1] : Fin 2 → Fin S320000x64.rank)
  bcast_S_S10000x64 : S_.BroadcastsInDim S10000x64 (![] : Fin 0 → Fin S10000x64.rank)
  bcast_S320000x1_S320000x32_0_1 : S320000x1.BroadcastsInDim S320000x32 (![0, 1] : Fin 2 → Fin S320000x32.rank)
  bcast_S_S10000x32 : S_.BroadcastsInDim S10000x32 (![] : Fin 0 → Fin S10000x32.rank)
  transposes_S10000x32_S32x10000_1_0 : S10000x32.Transposes [1, 0] S32x10000
  shapeCasts_S10000x10000_S100000000 : S10000x10000.ShapeCasts S100000000
  dot_S10000x1024_S1024x64_S10000x64_1_0_0_1_n_n_wf : DotDims.WF S10000x1024 S1024x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S10000x64_S64x32_S10000x32_1_0_0_1_n_n_wf : DotDims.WF S10000x64 S64x32 S10000x32 [1] [0] [0] [1] [] []
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  dot_S10000x32_S32x10000_S10000x10000_1_0_0_1_n_n_wf : DotDims.WF S10000x32 S32x10000 S10000x10000 [1] [0] [0] [1] [] []

variable [Facts₀]

def dot_S10000x1024_S1024x64_S10000x64_1_0_0_1_n_n : DotDims S10000x1024 S1024x64 S10000x64 where
  lhsContracting := [1]
  rhsContracting := [0]
  lhsNonContracting := [0]
  rhsNonContracting := [1]
  lhsBatch := []
  rhsBatch := []
  wf := dot_S10000x1024_S1024x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.K.Region0.lean ====
import proofs.«419583_j52913997087388_1_alg».proof.Proof.Gen.Kernel.Launch
import proofs.«419583_j52913997087388_1_alg».proof.Proof.Gen.Kernel.Skeleton
import proofs.«419583_j52913997087388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 0: the body's half of the frame argument

Pipeline 0 multiplies a block of rows (window 0, 1280×1024 bf16) by a matrix of weights that is the same at
every grid point (window 1, 1024×64 bf16) and writes the product block (window 2, 1280×64 f32).  Everything here
is stated at a parameter `V`: the contents of the core's buffers at the moment the pipeline starts.  From `V`
we name each window's block at a grid point, say what the body leaves in the output's staging buffer (one
whole-block store of the product of the two input blocks), prove the body's triple, package the proof data,
and discharge the body obligation of the pipeline loop. -/

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## Blocks -/

/-- The block of window `w` at grid point `t`: the window's view at that point, read from the window's
    array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window.  It moves with the grid point and is fetched at each one; whatever the schedule, the
    staging buffer handed to the body holds the block of that point.  This needs of the proof data only that
    its array for window 0 is `V`'s and that the body leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- The weights' window.  Its block index is the same at every grid point, so it is fetched once, at the first
    point, and afterwards the body is handed the buffer it left: since the body leaves that block in place and
    the index never moves, the buffer still holds the block of the current point (which is the one block there
    is).  Same two assumptions on the proof data, at window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-! ## The rectangles the body touches: each staging buffer, whole -/

abbrev r0_0 : Rect S1280x1024 := Rect.unit (s := S1280x1024) ![0, 0] S1280x1024.size inb_S1280x1024_S1280x1024_0_0
abbrev r0_1 : Rect S1024x64 := Rect.unit (s := S1024x64) ![0, 0] S1024x64.size inb_S1024x64_S1024x64_0_0
abbrev r0_2 : Rect S1280x64 := Rect.unit (s := S1280x64) ![0, 0] S1280x64.size inb_S1280x64_S1280x64_0_0

/-! ## The output's staging buffer after the body -/

/-- The body stores once into the output's buffer, over the whole of it: the matrix product (into a zero
    accumulator) of what it loaded from the two inputs' buffers.  As a list of stored pieces, that is the single
    piece below. -/
def out0_2 (x0 : Vec F S1280x1024 .bf16) (x1 : Vec F S1024x64 .bf16) : Vec F S1280x64 .f32 :=
  View.canon [⟨r0_2, k0_pay1 (View.ld x0 r0_0) (View.ld x1 r0_1)⟩]

/-- That one piece is the whole buffer, so every index of the buffer lies in a stored piece. -/
theorem cover0_2 (p0 : Vec F S1280x64 .f32) (y : S1280x64.Idx) :
    ∃ pc ∈ ([⟨r0_2, p0⟩] : List (View.Piece (Elt F) S1280x64 .f32)), y ∈ pc.1.set :=
  View.cover_of_tiled [⟨r0_2, p0⟩] S1280x64.size (by rfl) y

/-! ## The body's triple -/

set_option maxHeartbeats 1000000 in
/-- On three whole staging memrefs — the two inputs' at known contents `x0`, `x1`, the output's at any
    contents — the body runs to a continuation that gets the inputs back unchanged and the output at
    `out0_2 x0 x1`.  The printed function equals its skeleton of memory operations; the symbolic executor runs
    the two live loads, the dead load of the output block, and the store; what is left is that the buffer read
    back after the one store is the canonical form of the one-piece list, which holds because the piece covers. -/
theorem sound_kernel0 (c : Dev nD) (E : Set ℕ) (i : grid0.Coords)
    (arg1 : Memref sig .tc .vmem S1280x1024 .bf16) (harg1 : arg1.IsWhole)
    (arg2 : Memref sig .tc .vmem S1024x64 .bf16) (harg2 : arg2.IsWhole)
    (arg3 : Memref sig .tc .vmem S1280x64 .f32) (harg3 : arg3.IsWhole)
    (x0 : Vec F S1280x1024 .bf16) (x1 : Vec F S1024x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- Pipeline 0's proof data on core `c`: the windows' arrays are `V`'s; after the body at point `t` each input's
    buffer still holds its block and the output's holds the product of the two blocks; the loop invariant is the
    untouched remainder of the core's state; every share is full and the core owes nothing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- What the body finds in each input's buffer: the block of the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- The loop's precondition for the body at point `t`, with the three windows written out, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and its postcondition. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at point `t`.  Both inputs' buffers hold the blocks of the point, so the body's triple applies with
    those blocks; the invariant and the core's debt are not touched and are handed through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline loop's body obligation: its separating product over the three windows written out is the
    statement just proved. -/
theorem body_obligation0 (c : Dev nD) : BodyObligation (dat0 (F := F) V c) (defs₀ (F := F)) Variants.none () Set.univ := fun t => by
  rw [bigSep_W0, bigSep_W0]
  exact sound_body0 V c t

end Region0

end Cert.Kernel.Frm

end
-- ==== Proof.K.Region1.lean ====
import proofs.«419583_j52913997087388_1_alg».proof.Proof.Gen.Kernel.Launch
import proofs.«419583_j52913997087388_1_alg».proof.Proof.Gen.Kernel.Skeleton
import proofs.«419583_j52913997087388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 1: the body's half of the frame argument

Pipeline 1 multiplies a block of rows (window 0, 1280×64 bf16) by a matrix of weights that is the same at
every grid point (window 1, 64×64 bf16) and writes the product block (window 2, 1280×64 f32).  Everything here
is stated at a parameter `V`: the contents of the core's buffers at the moment the pipeline starts.  From `V`
we name each window's block at a grid point, say what the body leaves in the output's staging buffer (one
whole-block store of the product of the two input blocks), prove the body's triple, package the proof data,
and discharge the body obligation of the pipeline loop. -/

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## Blocks -/

/-- The block of window `w` at grid point `t`: the window's view at that point, read from the window's
    array as `V` has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows' window.  It moves with the grid point and is fetched at each one; whatever the schedule, the
    staging buffer handed to the body holds the block of that point.  This needs of the proof data only that
    its array for window 0 is `V`'s and that the body leaves the block where it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  refine (dat.before_in_eq_fetched 0 rfl (fun _ => rfl) (fun _ _ _ => rfl) hkeep t d).trans ?_
  unfold Dat.fetched Dat.blockOf iblk1; rw [hA]; try rfl

/-- The weights' window.  Its block index is the same at every grid point, so it is fetched once, at the first
    point, and afterwards the body is handed the buffer it left: since the body leaves that block in place and
    the index never moves, the buffer still holds the block of the current point (which is the one block there
    is).  Same two assumptions on the proof data, at window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  refine (dat.before_in_eq_fetched 1 rfl (fun _ => rfl) (fun _ _ _ => rfl) hkeep t d).trans ?_
  unfold Dat.fetched Dat.blockOf iblk1; rw [hA]; try rfl

/-! ## The rectangles the body touches: each staging buffer, whole -/

abbrev r1_0 : Rect S1280x64 := Rect.unit (s := S1280x64) ![0, 0] S1280x64.size inb_S1280x64_S1280x64_0_0
abbrev r1_1 : Rect S64x64 := Rect.unit (s := S64x64) ![0, 0] S64x64.size inb_S64x64_S64x64_0_0
abbrev r1_2 : Rect S1280x64 := Rect.unit (s := S1280x64) ![0, 0] S1280x64.size inb_S1280x64_S1280x64_0_0

/-! ## The output's staging buffer after the body -/

/-- The body stores once into the output's buffer, over the whole of it: the matrix product (into a zero
    accumulator) of what it loaded from the two inputs' buffers.  As a list of stored pieces, that is the single
    piece below. -/
def out1_2 (x0 : Vec F S1280x64 .bf16) (x1 : Vec F S64x64 .bf16) : Vec F S1280x64 .f32 :=
  View.canon [⟨r1_2, k1_pay1 (View.ld x0 r1_0) (View.ld x1 r1_1)⟩]

/-- That one piece is the whole buffer, so every index of the buffer lies in a stored piece. -/
theorem cover1_2 (p0 : Vec F S1280x64 .f32) (y : S1280x64.Idx) :
    ∃ pc ∈ ([⟨r1_2, p0⟩] : List (View.Piece (Elt F) S1280x64 .f32)), y ∈ pc.1.set :=
  View.cover_of_tiled [⟨r1_2, p0⟩] S1280x64.size (by rfl) y

/-! ## The body's triple -/

set_option maxHeartbeats 1000000 in
/-- On three whole staging memrefs — the two inputs' at known contents `x0`, `x1`, the output's at any
    contents — the body runs to a continuation that gets the inputs back unchanged and the output at
    `out1_2 x0 x1`.  The printed function equals its skeleton of memory operations; the symbolic executor runs
    the two live loads, the dead load of the output block, and the store; what is left is that the buffer read
    back after the one store is the canonical form of the one-piece list, which holds because the piece covers. -/
theorem sound_kernel1 (c : Dev nD) (E : Set ℕ) (i : grid1.Coords)
    (arg1 : Memref sig .tc .vmem S1280x64 .bf16) (harg1 : arg1.IsWhole)
    (arg2 : Memref sig .tc .vmem S64x64 .bf16) (harg2 : arg2.IsWhole)
    (arg3 : Memref sig .tc .vmem S1280x64 .f32) (harg3 : arg3.IsWhole)
    (x0 : Vec F S1280x64 .bf16) (x1 : Vec F S64x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- Pipeline 1's proof data on core `c`: the windows' arrays are `V`'s; after the body at point `t` each input's
    buffer still holds its block and the output's holds the product of the two blocks; the loop invariant is the
    untouched remainder of the core's state; every share is full and the core owes nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- What the body finds in each input's buffer: the block of the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- The loop's precondition for the body at point `t`, with the three windows written out, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and its postcondition. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at point `t`.  Both inputs' buffers hold the blocks of the point, so the body's triple applies with
    those blocks; the invariant and the core's debt are not touched and are handed through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline loop's body obligation: its separating product over the three windows written out is the
    statement just proved. -/
theorem body_obligation1 (c : Dev nD) : BodyObligation (dat1 (F := F) V c) (defs₀ (F := F)) Variants.none () Set.univ := fun t => by
  rw [bigSep_W1, bigSep_W1]
  exact sound_body1 V c t

end Region1

end Cert.Kernel.Frm

end
-- ==== Proof.K.Region2.lean ====
/- The third TensorCore region of the program (pipeline 2, the outer-product kernel on an 8×8 grid), at a
   parameter V: the TensorCore's buffer contents when the region is entered. Both input windows cut row blocks
   out of ONE array z (window 0 the row block i, window 1 the row block j); the body contracts the two
   [1280,32] blocks along their second axes into a zero accumulator and stores the [1280,1280] product as the
   output block (i, j). Here: the windows' blocks, what the body leaves in the output's staging buffer, the
   body's triple, the pipeline's proof data and the library's body obligation, at any float instance. -/
import proofs.«419583_j52913997087388_1_alg».proof.Proof.Gen.Kernel.Launch
import proofs.«419583_j52913997087388_1_alg».proof.Proof.Gen.Kernel.Skeleton
import proofs.«419583_j52913997087388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window w's block at grid point t, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block-i window moves only when i does, so it is fetched at one point in eight; its staging buffer
    nevertheless holds the block of the CURRENT point everywhere: between two fetches the block index stands
    still, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row-block-j window is fetched at every point; the same statement holds of it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole staging buffer -/

abbrev r2_0 : Rect S1280x32 := Rect.unit (s := S1280x32) ![0, 0] S1280x32.size inb_S1280x32_S1280x32_0_0
abbrev r2_2 : Rect S1280x1280 := Rect.unit (s := S1280x1280) ![0, 0] S1280x1280.size inb_S1280x1280_S1280x1280_0_0

/-! ## What the body leaves in the output window's buffer -/

/-- The output's staging buffer after the body, from the two input blocks: one store over the whole buffer, of
    the product of the first block with the transpose of the second. -/
def out2_2 (x0 x1 : Vec F S1280x32 .bf16) : Vec F S1280x1280 .f32 :=
  View.canon [⟨r2_2, k2_pay1 (View.ld x0 r2_0) (View.ld x1 r2_0)⟩]

/-- The one store covers the buffer. -/
theorem cover2_2 (p0 : Vec F S1280x1280 .f32) (y : S1280x1280.Idx) :
    ∃ pc ∈ ([⟨r2_2, p0⟩] : List (View.Piece (Elt F) S1280x1280 .f32)), y ∈ pc.1.set :=
  View.cover_of_tiled [⟨r2_2, p0⟩] S1280x1280.size (by rfl) y

/-! ## The body's triple -/

set_option maxHeartbeats 1000000 in
/-- The body on whole staging memrefs — the two inputs' at contents x0 and x1, the output's at anything — runs
    to a state with the inputs' as they were and the output's at out2_2 x0 x1. The load of the output block
    that precedes the store is dead: the accumulator the product is added to is the zero constant. -/
theorem sound_kernel2 (c : Dev nD) (E : Set ℕ) (i : grid2.Coords)
    (arg2 : Memref sig .tc .vmem S1280x32 .bf16) (harg2 : arg2.IsWhole)
    (arg3 : Memref sig .tc .vmem S1280x32 .bf16) (harg3 : arg3.IsWhole)
    (arg4 : Memref sig .tc .vmem S1280x1280 .f32) (harg4 : arg4.IsWhole)
    (x0 x1 : Vec F S1280x32 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__outer_kernel i arg2 harg2 arg3 harg3 arg4 harg4) K := by
  simp only [cc2__outer_kernel_eq_skeleton]; unfold cc2__outer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core c: the arrays as the region finds them; after the body at point t each
    input's buffer at its block and the output's at out2_2 of the two blocks; the invariant the scoped rest and the
    generator register, untouched; nothing owed. The two input windows read one array, which the pipeline therefore
    holds as two complementary halves of the full share, one per window; the output array at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t: the invariant, what the core owes, and the three current staging buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two inputs' memrefs hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Frm

end
-- ==== Proof.K.Run.lean ====
/-
  The kernel's program as a whole: every weakly fair execution of its fifteen items — stretches of host operations and
  three kernel regions — from any memory with zero counters terminates without a fault, and in every final state each
  buffer the program owns outside the kernels' scratch memory holds what the items, run in order, leave in it: a host
  stretch's operations applied to what was there, a region's result array replaced by what the region wrote. Stated
  for any contents `outs` the regions leave and any proof data, given one segment record per region whose entry and
  exit are those buffer contents.
-/
import proofs.«419583_j52913997087388_1_alg».proof.Proof.Gen.Kernel.Regions

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- The run, given the regions' records: at the end every unscoped buffer holds the last valuation's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V15 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, hpre0 c, hpost0 c, .rfl, .rfl, .rfl, .rfl, hpre1 c, hpost1 c, .rfl, .rfl, hpre2 c, hpost2 c, sep_mono .rfl (hE3 c)⟩)
    (hinit := ?_) (QY := fun c s => ∀ b ∈ Pipeline.ucRefs τ sig, s.mem (((c : Thread nD τ)).1, b) = V15 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V15 m outs c) s')
    isplitl [Hh] <;> iassumption

end Cert.Kernel.Frm

end
-- ==== Proof.K.Segs.lean ====
/-
  The kernel's three regions as segments of its program. Region k is entered with every buffer the program owns outside
  the kernels' scratch memory at the contents the items before it leave, and left with its result array replaced by
  what its grid points wrote (each point's block, in order) and everything else as entered. The result arrays are
  named here — `o4`, `o10`, `o14`: the three products — each a function of the contents its region is entered with,
  which the earlier results determine. Regions 0 and 1 read two distinct arrays. Region 2 reads ONE array through two
  windows (row block i and row block j of the same table): on entry that array's ownership is split into two halves,
  one per window, and joined again on exit; no point writes it.
-/
import proofs.«419583_j52913997087388_1_alg».proof.Proof.K.Region0
import proofs.«419583_j52913997087388_1_alg».proof.Proof.K.Region1
import proofs.«419583_j52913997087388_1_alg».proof.Proof.K.Region2
import proofs.«419583_j52913997087388_1_alg».proof.Proof.K.Run

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave, and the contents each is entered with -/

/-- Region 0 is entered with the buffers as the first three host stretches leave them. -/
abbrev VR3 : (c : Dev nD) → (b : Ref sig .tc) → Buf (Elt F) ((c : Thread nD τ).loc b) := fun c b => V3 m c b
/-- The first product: region 0's result array after its last point. -/
def o4 (c : Dev nD) : Buf (Elt F) ((c : Thread nD τ).loc main_v3) := (dat0 (VR3 m) c).arrAt 2 cfg0.N
/-- The regions' results as far as region 0's is known. -/
def outs1 : Outs (F := F) := fun _ r c => if h : r = main_v3 then (by subst h; exact o4 m c) else m ((c : Thread nD τ).loc r)
/-- Region 1 is entered with region 0's result in place and five more host stretches run. -/
abbrev VR9 : (c : Dev nD) → (b : Ref sig .tc) → Buf (Elt F) ((c : Thread nD τ).loc b) := fun c b => V9 m (outs1 m) c b
/-- The second product: region 1's result array after its last point. -/
def o10 (c : Dev nD) : Buf (Elt F) ((c : Thread nD τ).loc main_v23) := (dat1 (VR9 m) c).arrAt 2 cfg1.N
/-- The regions' results as far as region 1's is known. -/
def outs2 : Outs (F := F) := fun _ r c =>
  if h : r = main_v3 then (by subst h; exact o4 m c)
  else if h : r = main_v23 then (by subst h; exact o10 m c) else m ((c : Thread nD τ).loc r)
/-- Region 2 is entered with both results in place and three more host stretches run. -/
abbrev VR13 : (c : Dev nD) → (b : Ref sig .tc) → Buf (Elt F) ((c : Thread nD τ).loc b) := fun c b => V13 m (outs2 m) c b
/-- The decoder's product: region 2's result array after its last point. -/
def o14 (c : Dev nD) : Buf (Elt F) ((c : Thread nD τ).loc main_v45) := (dat2 (VR13 m) c).arrAt 2 cfg2.N
/-- The three regions' results. -/
def outs : Outs (F := F) := fun _ r c =>
  if h : r = main_v3 then (by subst h; exact o4 m c)
  else if h : r = main_v23 then (by subst h; exact o10 m c)
  else if h : r = main_v45 then (by subst h; exact o14 m c) else m ((c : Thread nD τ).loc r)

theorem outs1_v3 (J : ℕ) (c : Dev nD) : outs1 m J main_v3 c = o4 m c := by simp only [outs1, dif_pos]
theorem outs2_v3 (J : ℕ) (c : Dev nD) : outs2 m J main_v3 c = o4 m c := by simp only [outs2, dif_pos]
theorem outs_v3 (J : ℕ) (c : Dev nD) : outs m J main_v3 c = o4 m c := by simp only [outs, dif_pos]
theorem outs2_v23 (J : ℕ) (c : Dev nD) : outs2 m J main_v23 c = o10 m c := by
  unfold outs2; rw [dif_neg (by decide), dif_pos rfl]
theorem outs_v23 (J : ℕ) (c : Dev nD) : outs m J main_v23 c = o10 m c := by
  unfold outs; rw [dif_neg (by decide), dif_pos rfl]
theorem outs_v45 (J : ℕ) (c : Dev nD) : outs m J main_v45 c = o14 m c := by
  unfold outs; rw [dif_neg (by decide), dif_neg (by decide), dif_pos rfl]

/-- The contents region 1 is entered with depend on the regions' results only through region 0's. -/
theorem V9_congr (o o' : Outs (F := F)) (c : Dev nD) (h : o 4 main_v3 c = o' 4 main_v3 c) : V9 m o c = V9 m o' c := by
  dsimp only [V9, V8, V7, V6, V5, V4]; rw [h]
/-- The contents region 2 is entered with depend on the regions' results only through the first two. -/
theorem V13_congr (o o' : Outs (F := F)) (c : Dev nD) (h : o 4 main_v3 c = o' 4 main_v3 c) (h' : o 10 main_v23 c = o' 10 main_v23 c) :
    V13 m o c = V13 m o' c := by
  dsimp only [V13, V12, V11, V10, V9, V8, V7, V6, V5, V4]; rw [h, h']

theorem V9_outs (c : Dev nD) : V9 m (outs m) c = V9 m (outs1 m) c := V9_congr m _ _ c ((outs_v3 m 4 c).trans (outs1_v3 m 4 c).symm)
theorem V13_outs (c : Dev nD) : V13 m (outs m) c = V13 m (outs2 m) c :=
  V13_congr m _ _ c ((outs_v3 m 4 c).trans (outs2_v3 m 4 c).symm) ((outs_v23 m 10 c).trans (outs2_v23 m 10 c).symm)
theorem V9_outs2 (c : Dev nD) : V9 m (outs2 m) c = V9 m (outs1 m) c := V9_congr m _ _ c ((outs2_v3 m 4 c).trans (outs1_v3 m 4 c).symm)

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (VR3 m) c
  | ⟨1, _⟩ => fun c => dat1 (VR9 m) c
  | ⟨2, _⟩ => fun c => dat2 (VR13 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state and the core owing nothing. -/
abbrev R (c : Dev nD) : sProp 𝕄 := iprop((∃ r, prngReg c r) ∗ ∃ W, owes (c : Thread nD τ) (0 : CellTallies nD τ sig Unit) W)

/-! ## Region 0: the first product -/

/-- The contents region 0 leaves. -/
abbrev VR4 : (c : Dev nD) → (b : Ref sig .tc) → Buf (Elt F) ((c : Thread nD τ).loc b) := fun c b => V4 m (outs m) c b

/-- At region 0's exit each of its arrays holds what the pipeline leaves: an input its entry contents, the result `o4`. -/
theorem hF0 (c : Dev nD) (w : Fin cfg0.W) : (pdats m 0 c).arrAt w cfg0.N = VR4 m c (Pipeline.arrRef spec0 w) := by
  match w with
  | ⟨0, _⟩ => exact ((pdats m 0 c).arrAt_in 0 rfl _).trans (V4_of m (outs m) c main_v1 (by decide)).symm
  | ⟨1, _⟩ => exact ((pdats m 0 c).arrAt_in 1 rfl _).trans (V4_of m (outs m) c main_v2 (by decide)).symm
  | ⟨2, _⟩ =>
    show o4 m c = Function.update (V3 m c) _ (outs m 4 main_v3 c) _
    rw [Function.update_self, outs_v3]
/-- Every other buffer holds what it held at entry. -/
theorem hrest0 (c : Dev nD) : ∀ b, b ∉ Finset.univ.image (Pipeline.arrRef spec0) → VR4 m c b = VR3 m c b :=
  fun b hb => V4_of m (outs m) c b fun h => hb (Finset.mem_image.mpr ⟨2, Finset.mem_univ _, (List.mem_singleton.mp h).symm⟩)

set_option backward.isDefEq.respectTransparency.types false in
/-- Region 0 over the thread state "every unscoped buffer at the boundary's contents, the generator register at some
    state, nothing owed": its arrays are split out of the unscoped buffers on entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR3 m c) (VR4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the second product -/

/-- The contents region 1 leaves. -/
abbrev VR10 : (c : Dev nD) → (b : Ref sig .tc) → Buf (Elt F) ((c : Thread nD τ).loc b) := fun c b => V10 m (outs m) c b

theorem hF1 (c : Dev nD) (w : Fin cfg1.W) : (pdats m 1 c).arrAt w cfg1.N = VR10 m c (Pipeline.arrRef spec1 w) := by
  match w with
  | ⟨0, _⟩ => exact ((pdats m 1 c).arrAt_in 0 rfl _).trans ((V10_of m (outs m) c main_v20 (by decide)).trans (congrFun (V9_outs m c) _)).symm
  | ⟨1, _⟩ => exact ((pdats m 1 c).arrAt_in 1 rfl _).trans ((V10_of m (outs m) c main_v22 (by decide)).trans (congrFun (V9_outs m c) _)).symm
  | ⟨2, _⟩ =>
    show o10 m c = Function.update (V9 m (outs m) c) _ (outs m 10 main_v23 c) _
    rw [Function.update_self, outs_v23]
theorem hrest1 (c : Dev nD) : ∀ b, b ∉ Finset.univ.image (Pipeline.arrRef spec1) → VR10 m c b = VR9 m c b :=
  fun b hb => (V10_of m (outs m) c b fun h => hb (Finset.mem_image.mpr ⟨2, Finset.mem_univ _, (List.mem_singleton.mp h).symm⟩)).trans
    (congrFun (V9_outs m c) _)

set_option backward.isDefEq.respectTransparency.types false in
/-- Region 1 over the same thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR9 m) c).loose
  hwaits := Pipeline.hwaits_of_owed_zero _ _ _ _ L lv 1 fun _ _ => rfl
  pre c := iprop(StableHlo.held (c : Thread nD τ) (Pipeline.ucRefs τ sig) (V9 m (outs1 m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR9 m c) (VR10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: the decoder's product, two windows on one array -/

section Region2Arrays

/-- The distinct buffers behind region 2's arrays are two: the table both input windows read, and the result. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v44) ↦{fullShare} W main_v44) ∗ (((c : Thread nD τ).loc main_v45) ↦{fullShare} W main_v45)) := by
  unfold Pipeline.arrBufs
  rw [show Finset.univ.image (Pipeline.arrRef spec2) = {main_v44, main_v45} from by decide, bigSep_insert (by decide), bigSep_singleton]
  rfl

variable (V : (c : Dev nD) → (b : Ref sig .tc) → Buf (Elt F) ((c : Thread nD τ).loc b))

/-- Region 2's windowed arrays, one by one: the table at the left half share for window 0 and at the right half for
    window 1, the result whole. -/
theorem arrays2_eq (c : Dev nD) (Fn : (w : Fin cfg2.W) → Buf (Elt F) ((cfg2.win w).arr.view.loc (c : Thread nD τ))) :
    ((dat2 V c).arrays Fn : sProp 𝕄)
      = iprop((((c : Thread nD τ).loc main_v44) ↦{fullShare.left} Fn 0) ∗ (((c : Thread nD τ).loc main_v44) ↦{fullShare.right} Fn 1)
          ∗ (((c : Thread nD τ).loc main_v45) ↦{fullShare} Fn 2)) := by
  unfold Dat.arrays
  rw [bigSep_W2, (arr_whole2 0).set_eq_univ, (arr_whole2 2).set_eq_univ]
  rfl

/-- ENTRY: the two buffers at contents `W` are the three windows' arrays at contents that agree with `W`; the table's
    ownership is split into its two halves. -/
theorem split2 (c : Dev nD) (W : (b : Ref sig .tc) → Buf (Elt F) ((c : Thread nD τ).loc b))
    (Fn : (w : Fin cfg2.W) → Buf (Elt F) ((cfg2.win w).arr.view.loc (c : Thread nD τ)))
    (h0 : Fn 0 = W main_v44) (h1 : Fn 1 = W main_v44) (h2 : Fn 2 = W main_v45) :
    (Pipeline.arrBufs (Ix := Unit) (Name := ℕ) (U := UR sig nD τ) (Lvl := ℕ) spec2 c W : sProp 𝕄) ⊢ (dat2 V c).arrays Fn := by
  rw [arrBufs2_eq, arrays2_eq, h0, h1, h2]
  iintro ⟨H44, H45⟩
  ihave H := (pointsTo_share (PosShare.mem_left_op_right fullShare)).1 $$ H44
  icases H with ⟨Hl, Hr⟩
  isplitl [Hl]; · iexact Hl
  isplitl [Hr]; · iexact Hr
  iexact H45

/-- EXIT: the converse; the two halves of the table, at the same contents, are joined. -/
theorem join2 (c : Dev nD) (W : (b : Ref sig .tc) → Buf (Elt F) ((c : Thread nD τ).loc b))
    (Fn : (w : Fin cfg2.W) → Buf (Elt F) ((cfg2.win w).arr.view.loc (c : Thread nD τ)))
    (h0 : Fn 0 = W main_v44) (h1 : Fn 1 = W main_v44) (h2 : Fn 2 = W main_v45) :
    ((dat2 V c).arrays Fn : sProp 𝕄) ⊢ Pipeline.arrBufs (Ix := Unit) (Name := ℕ) (U := UR sig nD τ) (Lvl := ℕ) spec2 c W := by
  rw [arrBufs2_eq, arrays2_eq, h0, h1, h2]
  iintro ⟨Hl, Hr, H45⟩
  isplitl [Hl Hr]
  · iapply (pointsTo_share (PosShare.mem_left_op_right fullShare)).2
    isplitl [Hl]; · iexact Hl
    iexact Hr
  iexact H45

end Region2Arrays

/-- The contents region 2 leaves. -/
abbrev VR14 : (c : Dev nD) → (b : Ref sig .tc) → Buf (Elt F) ((c : Thread nD τ).loc b) := fun c b => V14 m (outs m) c b

/-- A buffer other than the result holds at region 2's exit what it held at entry. -/
theorem V14_rest (c : Dev nD) (b : Ref sig .tc) (hb : b ≠ main_v45) : VR14 m c b = VR13 m c b :=
  (V14_of m (outs m) c b fun h => hb (List.mem_singleton.mp h)).trans (congrFun (V13_outs m c) _)
theorem VR14_v45 (c : Dev nD) : VR14 m c main_v45 = o14 m c := by
  show Function.update (V13 m (outs m) c) _ (outs m 14 main_v45 c) _ = _
  rw [Function.update_self, outs_v45]

/-- ENTRY, the arrays' part: the unscoped buffers at region 2's entry contents are its windows' arrays and the rest. -/
theorem entry2 (c : Dev nD) :
    (unscopedBufs c (VR13 m c) : sProp 𝕄)
      ⊢ iprop((pdats m 2 c).arrays ((pdats m 2 c).arrAt · 0) ∗ Pipeline.unscopedRest (Ix := Unit) (Name := ℕ) (U := UR sig nD τ) (Lvl := ℕ) spec2 c (VR13 m c)) := by
  rw [Pipeline.unscopedBufs_split₀ (Pipeline.pin (pcfgs (F := F)) adm) 2 winFacts₀2.arr_unscoped c (VR13 m c)]
  exact sep_mono (split2 (VR13 m) c (VR13 m c) _ rfl rfl rfl) .rfl

/-- EXIT, the arrays' part: the windows' arrays after the last point and the rest are the unscoped buffers at the exit contents. -/
theorem exit2 (c : Dev nD) :
    iprop((pdats m 2 c).arrays ((pdats m 2 c).arrAt · cfg2.N) ∗ Pipeline.unscopedRest (Ix := Unit) (Name := ℕ) (U := UR sig nD τ) (Lvl := ℕ) spec2 c (VR13 m c))
      ⊢ (unscopedBufs c (VR14 m c) : sProp 𝕄) := by
  rw [Pipeline.unscopedBufs_split₀ (Pipeline.pin (pcfgs (F := F)) adm) 2 winFacts₀2.arr_unscoped c (VR14 m c)]
  have hrest : (Pipeline.unscopedRest (Ix := Unit) (Name := ℕ) (U := UR sig nD τ) (Lvl := ℕ) spec2 c (VR14 m c) : sProp 𝕄)
      = Pipeline.unscopedRest spec2 c (VR13 m c) := by
    unfold Pipeline.unscopedRest
    refine bigSep_congr fun b hb => ?_
    rw [V14_rest m c b fun h => (Finset.mem_sdiff.mp hb).2 (Finset.mem_image.mpr ⟨2, Finset.mem_univ _, h.symm⟩)]
  refine BIClass.sep_mono (join2 (VR13 m) c (VR14 m c) _ ?_ ?_ ?_) (Entails.of_eq hrest.symm)
  · exact ((pdats m 2 c).arrAt_in 0 rfl _).trans (V14_rest m c main_v44 (by decide)).symm
  · exact ((pdats m 2 c).arrAt_in 1 rfl _).trans (V14_rest m c main_v44 (by decide)).symm
  · exact (VR14_v45 m c).symm

set_option backward.isDefEq.respectTransparency.types false in
/-- Region 2 over the same thread state. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (VR13 m) c).loose
  hwaits := Pipeline.hwaits_of_owed_zero _ _ _ _ L lv 2 fun _ _ => rfl
  pre c := iprop(StableHlo.held (c : Thread nD τ) (Pipeline.ucRefs τ sig) (V13 m (outs2 m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec2 c (VR13 m c)
  hentry c := by
    rw [Pipeline.ownSems0_none]
    have hsplit := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates without a fault,
    and every buffer it owns outside the kernels' scratch memory ends at the last valuation's contents, the regions'
    results being the three products `o4`, `o10`, `o14`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => .rfl) (hpost0 := fun c => .rfl)
    (R1 := reg1 m) (hpre1 := fun c => by rw [V9_outs]; exact .rfl) (hpost1 := fun c => .rfl)
    (R2 := reg2 m) (hpre2 := fun c => by rw [V13_outs]; exact .rfl) (hpost2 := fun c => .rfl)

/-- THE FRAME: the program runs to the end and its eight argument arrays end unchanged — no host stretch writes one
    and no region's result is one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (V15_main_arg0 m (outs m) c),
      (h c _ (mem_uc main_arg1 (by decide))).trans (V15_main_arg1 m (outs m) c),
      (h c _ (mem_uc main_arg2 (by decide))).trans (V15_main_arg2 m (outs m) c),
      (h c _ (mem_uc main_arg3 (by decide))).trans (V15_main_arg3 m (outs m) c),
      (h c _ (mem_uc main_arg4 (by decide))).trans (V15_main_arg4 m (outs m) c),
      (h c _ (mem_uc main_arg5 (by decide))).trans (V15_main_arg5 m (outs m) c),
      (h c _ (mem_uc main_arg6 (by decide))).trans (V15_main_arg6 m (outs m) c),
      (h c _ (mem_uc main_arg7 (by decide))).trans (V15_main_arg7 m (outs m) c)⟩) (run_main m ρ)

/-- THE RESULT: the same run with the result buffer named — it ends at the last valuation's contents. -/
theorem run_result (ρ : Dev nD → PrngReg) :
    θ_run defs (onTc (τ := τ) (main (F := F))) ⟨m, fun _ => 0, ρ⟩ (fun r => ∀ c : Dev nD,
      r.2.mem ((c.tc : Thread nD τ).loc main_v47) = V15 m (outs m) c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v47 (by decide)),
      (h c _ (mem_uc main_arg0 (by decide))).trans (V15_main_arg0 m (outs m) c),
      (h c _ (mem_uc main_arg1 (by decide))).trans (V15_main_arg1 m (outs m) c),
      (h c _ (mem_uc main_arg2 (by decide))).trans (V15_main_arg2 m (outs m) c),
      (h c _ (mem_uc main_arg3 (by decide))).trans (V15_main_arg3 m (outs m) c),
      (h c _ (mem_uc main_arg4 (by decide))).trans (V15_main_arg4 m (outs m) c),
      (h c _ (mem_uc main_arg5 (by decide))).trans (V15_main_arg5 m (outs m) c),
      (h c _ (mem_uc main_arg6 (by decide))).trans (V15_main_arg6 m (outs m) c),
      (h c _ (mem_uc main_arg7 (by decide))).trans (V15_main_arg7 m (outs m) c)⟩) (run_main m ρ)

end Cert.Kernel.Frm

end
-- ==== Proof.KI.Region0.lean ====
import proofs.«419583_j52913997087388_1_alg».proof.Proof.Gen.KernelIdeal.Launch
import proofs.«419583_j52913997087388_1_alg».proof.Proof.Gen.KernelIdeal.Skeleton
import proofs.«419583_j52913997087388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 0: the body's half of the frame argument

Pipeline 0 multiplies a block of rows (window 0, 1280×1024 bf16) by a matrix of weights that is the same at
every grid point (window 1, 1024×64 bf16) and writes the product block (window 2, 1280×64 f32).  Everything here
is stated at a parameter `V`: the contents of the core's buffers at the moment the pipeline starts.  From `V`
we name each window's block at a grid point, say what the body leaves in the output's staging buffer (one
whole-block store of the product of the two input blocks), prove the body's triple, package the proof data,
and discharge the body obligation of the pipeline loop. -/

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## Blocks -/

/-- The block of window `w` at grid point `t`: the window's view at that point, read from the window's
    array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window.  It moves with the grid point and is fetched at each one; whatever the schedule, the
    staging buffer handed to the body holds the block of that point.  This needs of the proof data only that
    its array for window 0 is `V`'s and that the body leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- The weights' window.  Its block index is the same at every grid point, so it is fetched once, at the first
    point, and afterwards the body is handed the buffer it left: since the body leaves that block in place and
    the index never moves, the buffer still holds the block of the current point (which is the one block there
    is).  Same two assumptions on the proof data, at window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-! ## The rectangles the body touches: each staging buffer, whole -/

abbrev r0_0 : Rect S1280x1024 := Rect.unit (s := S1280x1024) ![0, 0] S1280x1024.size inb_S1280x1024_S1280x1024_0_0
abbrev r0_1 : Rect S1024x64 := Rect.unit (s := S1024x64) ![0, 0] S1024x64.size inb_S1024x64_S1024x64_0_0
abbrev r0_2 : Rect S1280x64 := Rect.unit (s := S1280x64) ![0, 0] S1280x64.size inb_S1280x64_S1280x64_0_0

/-! ## The output's staging buffer after the body -/

/-- The body stores once into the output's buffer, over the whole of it: the matrix product (into a zero
    accumulator) of what it loaded from the two inputs' buffers.  As a list of stored pieces, that is the single
    piece below. -/
def out0_2 (x0 : Vec F S1280x1024 .bf16) (x1 : Vec F S1024x64 .bf16) : Vec F S1280x64 .f32 :=
  View.canon [⟨r0_2, k0_pay1 (View.ld x0 r0_0) (View.ld x1 r0_1)⟩]

/-- That one piece is the whole buffer, so every index of the buffer lies in a stored piece. -/
theorem cover0_2 (p0 : Vec F S1280x64 .f32) (y : S1280x64.Idx) :
    ∃ pc ∈ ([⟨r0_2, p0⟩] : List (View.Piece (Elt F) S1280x64 .f32)), y ∈ pc.1.set :=
  View.cover_of_tiled [⟨r0_2, p0⟩] S1280x64.size (by rfl) y

/-! ## The body's triple -/

set_option maxHeartbeats 1000000 in
/-- On three whole staging memrefs — the two inputs' at known contents `x0`, `x1`, the output's at any
    contents — the body runs to a continuation that gets the inputs back unchanged and the output at
    `out0_2 x0 x1`.  The printed function equals its skeleton of memory operations; the symbolic executor runs
    the two live loads, the dead load of the output block, and the store; what is left is that the buffer read
    back after the one store is the canonical form of the one-piece list, which holds because the piece covers. -/
theorem sound_kernel0 (c : Dev nD) (E : Set ℕ) (i : grid0.Coords)
    (arg1 : Memref sig .tc .vmem S1280x1024 .bf16) (harg1 : arg1.IsWhole)
    (arg2 : Memref sig .tc .vmem S1024x64 .bf16) (harg2 : arg2.IsWhole)
    (arg3 : Memref sig .tc .vmem S1280x64 .f32) (harg3 : arg3.IsWhole)
    (x0 : Vec F S1280x1024 .bf16) (x1 : Vec F S1024x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- Pipeline 0's proof data on core `c`: the windows' arrays are `V`'s; after the body at point `t` each input's
    buffer still holds its block and the output's holds the product of the two blocks; the loop invariant is the
    untouched remainder of the core's state; every share is full and the core owes nothing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- What the body finds in each input's buffer: the block of the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- The loop's precondition for the body at point `t`, with the three windows written out, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and its postcondition. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at point `t`.  Both inputs' buffers hold the blocks of the point, so the body's triple applies with
    those blocks; the invariant and the core's debt are not touched and are handed through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline loop's body obligation: its separating product over the three windows written out is the
    statement just proved. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frm

end
-- ==== Proof.KI.Region1.lean ====
import proofs.«419583_j52913997087388_1_alg».proof.Proof.Gen.KernelIdeal.Launch
import proofs.«419583_j52913997087388_1_alg».proof.Proof.Gen.KernelIdeal.Skeleton
import proofs.«419583_j52913997087388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 1: the body's half of the frame argument

Pipeline 1 multiplies a block of rows (window 0, 1280×64 bf16) by a matrix of weights that is the same at
every grid point (window 1, 64×64 bf16) and writes the product block (window 2, 1280×64 f32).  Everything here
is stated at a parameter `V`: the contents of the core's buffers at the moment the pipeline starts.  From `V`
we name each window's block at a grid point, say what the body leaves in the output's staging buffer (one
whole-block store of the product of the two input blocks), prove the body's triple, package the proof data,
and discharge the body obligation of the pipeline loop. -/

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## Blocks -/

/-- The block of window `w` at grid point `t`: the window's view at that point, read from the window's
    array as `V` has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows' window.  It moves with the grid point and is fetched at each one; whatever the schedule, the
    staging buffer handed to the body holds the block of that point.  This needs of the proof data only that
    its array for window 0 is `V`'s and that the body leaves the block where it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  refine (dat.before_in_eq_fetched 0 rfl (fun _ => rfl) (fun _ _ _ => rfl) hkeep t d).trans ?_
  unfold Dat.fetched Dat.blockOf iblk1; rw [hA]; try rfl

/-- The weights' window.  Its block index is the same at every grid point, so it is fetched once, at the first
    point, and afterwards the body is handed the buffer it left: since the body leaves that block in place and
    the index never moves, the buffer still holds the block of the current point (which is the one block there
    is).  Same two assumptions on the proof data, at window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  refine (dat.before_in_eq_fetched 1 rfl (fun _ => rfl) (fun _ _ _ => rfl) hkeep t d).trans ?_
  unfold Dat.fetched Dat.blockOf iblk1; rw [hA]; try rfl

/-! ## The rectangles the body touches: each staging buffer, whole -/

abbrev r1_0 : Rect S1280x64 := Rect.unit (s := S1280x64) ![0, 0] S1280x64.size inb_S1280x64_S1280x64_0_0
abbrev r1_1 : Rect S64x64 := Rect.unit (s := S64x64) ![0, 0] S64x64.size inb_S64x64_S64x64_0_0
abbrev r1_2 : Rect S1280x64 := Rect.unit (s := S1280x64) ![0, 0] S1280x64.size inb_S1280x64_S1280x64_0_0

/-! ## The output's staging buffer after the body -/

/-- The body stores once into the output's buffer, over the whole of it: the matrix product (into a zero
    accumulator) of what it loaded from the two inputs' buffers.  As a list of stored pieces, that is the single
    piece below. -/
def out1_2 (x0 : Vec F S1280x64 .bf16) (x1 : Vec F S64x64 .bf16) : Vec F S1280x64 .f32 :=
  View.canon [⟨r1_2, k1_pay1 (View.ld x0 r1_0) (View.ld x1 r1_1)⟩]

/-- That one piece is the whole buffer, so every index of the buffer lies in a stored piece. -/
theorem cover1_2 (p0 : Vec F S1280x64 .f32) (y : S1280x64.Idx) :
    ∃ pc ∈ ([⟨r1_2, p0⟩] : List (View.Piece (Elt F) S1280x64 .f32)), y ∈ pc.1.set :=
  View.cover_of_tiled [⟨r1_2, p0⟩] S1280x64.size (by rfl) y

/-! ## The body's triple -/

set_option maxHeartbeats 1000000 in
/-- On three whole staging memrefs — the two inputs' at known contents `x0`, `x1`, the output's at any
    contents — the body runs to a continuation that gets the inputs back unchanged and the output at
    `out1_2 x0 x1`.  The printed function equals its skeleton of memory operations; the symbolic executor runs
    the two live loads, the dead load of the output block, and the store; what is left is that the buffer read
    back after the one store is the canonical form of the one-piece list, which holds because the piece covers. -/
theorem sound_kernel1 (c : Dev nD) (E : Set ℕ) (i : grid1.Coords)
    (arg1 : Memref sig .tc .vmem S1280x64 .bf16) (harg1 : arg1.IsWhole)
    (arg2 : Memref sig .tc .vmem S64x64 .bf16) (harg2 : arg2.IsWhole)
    (arg3 : Memref sig .tc .vmem S1280x64 .f32) (harg3 : arg3.IsWhole)
    (x0 : Vec F S1280x64 .bf16) (x1 : Vec F S64x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- Pipeline 1's proof data on core `c`: the windows' arrays are `V`'s; after the body at point `t` each input's
    buffer still holds its block and the output's holds the product of the two blocks; the loop invariant is the
    untouched remainder of the core's state; every share is full and the core owes nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- What the body finds in each input's buffer: the block of the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- The loop's precondition for the body at point `t`, with the three windows written out, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and its postcondition. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at point `t`.  Both inputs' buffers hold the blocks of the point, so the body's triple applies with
    those blocks; the invariant and the core's debt are not touched and are handed through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline loop's body obligation: its separating product over the three windows written out is the
    statement just proved. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Frm

end
-- ==== Proof.KI.Region2.lean ====
/- The third TensorCore region of the program (pipeline 2, the outer-product kernel on an 8×8 grid), at a
   parameter V: the TensorCore's buffer contents when the region is entered. Both input windows cut row blocks
   out of ONE array z (window 0 the row block i, window 1 the row block j); the body contracts the two
   [1280,32] blocks along their second axes into a zero accumulator and stores the [1280,1280] product as the
   output block (i, j). Here: the windows' blocks, what the body leaves in the output's staging buffer, the
   body's triple, the pipeline's proof data and the library's body obligation, at any float instance. -/
import proofs.«419583_j52913997087388_1_alg».proof.Proof.Gen.KernelIdeal.Launch
import proofs.«419583_j52913997087388_1_alg».proof.Proof.Gen.KernelIdeal.Skeleton
import proofs.«419583_j52913997087388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window w's block at grid point t, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block-i window moves only when i does, so it is fetched at one point in eight; its staging buffer
    nevertheless holds the block of the CURRENT point everywhere: between two fetches the block index stands
    still, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row-block-j window is fetched at every point; the same statement holds of it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole staging buffer -/

abbrev r2_0 : Rect S1280x32 := Rect.unit (s := S1280x32) ![0, 0] S1280x32.size inb_S1280x32_S1280x32_0_0
abbrev r2_2 : Rect S1280x1280 := Rect.unit (s := S1280x1280) ![0, 0] S1280x1280.size inb_S1280x1280_S1280x1280_0_0

/-! ## What the body leaves in the output window's buffer -/

/-- The output's staging buffer after the body, from the two input blocks: one store over the whole buffer, of
    the product of the first block with the transpose of the second. -/
def out2_2 (x0 x1 : Vec F S1280x32 .bf16) : Vec F S1280x1280 .f32 :=
  View.canon [⟨r2_2, k2_pay1 (View.ld x0 r2_0) (View.ld x1 r2_0)⟩]

/-- The one store covers the buffer. -/
theorem cover2_2 (p0 : Vec F S1280x1280 .f32) (y : S1280x1280.Idx) :
    ∃ pc ∈ ([⟨r2_2, p0⟩] : List (View.Piece (Elt F) S1280x1280 .f32)), y ∈ pc.1.set :=
  View.cover_of_tiled [⟨r2_2, p0⟩] S1280x1280.size (by rfl) y

/-! ## The body's triple -/

set_option maxHeartbeats 1000000 in
/-- The body on whole staging memrefs — the two inputs' at contents x0 and x1, the output's at anything — runs
    to a state with the inputs' as they were and the output's at out2_2 x0 x1. The load of the output block
    that precedes the store is dead: the accumulator the product is added to is the zero constant. -/
theorem sound_kernel2 (c : Dev nD) (E : Set ℕ) (i : grid2.Coords)
    (arg2 : Memref sig .tc .vmem S1280x32 .bf16) (harg2 : arg2.IsWhole)
    (arg3 : Memref sig .tc .vmem S1280x32 .bf16) (harg3 : arg3.IsWhole)
    (arg4 : Memref sig .tc .vmem S1280x1280 .f32) (harg4 : arg4.IsWhole)
    (x0 x1 : Vec F S1280x32 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__outer_kernel i arg2 harg2 arg3 harg3 arg4 harg4) K := by
  simp only [cc2__outer_kernel_eq_skeleton]; unfold cc2__outer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core c: the arrays as the region finds them; after the body at point t each
    input's buffer at its block and the output's at out2_2 of the two blocks; the invariant the scoped rest and the
    generator register, untouched; nothing owed. The two input windows read one array, which the pipeline therefore
    holds as two complementary halves of the full share, one per window; the output array at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t: the invariant, what the core owes, and the three current staging buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two inputs' memrefs hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Frm

end
-- ==== Proof.KI.Run.lean ====
/-
  The kernel's program as a whole: every weakly fair execution of its fifteen items — stretches of host operations and
  three kernel regions — from any memory with zero counters terminates without a fault, and in every final state each
  buffer the program owns outside the kernels' scratch memory holds what the items, run in order, leave in it: a host
  stretch's operations applied to what was there, a region's result array replaced by what the region wrote. Stated
  for any contents `outs` the regions leave and any proof data, given one segment record per region whose entry and
  exit are those buffer contents.
-/
import proofs.«419583_j52913997087388_1_alg».proof.Proof.Gen.KernelIdeal.Regions

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- The run, given the regions' records: at the end every unscoped buffer holds the last valuation's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V15 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, hpre0 c, hpost0 c, .rfl, .rfl, .rfl, .rfl, hpre1 c, hpost1 c, .rfl, .rfl, hpre2 c, hpost2 c, sep_mono .rfl (hE3 c)⟩)
    (hinit := ?_) (QY := fun c s => ∀ b ∈ Pipeline.ucRefs τ sig, s.mem (((c : Thread nD τ)).1, b) = V15 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V15 m outs c) s')
    isplitl [Hh] <;> iassumption

end Cert.KernelIdeal.Frm

end
-- ==== Proof.KI.Segs.lean ====
/-
  The kernel's three regions as segments of its program. Region k is entered with every buffer the program owns outside
  the kernels' scratch memory at the contents the items before it leave, and left with its result array replaced by
  what its grid points wrote (each point's block, in order) and everything else as entered. The result arrays are
  named here — `o4`, `o10`, `o14`: the three products — each a function of the contents its region is entered with,
  which the earlier results determine. Regions 0 and 1 read two distinct arrays. Region 2 reads ONE array through two
  windows (row block i and row block j of the same table): on entry that array's ownership is split into two halves,
  one per window, and joined again on exit; no point writes it.
-/
import proofs.«419583_j52913997087388_1_alg».proof.Proof.KI.Region0
import proofs.«419583_j52913997087388_1_alg».proof.Proof.KI.Region1
import proofs.«419583_j52913997087388_1_alg».proof.Proof.KI.Region2
import proofs.«419583_j52913997087388_1_alg».proof.Proof.KI.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave, and the contents each is entered with -/

/-- Region 0 is entered with the buffers as the first three host stretches leave them. -/
abbrev VR3 : (c : Dev nD) → (b : Ref sig .tc) → Buf (Elt F) ((c : Thread nD τ).loc b) := fun c b => V3 m c b
/-- The first product: region 0's result array after its last point. -/
def o4 (c : Dev nD) : Buf (Elt F) ((c : Thread nD τ).loc main_v3) := (dat0 (VR3 m) c).arrAt 2 cfg0.N
/-- The regions' results as far as region 0's is known. -/
def outs1 : Outs (F := F) := fun _ r c => if h : r = main_v3 then (by subst h; exact o4 m c) else m ((c : Thread nD τ).loc r)
/-- Region 1 is entered with region 0's result in place and five more host stretches run. -/
abbrev VR9 : (c : Dev nD) → (b : Ref sig .tc) → Buf (Elt F) ((c : Thread nD τ).loc b) := fun c b => V9 m (outs1 m) c b
/-- The second product: region 1's result array after its last point. -/
def o10 (c : Dev nD) : Buf (Elt F) ((c : Thread nD τ).loc main_v23) := (dat1 (VR9 m) c).arrAt 2 cfg1.N
/-- The regions' results as far as region 1's is known. -/
def outs2 : Outs (F := F) := fun _ r c =>
  if h : r = main_v3 then (by subst h; exact o4 m c)
  else if h : r = main_v23 then (by subst h; exact o10 m c) else m ((c : Thread nD τ).loc r)
/-- Region 2 is entered with both results in place and three more host stretches run. -/
abbrev VR13 : (c : Dev nD) → (b : Ref sig .tc) → Buf (Elt F) ((c : Thread nD τ).loc b) := fun c b => V13 m (outs2 m) c b
/-- The decoder's product: region 2's result array after its last point. -/
def o14 (c : Dev nD) : Buf (Elt F) ((c : Thread nD τ).loc main_v45) := (dat2 (VR13 m) c).arrAt 2 cfg2.N
/-- The three regions' results. -/
def outs : Outs (F := F) := fun _ r c =>
  if h : r = main_v3 then (by subst h; exact o4 m c)
  else if h : r = main_v23 then (by subst h; exact o10 m c)
  else if h : r = main_v45 then (by subst h; exact o14 m c) else m ((c : Thread nD τ).loc r)

theorem outs1_v3 (J : ℕ) (c : Dev nD) : outs1 m J main_v3 c = o4 m c := by simp only [outs1, dif_pos]
theorem outs2_v3 (J : ℕ) (c : Dev nD) : outs2 m J main_v3 c = o4 m c := by simp only [outs2, dif_pos]
theorem outs_v3 (J : ℕ) (c : Dev nD) : outs m J main_v3 c = o4 m c := by simp only [outs, dif_pos]
theorem outs2_v23 (J : ℕ) (c : Dev nD) : outs2 m J main_v23 c = o10 m c := by
  unfold outs2; rw [dif_neg (by decide), dif_pos rfl]
theorem outs_v23 (J : ℕ) (c : Dev nD) : outs m J main_v23 c = o10 m c := by
  unfold outs; rw [dif_neg (by decide), dif_pos rfl]
theorem outs_v45 (J : ℕ) (c : Dev nD) : outs m J main_v45 c = o14 m c := by
  unfold outs; rw [dif_neg (by decide), dif_neg (by decide), dif_pos rfl]

/-- The contents region 1 is entered with depend on the regions' results only through region 0's. -/
theorem V9_congr (o o' : Outs (F := F)) (c : Dev nD) (h : o 4 main_v3 c = o' 4 main_v3 c) : V9 m o c = V9 m o' c := by
  dsimp only [V9, V8, V7, V6, V5, V4]; rw [h]
/-- The contents region 2 is entered with depend on the regions' results only through the first two. -/
theorem V13_congr (o o' : Outs (F := F)) (c : Dev nD) (h : o 4 main_v3 c = o' 4 main_v3 c) (h' : o 10 main_v23 c = o' 10 main_v23 c) :
    V13 m o c = V13 m o' c := by
  dsimp only [V13, V12, V11, V10, V9, V8, V7, V6, V5, V4]; rw [h, h']

theorem V9_outs (c : Dev nD) : V9 m (outs m) c = V9 m (outs1 m) c := V9_congr m _ _ c ((outs_v3 m 4 c).trans (outs1_v3 m 4 c).symm)
theorem V13_outs (c : Dev nD) : V13 m (outs m) c = V13 m (outs2 m) c :=
  V13_congr m _ _ c ((outs_v3 m 4 c).trans (outs2_v3 m 4 c).symm) ((outs_v23 m 10 c).trans (outs2_v23 m 10 c).symm)
theorem V9_outs2 (c : Dev nD) : V9 m (outs2 m) c = V9 m (outs1 m) c := V9_congr m _ _ c ((outs2_v3 m 4 c).trans (outs1_v3 m 4 c).symm)

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (VR3 m) c
  | ⟨1, _⟩ => fun c => dat1 (VR9 m) c
  | ⟨2, _⟩ => fun c => dat2 (VR13 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state and the core owing nothing. -/
abbrev R (c : Dev nD) : sProp 𝕄 := iprop((∃ r, prngReg c r) ∗ ∃ W, owes (c : Thread nD τ) (0 : CellTallies nD τ sig Unit) W)

/-! ## Region 0: the first product -/

/-- The contents region 0 leaves. -/
abbrev VR4 : (c : Dev nD) → (b : Ref sig .tc) → Buf (Elt F) ((c : Thread nD τ).loc b) := fun c b => V4 m (outs m) c b

/-- At region 0's exit each of its arrays holds what the pipeline leaves: an input its entry contents, the result `o4`. -/
theorem hF0 (c : Dev nD) (w : Fin cfg0.W) : (pdats m 0 c).arrAt w cfg0.N = VR4 m c (Pipeline.arrRef spec0 w) := by
  match w with
  | ⟨0, _⟩ => exact ((pdats m 0 c).arrAt_in 0 rfl _).trans (V4_of m (outs m) c main_v1 (by decide)).symm
  | ⟨1, _⟩ => exact ((pdats m 0 c).arrAt_in 1 rfl _).trans (V4_of m (outs m) c main_v2 (by decide)).symm
  | ⟨2, _⟩ =>
    show o4 m c = Function.update (V3 m c) _ (outs m 4 main_v3 c) _
    rw [Function.update_self, outs_v3]
/-- Every other buffer holds what it held at entry. -/
theorem hrest0 (c : Dev nD) : ∀ b, b ∉ Finset.univ.image (Pipeline.arrRef spec0) → VR4 m c b = VR3 m c b :=
  fun b hb => V4_of m (outs m) c b fun h => hb (Finset.mem_image.mpr ⟨2, Finset.mem_univ _, (List.mem_singleton.mp h).symm⟩)

set_option backward.isDefEq.respectTransparency.types false in
/-- Region 0 over the thread state "every unscoped buffer at the boundary's contents, the generator register at some
    state, nothing owed": its arrays are split out of the unscoped buffers on entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR3 m c) (VR4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the second product -/

/-- The contents region 1 leaves. -/
abbrev VR10 : (c : Dev nD) → (b : Ref sig .tc) → Buf (Elt F) ((c : Thread nD τ).loc b) := fun c b => V10 m (outs m) c b

theorem hF1 (c : Dev nD) (w : Fin cfg1.W) : (pdats m 1 c).arrAt w cfg1.N = VR10 m c (Pipeline.arrRef spec1 w) := by
  match w with
  | ⟨0, _⟩ => exact ((pdats m 1 c).arrAt_in 0 rfl _).trans ((V10_of m (outs m) c main_v20 (by decide)).trans (congrFun (V9_outs m c) _)).symm
  | ⟨1, _⟩ => exact ((pdats m 1 c).arrAt_in 1 rfl _).trans ((V10_of m (outs m) c main_v22 (by decide)).trans (congrFun (V9_outs m c) _)).symm
  | ⟨2, _⟩ =>
    show o10 m c = Function.update (V9 m (outs m) c) _ (outs m 10 main_v23 c) _
    rw [Function.update_self, outs_v23]
theorem hrest1 (c : Dev nD) : ∀ b, b ∉ Finset.univ.image (Pipeline.arrRef spec1) → VR10 m c b = VR9 m c b :=
  fun b hb => (V10_of m (outs m) c b fun h => hb (Finset.mem_image.mpr ⟨2, Finset.mem_univ _, (List.mem_singleton.mp h).symm⟩)).trans
    (congrFun (V9_outs m c) _)

set_option backward.isDefEq.respectTransparency.types false in
/-- Region 1 over the same thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR9 m) c).loose
  hwaits := Pipeline.hwaits_of_owed_zero _ _ _ _ L lv 1 fun _ _ => rfl
  pre c := iprop(StableHlo.held (c : Thread nD τ) (Pipeline.ucRefs τ sig) (V9 m (outs1 m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR9 m c) (VR10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: the decoder's product, two windows on one array -/

section Region2Arrays

/-- The distinct buffers behind region 2's arrays are two: the table both input windows read, and the result. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v44) ↦{fullShare} W main_v44) ∗ (((c : Thread nD τ).loc main_v45) ↦{fullShare} W main_v45)) := by
  unfold Pipeline.arrBufs
  rw [show Finset.univ.image (Pipeline.arrRef spec2) = {main_v44, main_v45} from by decide, bigSep_insert (by decide), bigSep_singleton]
  rfl

variable (V : (c : Dev nD) → (b : Ref sig .tc) → Buf (Elt F) ((c : Thread nD τ).loc b))

/-- Region 2's windowed arrays, one by one: the table at the left half share for window 0 and at the right half for
    window 1, the result whole. -/
theorem arrays2_eq (c : Dev nD) (Fn : (w : Fin cfg2.W) → Buf (Elt F) ((cfg2.win w).arr.view.loc (c : Thread nD τ))) :
    ((dat2 V c).arrays Fn : sProp 𝕄)
      = iprop((((c : Thread nD τ).loc main_v44) ↦{fullShare.left} Fn 0) ∗ (((c : Thread nD τ).loc main_v44) ↦{fullShare.right} Fn 1)
          ∗ (((c : Thread nD τ).loc main_v45) ↦{fullShare} Fn 2)) := by
  unfold Dat.arrays
  rw [bigSep_W2, (arr_whole2 0).set_eq_univ, (arr_whole2 2).set_eq_univ]
  rfl

/-- ENTRY: the two buffers at contents `W` are the three windows' arrays at contents that agree with `W`; the table's
    ownership is split into its two halves. -/
theorem split2 (c : Dev nD) (W : (b : Ref sig .tc) → Buf (Elt F) ((c : Thread nD τ).loc b))
    (Fn : (w : Fin cfg2.W) → Buf (Elt F) ((cfg2.win w).arr.view.loc (c : Thread nD τ)))
    (h0 : Fn 0 = W main_v44) (h1 : Fn 1 = W main_v44) (h2 : Fn 2 = W main_v45) :
    (Pipeline.arrBufs (Ix := Unit) (Name := ℕ) (U := UR sig nD τ) (Lvl := ℕ) spec2 c W : sProp 𝕄) ⊢ (dat2 V c).arrays Fn := by
  rw [arrBufs2_eq, arrays2_eq, h0, h1, h2]
  iintro ⟨H44, H45⟩
  ihave H := (pointsTo_share (PosShare.mem_left_op_right fullShare)).1 $$ H44
  icases H with ⟨Hl, Hr⟩
  isplitl [Hl]; · iexact Hl
  isplitl [Hr]; · iexact Hr
  iexact H45

/-- EXIT: the converse; the two halves of the table, at the same contents, are joined. -/
theorem join2 (c : Dev nD) (W : (b : Ref sig .tc) → Buf (Elt F) ((c : Thread nD τ).loc b))
    (Fn : (w : Fin cfg2.W) → Buf (Elt F) ((cfg2.win w).arr.view.loc (c : Thread nD τ)))
    (h0 : Fn 0 = W main_v44) (h1 : Fn 1 = W main_v44) (h2 : Fn 2 = W main_v45) :
    ((dat2 V c).arrays Fn : sProp 𝕄) ⊢ Pipeline.arrBufs (Ix := Unit) (Name := ℕ) (U := UR sig nD τ) (Lvl := ℕ) spec2 c W := by
  rw [arrBufs2_eq, arrays2_eq, h0, h1, h2]
  iintro ⟨Hl, Hr, H45⟩
  isplitl [Hl Hr]
  · iapply (pointsTo_share (PosShare.mem_left_op_right fullShare)).2
    isplitl [Hl]; · iexact Hl
    iexact Hr
  iexact H45

end Region2Arrays

/-- The contents region 2 leaves. -/
abbrev VR14 : (c : Dev nD) → (b : Ref sig .tc) → Buf (Elt F) ((c : Thread nD τ).loc b) := fun c b => V14 m (outs m) c b

/-- A buffer other than the result holds at region 2's exit what it held at entry. -/
theorem V14_rest (c : Dev nD) (b : Ref sig .tc) (hb : b ≠ main_v45) : VR14 m c b = VR13 m c b :=
  (V14_of m (outs m) c b fun h => hb (List.mem_singleton.mp h)).trans (congrFun (V13_outs m c) _)
theorem VR14_v45 (c : Dev nD) : VR14 m c main_v45 = o14 m c := by
  show Function.update (V13 m (outs m) c) _ (outs m 14 main_v45 c) _ = _
  rw [Function.update_self, outs_v45]

/-- ENTRY, the arrays' part: the unscoped buffers at region 2's entry contents are its windows' arrays and the rest. -/
theorem entry2 (c : Dev nD) :
    (unscopedBufs c (VR13 m c) : sProp 𝕄)
      ⊢ iprop((pdats m 2 c).arrays ((pdats m 2 c).arrAt · 0) ∗ Pipeline.unscopedRest (Ix := Unit) (Name := ℕ) (U := UR sig nD τ) (Lvl := ℕ) spec2 c (VR13 m c)) := by
  rw [Pipeline.unscopedBufs_split₀ (Pipeline.pin (pcfgs (F := F)) adm) 2 winFacts₀2.arr_unscoped c (VR13 m c)]
  exact sep_mono (split2 (VR13 m) c (VR13 m c) _ rfl rfl rfl) .rfl

/-- EXIT, the arrays' part: the windows' arrays after the last point and the rest are the unscoped buffers at the exit contents. -/
theorem exit2 (c : Dev nD) :
    iprop((pdats m 2 c).arrays ((pdats m 2 c).arrAt · cfg2.N) ∗ Pipeline.unscopedRest (Ix := Unit) (Name := ℕ) (U := UR sig nD τ) (Lvl := ℕ) spec2 c (VR13 m c))
      ⊢ (unscopedBufs c (VR14 m c) : sProp 𝕄) := by
  rw [Pipeline.unscopedBufs_split₀ (Pipeline.pin (pcfgs (F := F)) adm) 2 winFacts₀2.arr_unscoped c (VR14 m c)]
  have hrest : (Pipeline.unscopedRest (Ix := Unit) (Name := ℕ) (U := UR sig nD τ) (Lvl := ℕ) spec2 c (VR14 m c) : sProp 𝕄)
      = Pipeline.unscopedRest spec2 c (VR13 m c) := by
    unfold Pipeline.unscopedRest
    refine bigSep_congr fun b hb => ?_
    rw [V14_rest m c b fun h => (Finset.mem_sdiff.mp hb).2 (Finset.mem_image.mpr ⟨2, Finset.mem_univ _, h.symm⟩)]
  refine BIClass.sep_mono (join2 (VR13 m) c (VR14 m c) _ ?_ ?_ ?_) (Entails.of_eq hrest.symm)
  · exact ((pdats m 2 c).arrAt_in 0 rfl _).trans (V14_rest m c main_v44 (by decide)).symm
  · exact ((pdats m 2 c).arrAt_in 1 rfl _).trans (V14_rest m c main_v44 (by decide)).symm
  · exact (VR14_v45 m c).symm

set_option backward.isDefEq.respectTransparency.types false in
/-- Region 2 over the same thread state. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (VR13 m) c).loose
  hwaits := Pipeline.hwaits_of_owed_zero _ _ _ _ L lv 2 fun _ _ => rfl
  pre c := iprop(StableHlo.held (c : Thread nD τ) (Pipeline.ucRefs τ sig) (V13 m (outs2 m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec2 c (VR13 m c)
  hentry c := by
    rw [Pipeline.ownSems0_none]
    have hsplit := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates without a fault,
    and every buffer it owns outside the kernels' scratch memory ends at the last valuation's contents, the regions'
    results being the three products `o4`, `o10`, `o14`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => .rfl) (hpost0 := fun c => .rfl)
    (R1 := reg1 m) (hpre1 := fun c => by rw [V9_outs]; exact .rfl) (hpost1 := fun c => .rfl)
    (R2 := reg2 m) (hpre2 := fun c => by rw [V13_outs]; exact .rfl) (hpost2 := fun c => .rfl)

/-- THE FRAME: the program runs to the end and its eight argument arrays end unchanged — no host stretch writes one
    and no region's result is one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (V15_main_arg0 m (outs m) c),
      (h c _ (mem_uc main_arg1 (by decide))).trans (V15_main_arg1 m (outs m) c),
      (h c _ (mem_uc main_arg2 (by decide))).trans (V15_main_arg2 m (outs m) c),
      (h c _ (mem_uc main_arg3 (by decide))).trans (V15_main_arg3 m (outs m) c),
      (h c _ (mem_uc main_arg4 (by decide))).trans (V15_main_arg4 m (outs m) c),
      (h c _ (mem_uc main_arg5 (by decide))).trans (V15_main_arg5 m (outs m) c),
      (h c _ (mem_uc main_arg6 (by decide))).trans (V15_main_arg6 m (outs m) c),
      (h c _ (mem_uc main_arg7 (by decide))).trans (V15_main_arg7 m (outs m) c)⟩) (run_main m ρ)

/-- THE RESULT: the same run with the result buffer named — it ends at the last valuation's contents. -/
theorem run_result (ρ : Dev nD → PrngReg) :
    θ_run defs (onTc (τ := τ) (main (F := F))) ⟨m, fun _ => 0, ρ⟩ (fun r => ∀ c : Dev nD,
      r.2.mem ((c.tc : Thread nD τ).loc main_v47) = V15 m (outs m) c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v47 (by decide)),
      (h c _ (mem_uc main_arg0 (by decide))).trans (V15_main_arg0 m (outs m) c),
      (h c _ (mem_uc main_arg1 (by decide))).trans (V15_main_arg1 m (outs m) c),
      (h c _ (mem_uc main_arg2 (by decide))).trans (V15_main_arg2 m (outs m) c),
      (h c _ (mem_uc main_arg3 (by decide))).trans (V15_main_arg3 m (outs m) c),
      (h c _ (mem_uc main_arg4 (by decide))).trans (V15_main_arg4 m (outs m) c),
      (h c _ (mem_uc main_arg5 (by decide))).trans (V15_main_arg5 m (outs m) c),
      (h c _ (mem_uc main_arg6 (by decide))).trans (V15_main_arg6 m (outs m) c),
      (h c _ (mem_uc main_arg7 (by decide))).trans (V15_main_arg7 m (outs m) c)⟩) (run_main m ρ)

end Cert.KernelIdeal.Frm

end
-- ==== Proof.KI.HostFns.lean ====
/-
  The host-side arithmetic of the kernel's program, named once: the program pads the node features to 10240 rows,
  multiplies row blocks by the first weight matrix, aggregates along the graph's edges (each edge adds its weighted
  source row to its destination row), applies a rectifier, multiplies by the two second-layer weight matrices put
  side by side, aggregates again, splits the 64 columns into a mean and a log standard deviation, forms
  `z = mean + eps · exp(logstd)`, and finally takes all inner products of the rows of `z`. Each definition below is
  one stretch of those operations as a function of its inputs, spelt with exactly the operations the program prints.
-/
import proofs.«419583_j52913997087388_1_alg».proof.Proof.Gen.KernelIdeal

noncomputable section

namespace Cert.KernelIdeal.Frm

open Idealize.ShloMosaic Cert.KernelIdeal Cert.KernelIdeal.Gen

variable {F : FTy → Type} [FloatOps F]

/-- The edges' source indices with negative values wrapped by the table's height, as a column of start indices. -/
def kSrc (src : IVec S320000 32) : IVec S320000x1 32 :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 10000#32))) src)

/-- The edge aggregation of a 64-column table: row `dst e` receives `w e` times row `src e`, summed over the edges. -/
def kAgg64 (h : FVec F S10000x64 .f32) (src dst : IVec S320000 32) (w : FVec F S320000 .f32) : FVec F S10000x64 .f32 :=
  Host.scatterAdd scatter_S10000x64_S320000x1_S320000x64_1_0_0_1
    (broadcastInDim S10000x64 ![] bcast_S_S10000x64 (constant S_ .f32 0x00000000#32))
    (broadcastInDim S320000x1 ![0] bcast_S320000_S320000x1_0 dst)
    (mulf (Host.gather gather_S10000x64_S320000x1_S320000x64_1_0_n_n_0_1_164 h (kSrc src))
      (broadcastInDim S320000x64 ![0, 1] bcast_S320000x1_S320000x64_0_1 (broadcastInDim S320000x1 ![0] bcast_S320000_S320000x1_0 w)))

/-- The rectifier. -/
def kRelu (a : FVec F S10000x64 .f32) : FVec F S10000x64 .f32 :=
  maximumf a (broadcastInDim S10000x64 ![] bcast_S_S10000x64 (constant S_ .f32 0x00000000#32))

/-- The first product's left operand: the features padded by 240 zero rows, and its right operand. -/
def kA0 (x : FVec F S10000x1024 .f32) : FVec F S10240x1024 .bf16 :=
  truncf .bf16 (pad S10240x1024 ![0, 0] ![240, 0] ![0, 0] x (sitofp .f32 (constantI S_ 32 0#32)) pads_S10000x1024_S10240x1024_02400_000 h_S_) bitsLt_bf16_f32
def kB0 (W0 : FVec F S1024x64 .f32) : FVec F S1024x64 .bf16 := truncf .bf16 W0 bitsLt_bf16_f32

/-- The hidden layer from the first product `P0` (its first 10000 rows aggregated and rectified). -/
def kH1 (P0 : FVec F S10240x64 .f32) (src dst : IVec S320000 32) (w : FVec F S320000 .f32) : FVec F S10000x64 .f32 :=
  kRelu (kAgg64 (extractStridedSlice S10000x64 ![0, 0] P0 slices_S10240x64_S10000x64_0_0) src dst w)

/-- The second product's operands: the hidden layer padded, and the two weight matrices side by side. -/
def kA1 (h1 : FVec F S10000x64 .f32) : FVec F S10240x64 .bf16 :=
  truncf .bf16 (pad S10240x64 ![0, 0] ![240, 0] ![0, 0] h1 (sitofp .f32 (constantI S_ 32 0#32)) pads_S10000x64_S10240x64_02400_000 h_S_) bitsLt_bf16_f32
def kB1 (W1 W2 : FVec F S64x32 .f32) : FVec F S64x64 .bf16 :=
  truncf .bf16 (concatenate S64x64 1 [⟨S64x32, W1⟩, ⟨S64x32, W2⟩] concatenates_S64x32_S64x32_S64x64_d1) bitsLt_bf16_f32

/-- The latent code from the second product `P1`: aggregate its first 10000 rows, split the columns, reparameterise. -/
def kZ (P1 : FVec F S10240x64 .f32) (src dst : IVec S320000 32) (w : FVec F S320000 .f32) (eps : FVec F S10000x32 .f32) : FVec F S10000x32 .f32 :=
  addf (extractStridedSlice S10000x32 ![0, 0] (kAgg64 (extractStridedSlice S10000x64 ![0, 0] P1 slices_S10240x64_S10000x64_0_0) src dst w) slices_S10000x64_S10000x32_0_0)
    (mulf eps (Host.exp (extractStridedSlice S10000x32 ![0, 32] (kAgg64 (extractStridedSlice S10000x64 ![0, 0] P1 slices_S10240x64_S10000x64_0_0) src dst w) slices_S10000x64_S10000x32_0_32)))

/-- The decoder's operand: the latent code padded. -/
def kA2 (z : FVec F S10000x32 .f32) : FVec F S10240x32 .bf16 :=
  truncf .bf16 (pad S10240x32 ![0, 0] ![240, 0] ![0, 0] z (sitofp .f32 (constantI S_ 32 0#32)) pads_S10000x32_S10240x32_02400_000 h_S_) bitsLt_bf16_f32

/-- The result from the decoder's product `P2`: its leading 10000 × 10000 corner, flattened. -/
def kOut (P2 : FVec F S10240x10240 .f32) : FVec F S100000000 .f32 :=
  shapeCast _ (extractStridedSlice S10000x10000 ![0, 0] P2 slices_S10240x10240_S10000x10000_0_0) shapeCasts_S10000x10000_S100000000

end Cert.KernelIdeal.Frm

end
-- ==== Proof.KI.Host.lean ====
/-
  What the host stretches of the kernel's program compute, read off the buffer contents between its items.

  The program alternates stretches of host operations with three kernel regions. Between two items the TensorCore's
  buffers hold a valuation: the launch contents, then the fold of each host stretch over what was there, then, across
  a region, the same contents except at the one buffer the region may change, where an unknown stands. This module
  follows single buffers through those valuations: a stretch's result buffer holds its operations' composite applied
  to what the stretch found in its operand buffers; a buffer a stretch does not write keeps its contents; the buffer a
  region changes holds the unknown. Composing these gives each region's operands, and the program's result, as the
  named host functions applied to the program's arguments and the regions' results.
-/
import proofs.«419583_j52913997087388_1_alg».proof.Proof.Gen.KernelIdeal.Regions
import proofs.«419583_j52913997087388_1_alg».proof.Proof.KI.HostFns
import Idealize.ShloMosaic.Lib.StableHlo.Run

noncomputable section

namespace Cert.KernelIdeal.Frm

open Idealize.ShloMosaic Idealize.ShloMosaic.TcCoe Idealize.ShloMosaic.StableHlo Cert.KernelIdeal Cert.KernelIdeal.Gen

variable {F : FTy → Type} [FloatOps F]

/-! ## Each host stretch, from arbitrary contents `W`

The buffer a stretch writes last in a chain of its operations holds the chain's composite applied to what `W` held in
the chain's operand buffers. -/

section Stretches

variable (W : Valuation τ sig (Elt F))

theorem s0_c : StableHlo.after hostOps0 W (Proc.devRef .tc main_c) = constantI S_ 32 0#32 := by
  dsimp only [hostOps0]; after_results

theorem s0_1_v0 : StableHlo.after hostOps0_1 W (Proc.devRef .tc main_v0)
    = pad S10240x1024 ![0, 0] ![240, 0] ![0, 0] (W (Proc.devRef .tc main_arg0)) (sitofp .f32 (W (Proc.devRef .tc main_c)))
        pads_S10000x1024_S10240x1024_02400_000 h_S_ := by
  dsimp only [hostOps0_1]; after_results; rfl

theorem s0_2_v1 : StableHlo.after hostOps0_2 W (Proc.devRef .tc main_v1)
    = truncf .bf16 (W (Proc.devRef .tc main_v0)) bitsLt_bf16_f32 := by
  dsimp only [hostOps0_2]; after_results

theorem s0_2_v2 : StableHlo.after hostOps0_2 W (Proc.devRef .tc main_v2)
    = truncf .bf16 (W (Proc.devRef .tc main_arg4)) bitsLt_bf16_f32 := by
  dsimp only [hostOps0_2]; after_results

theorem s1_v17 : StableHlo.after hostOps1 W (Proc.devRef .tc main_v17)
    = kAgg64 (extractStridedSlice S10000x64 ![0, 0] (W (Proc.devRef .tc main_v3)) slices_S10240x64_S10000x64_0_0)
        (W (Proc.devRef .tc main_arg1)) (W (Proc.devRef .tc main_arg2)) (W (Proc.devRef .tc main_arg3)) := by
  dsimp only [hostOps1]; after_results_simp; rfl

theorem s1_1_v18 : StableHlo.after hostOps1_1 W (Proc.devRef .tc main_v18) = kRelu (W (Proc.devRef .tc main_v17)) := by
  dsimp only [hostOps1_1]; after_results; rfl

theorem s1_2_c : StableHlo.after hostOps1_2 W (Proc.devRef .tc main_c_2) = constantI S_ 32 0#32 := by
  dsimp only [hostOps1_2]; after_results

theorem s1_3_v19 : StableHlo.after hostOps1_3 W (Proc.devRef .tc main_v19)
    = pad S10240x64 ![0, 0] ![240, 0] ![0, 0] (W (Proc.devRef .tc main_v18)) (sitofp .f32 (W (Proc.devRef .tc main_c_2)))
        pads_S10000x64_S10240x64_02400_000 h_S_ := by
  dsimp only [hostOps1_3]; after_results; rfl

theorem s1_4_v20 : StableHlo.after hostOps1_4 W (Proc.devRef .tc main_v20)
    = truncf .bf16 (W (Proc.devRef .tc main_v19)) bitsLt_bf16_f32 := by
  dsimp only [hostOps1_4]; after_results

theorem s1_4_v22 : StableHlo.after hostOps1_4 W (Proc.devRef .tc main_v22)
    = kB1 (W (Proc.devRef .tc main_arg5)) (W (Proc.devRef .tc main_arg6)) := by
  dsimp only [hostOps1_4]; after_results; rfl

theorem s2_v42 : StableHlo.after hostOps2 W (Proc.devRef .tc main_v42)
    = kZ (W (Proc.devRef .tc main_v23)) (W (Proc.devRef .tc main_arg1)) (W (Proc.devRef .tc main_arg2))
        (W (Proc.devRef .tc main_arg3)) (W (Proc.devRef .tc main_arg7)) := by
  dsimp only [hostOps2]; after_results_simp; rfl

theorem s2_c : StableHlo.after hostOps2 W (Proc.devRef .tc main_c_6) = constantI S_ 32 0#32 := by
  dsimp only [hostOps2]; after_results_simp

theorem s2_1_v43 : StableHlo.after hostOps2_1 W (Proc.devRef .tc main_v43)
    = pad S10240x32 ![0, 0] ![240, 0] ![0, 0] (W (Proc.devRef .tc main_v42)) (sitofp .f32 (W (Proc.devRef .tc main_c_6)))
        pads_S10000x32_S10240x32_02400_000 h_S_ := by
  dsimp only [hostOps2_1]; after_results; rfl

theorem s2_2_v44 : StableHlo.after hostOps2_2 W (Proc.devRef .tc main_v44)
    = truncf .bf16 (W (Proc.devRef .tc main_v43)) bitsLt_bf16_f32 := by
  dsimp only [hostOps2_2]; after_results

theorem s3_v47 : StableHlo.after hostOps3 W (Proc.devRef .tc main_v47) = kOut (W (Proc.devRef .tc main_v45)) := by
  dsimp only [hostOps3]; after_results; rfl

end Stretches

/-! ## The buffers followed through the valuations -/

variable (m : (ℓ : Loc nD τ sig) → Buf (Elt F) ℓ) (outs : Outs (F := F))

/-- Region 0's left operand: the features, padded by zero rows and rounded to bf16. -/
theorem V3_v1 (c : Dev nD) : V3 m c main_v1 = kA0 (m ((c : Thread nD τ).loc main_arg0)) := by
  have h3 : V3 m c main_v1 = truncf .bf16 (V2 m c main_v0) bitsLt_bf16_f32 := s0_2_v1 _
  have h2 : V2 m c main_v0 = pad S10240x1024 ![0, 0] ![240, 0] ![0, 0] (V1 m c main_arg0) (sitofp .f32 (V1 m c main_c))
        pads_S10000x1024_S10240x1024_02400_000 h_S_ := s0_1_v0 _
  have h1 : V1 m c main_c = constantI S_ 32 0#32 := s0_c _
  have h0 : V1 m c main_arg0 = m ((c : Thread nD τ).loc main_arg0) := V1_of m c main_arg0 (by decide)
  rw [h3, h2, h1, h0]; rfl

/-- Region 0's right operand: the first weight matrix rounded to bf16. -/
theorem V3_v2 (c : Dev nD) : V3 m c main_v2 = kB0 (m ((c : Thread nD τ).loc main_arg4)) := by
  have h3 : V3 m c main_v2 = truncf .bf16 (V2 m c main_arg4) bitsLt_bf16_f32 := s0_2_v2 _
  have h0 : V2 m c main_arg4 = m ((c : Thread nD τ).loc main_arg4) :=
    (V2_of m c main_arg4 (by decide)).trans (V1_of m c main_arg4 (by decide))
  rw [h3, h0]; rfl

/-- A buffer none of the first three stretches writes still holds its launch contents after them. -/
theorem argV3 (c : Dev nD) (r : Ref sig .tc) (h0 : r ∉ hostOps0_W) (h1 : r ∉ hostOps0_1_W) (h2 : r ∉ hostOps0_2_W) :
    V3 m c r = m ((c : Thread nD τ).loc r) :=
  (V3_of m c r h2).trans <| (V2_of m c r h1).trans <| V1_of m c r h0

/-- … and after region 0, if it is not the buffer region 0 may change. -/
theorem argV4 (c : Dev nD) (r : Ref sig .tc) (h0 : r ∉ hostOps0_W) (h1 : r ∉ hostOps0_1_W) (h2 : r ∉ hostOps0_2_W)
    (h3 : r ∉ ([main_v3] : List (Ref sig .tc))) : V4 m outs c r = m ((c : Thread nD τ).loc r) :=
  (V4_of m outs c r h3).trans (argV3 m c r h0 h1 h2)

/-- After region 0 its result buffer holds the unknown. -/
theorem V4_v3 (c : Dev nD) : V4 m outs c main_v3 = outs 4 main_v3 c := Function.update_self ..

/-- The first edge aggregation, of the leading 10000 rows of region 0's result. -/
theorem V5_v17 (c : Dev nD) : V5 m outs c main_v17
    = kAgg64 (extractStridedSlice S10000x64 ![0, 0] (outs 4 main_v3 c) slices_S10240x64_S10000x64_0_0)
        (m ((c : Thread nD τ).loc main_arg1)) (m ((c : Thread nD τ).loc main_arg2)) (m ((c : Thread nD τ).loc main_arg3)) := by
  have h : V5 m outs c main_v17 = _ := s1_v17 (V4 m outs c)
  rw [h, V4_v3, argV4 m outs c main_arg1 (by decide) (by decide) (by decide) (by decide),
    argV4 m outs c main_arg2 (by decide) (by decide) (by decide) (by decide),
    argV4 m outs c main_arg3 (by decide) (by decide) (by decide) (by decide)]

/-- The hidden layer: the aggregation rectified. -/
theorem V7_v18 (c : Dev nD) : V7 m outs c main_v18
    = kH1 (outs 4 main_v3 c) (m ((c : Thread nD τ).loc main_arg1)) (m ((c : Thread nD τ).loc main_arg2)) (m ((c : Thread nD τ).loc main_arg3)) := by
  have h6 : V6 m outs c main_v18 = kRelu (V5 m outs c main_v17) := s1_1_v18 _
  rw [V7_of m outs c main_v18 (by decide), h6, V5_v17]; rfl

/-- Region 1's left operand: the hidden layer, padded by zero rows and rounded to bf16. -/
theorem V9_v20 (c : Dev nD) : V9 m outs c main_v20 = kA1 (kH1 (outs 4 main_v3 c) (m ((c : Thread nD τ).loc main_arg1)) (m ((c : Thread nD τ).loc main_arg2)) (m ((c : Thread nD τ).loc main_arg3))) := by
  have h9 : V9 m outs c main_v20 = truncf .bf16 (V8 m outs c main_v19) bitsLt_bf16_f32 := s1_4_v20 _
  have h8 : V8 m outs c main_v19 = pad S10240x64 ![0, 0] ![240, 0] ![0, 0] (V7 m outs c main_v18) (sitofp .f32 (V7 m outs c main_c_2))
        pads_S10000x64_S10240x64_02400_000 h_S_ := s1_3_v19 _
  have h7 : V7 m outs c main_c_2 = constantI S_ 32 0#32 := s1_2_c _
  rw [h9, h8, h7, V7_v18]; rfl

/-- A buffer no item before the last stretch ahead of region 1 writes holds its launch contents there. -/
theorem argV8 (c : Dev nD) (r : Ref sig .tc)
    (h : r ∉ hostOps0_W ∧ r ∉ hostOps0_1_W ∧ r ∉ hostOps0_2_W ∧ r ∉ ([main_v3] : List (Ref sig .tc)) ∧ r ∉ hostOps1_W
      ∧ r ∉ hostOps1_1_W ∧ r ∉ hostOps1_2_W ∧ r ∉ hostOps1_3_W) :
    V8 m outs c r = m ((c : Thread nD τ).loc r) :=
  (V8_of m outs c r h.2.2.2.2.2.2.2).trans <| (V7_of m outs c r h.2.2.2.2.2.2.1).trans <| (V6_of m outs c r h.2.2.2.2.2.1).trans <|
    (V5_of m outs c r h.2.2.2.2.1).trans <| argV4 m outs c r h.1 h.2.1 h.2.2.1 h.2.2.2.1

/-- … and after region 1, if neither that last stretch writes it nor region 1 may change it. -/
theorem argV10 (c : Dev nD) (r : Ref sig .tc)
    (h : r ∉ hostOps0_W ∧ r ∉ hostOps0_1_W ∧ r ∉ hostOps0_2_W ∧ r ∉ ([main_v3] : List (Ref sig .tc)) ∧ r ∉ hostOps1_W
      ∧ r ∉ hostOps1_1_W ∧ r ∉ hostOps1_2_W ∧ r ∉ hostOps1_3_W)
    (h' : r ∉ hostOps1_4_W ∧ r ∉ ([main_v23] : List (Ref sig .tc))) :
    V10 m outs c r = m ((c : Thread nD τ).loc r) :=
  (V10_of m outs c r h'.2).trans <| (V9_of m outs c r h'.1).trans <| argV8 m outs c r h

/-- Region 1's right operand: the two second-layer weight matrices side by side, rounded to bf16. -/
theorem V9_v22 (c : Dev nD) : V9 m outs c main_v22 = kB1 (m ((c : Thread nD τ).loc main_arg5)) (m ((c : Thread nD τ).loc main_arg6)) := by
  have h9 : V9 m outs c main_v22 = kB1 (V8 m outs c main_arg5) (V8 m outs c main_arg6) := s1_4_v22 _
  rw [h9, argV8 m outs c main_arg5 (by decide), argV8 m outs c main_arg6 (by decide)]

/-- After region 1 its result buffer holds the unknown. -/
theorem V10_v23 (c : Dev nD) : V10 m outs c main_v23 = outs 10 main_v23 c := Function.update_self ..

/-- The latent code, from region 1's result. -/
theorem V11_v42 (c : Dev nD) : V11 m outs c main_v42
    = kZ (outs 10 main_v23 c) (m ((c : Thread nD τ).loc main_arg1)) (m ((c : Thread nD τ).loc main_arg2))
        (m ((c : Thread nD τ).loc main_arg3)) (m ((c : Thread nD τ).loc main_arg7)) := by
  have h : V11 m outs c main_v42 = _ := s2_v42 (V10 m outs c)
  rw [h, V10_v23, argV10 m outs c main_arg1 (by decide) (by decide), argV10 m outs c main_arg2 (by decide) (by decide),
    argV10 m outs c main_arg3 (by decide) (by decide), argV10 m outs c main_arg7 (by decide) (by decide)]

/-- Region 2's operand (both sides): the latent code, padded by zero rows and rounded to bf16. -/
theorem V13_v44 (c : Dev nD) : V13 m outs c main_v44 = kA2 (kZ (outs 10 main_v23 c) (m ((c : Thread nD τ).loc main_arg1)) (m ((c : Thread nD τ).loc main_arg2)) (m ((c : Thread nD τ).loc main_arg3)) (m ((c : Thread nD τ).loc main_arg7))) := by
  have h13 : V13 m outs c main_v44 = truncf .bf16 (V12 m outs c main_v43) bitsLt_bf16_f32 := s2_2_v44 _
  have h12 : V12 m outs c main_v43 = pad S10240x32 ![0, 0] ![240, 0] ![0, 0] (V11 m outs c main_v42) (sitofp .f32 (V11 m outs c main_c_6))
        pads_S10000x32_S10240x32_02400_000 h_S_ := s2_1_v43 _
  have h11 : V11 m outs c main_c_6 = constantI S_ 32 0#32 := s2_c _
  rw [h13, h12, h11, V11_v42]; rfl

/-- After region 2 its result buffer holds the unknown. -/
theorem V14_v45 (c : Dev nD) : V14 m outs c main_v45 = outs 14 main_v45 c := Function.update_self ..

/-- The program's result: the leading 10000 × 10000 corner of region 2's result, flattened. -/
theorem V15_v47 (c : Dev nD) : V15 m outs c main_v47 = kOut (outs 14 main_v45 c) := by
  have h15 : V15 m outs c main_v47 = kOut (V14 m outs c main_v45) := s3_v47 _
  rw [h15, V14_v45]

end Cert.KernelIdeal.Frm

end
-- ==== Proof.KI.Val01.lean ====
import proofs.«419583_j52913997087388_1_alg».proof.Proof.KI.Region0
import proofs.«419583_j52913997087388_1_alg».proof.Proof.KI.Region1
import Idealize.ShloMosaic.Lib.ValueIdx
import Idealize.ShloMosaic.Lib.Pipeline.Value
import Idealize.ShloMosaic.PureOps.Ideal.Laws

/-! # Pipelines 0 and 1 at the ideal values: the output array is the matrix product

Each of the two pipelines runs its body once per block of 1280 rows: the body multiplies the block of rows by the
whole matrix of weights into a zero accumulator and stores the product block.  At the ideal values (extended
reals, no rounding) an entry of a product block is a plain finite sum, a block of the product is the product of
the block, and the eight row blocks tile the output; so after the last grid point the output array is, entry by
entry, the matrix product of the two input arrays as the pipeline found them. -/

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The product block of pipeline 0 at an entry

The body's payload is one matrix product into a zero accumulator, contracting axis 1 of the left operand with
axis 0 of the right.  At the ideal values its entry `(p, q)` is the sum over the contraction coordinate `k` of
`x0 (p, k) * x1 (k, q)`.  First, the four coordinate facts of the dimension record: the operands' indices at an
output index and a contraction index. -/

theorem lhs_k0_0 (i : S1280x64.Idx) (q : dot_S1280x1024_S1024x64_S1280x64_1_0_0_1_n_n.contr.Idx) :
    (dot_S1280x1024_S1024x64_S1280x64_1_0_0_1_n_n.lhsIdx i q 0).val = (i 0).val := by
  unfold DotDims.lhsIdx
  rw [dif_neg (show ¬(0 : Fin S1280x1024.rank) ∈ dot_S1280x1024_S1024x64_S1280x64_1_0_0_1_n_n.lhsBatch by decide), dif_pos (show (0 : Fin S1280x1024.rank) ∈ dot_S1280x1024_S1024x64_S1280x64_1_0_0_1_n_n.lhsNonContracting by decide)]
  rfl
theorem lhs_k0_1 (i : S1280x64.Idx) (q : dot_S1280x1024_S1024x64_S1280x64_1_0_0_1_n_n.contr.Idx) :
    (dot_S1280x1024_S1024x64_S1280x64_1_0_0_1_n_n.lhsIdx i q 1).val = (q ⟨0, by decide⟩).val :=
  dot_S1280x1024_S1024x64_S1280x64_1_0_0_1_n_n.lhsIdx_val_of_single rfl i q
theorem rhs_k0_0 (i : S1280x64.Idx) (q : dot_S1280x1024_S1024x64_S1280x64_1_0_0_1_n_n.contr.Idx) :
    (dot_S1280x1024_S1024x64_S1280x64_1_0_0_1_n_n.rhsIdx i q 0).val = (q ⟨0, by decide⟩).val :=
  dot_S1280x1024_S1024x64_S1280x64_1_0_0_1_n_n.rhsIdx_val_of_single rfl i q
theorem rhs_k0_1 (i : S1280x64.Idx) (q : dot_S1280x1024_S1024x64_S1280x64_1_0_0_1_n_n.contr.Idx) :
    (dot_S1280x1024_S1024x64_S1280x64_1_0_0_1_n_n.rhsIdx i q 1).val = (i 1).val := by
  unfold DotDims.rhsIdx
  rw [dif_neg (show ¬(1 : Fin S1024x64.rank) ∈ dot_S1280x1024_S1024x64_S1280x64_1_0_0_1_n_n.rhsBatch by decide), dif_pos (show (1 : Fin S1024x64.rank) ∈ dot_S1280x1024_S1024x64_S1280x64_1_0_0_1_n_n.rhsNonContracting by decide)]
  rfl

/-- The payload at entry `(p, q)`: the two same-shape casts are the identity, the product into the zero splat is
    the bare sum over the contraction index, and that index set is `Fin 1024` through its one coordinate. -/
theorem k0_pay1_apply (x0 : Vec Ideal S1280x1024 .bf16) (x1 : Vec Ideal S1024x64 .bf16) (p : Fin 1280) (q : Fin 64) :
    k0_pay1 (F := Ideal) x0 x1 (ix2 p q) = ∑ k : Fin 1024, (x0 (ix2 p k) : EReal) * (x1 (ix2 k q) : EReal) := by
  unfold k0_pay1
  show FloatOps.matmul dot_S1280x1024_S1024x64_S1280x64_1_0_0_1_n_n none (shapeCast S1280x1024 x0 shapeCasts_S1280x1024_S1280x1024 : FVec Ideal S1280x1024 .bf16) (shapeCast S1024x64 x1 shapeCasts_S1024x64_S1024x64 : FVec Ideal S1024x64 .bf16)
      (constant S1280x64 .f32 0x00000000#32) (ix2 p q) = _
  rw [shapeCast_self, shapeCast_self, Ideal.matmul_constant_zero_apply,
    ← Equiv.sum_comp (contrEquiv1 dot_S1280x1024_S1024x64_S1280x64_1_0_0_1_n_n 1024 rfl rfl).symm]
  refine Finset.sum_congr rfl fun k _ => ?_
  have hk := contrEquiv1_symm_val dot_S1280x1024_S1024x64_S1280x64_1_0_0_1_n_n 1024 rfl rfl k
  have el : dot_S1280x1024_S1024x64_S1280x64_1_0_0_1_n_n.lhsIdx (ix2 p q) ((contrEquiv1 dot_S1280x1024_S1024x64_S1280x64_1_0_0_1_n_n 1024 rfl rfl).symm k) = ix2 p k := funext fun a => Fin.ext (by
    match a with
    | ⟨0, _⟩ => exact lhs_k0_0 _ _
    | ⟨1, _⟩ => exact (lhs_k0_1 _ _).trans hk)
  have er : dot_S1280x1024_S1024x64_S1280x64_1_0_0_1_n_n.rhsIdx (ix2 p q) ((contrEquiv1 dot_S1280x1024_S1024x64_S1280x64_1_0_0_1_n_n 1024 rfl rfl).symm k) = ix2 k q := funext fun a => Fin.ext (by
    match a with
    | ⟨0, _⟩ => exact (rhs_k0_0 _ _).trans hk
    | ⟨1, _⟩ => exact rhs_k0_1 _ _)
  rw [el, er]

/-! ## Pipeline 0: from blocks to the array

After all 8 grid points the output array holds, entry by entry, the product of the two input arrays as the
pipeline found them.  Point `t` writes back the rows `1280·t … 1280·t + 1279`: the product of block `t` of the
rows' array with the whole weights' array, which is those rows of the whole product; the 8 row blocks tile the
output array. -/

section Value0

variable (V : (c : Dev nD) → (b : Ref sig .tc) → Buf (Elt Ideal) ((c : Thread nD τ).loc b))

/-- The whole product of a `10240 × 1024` array with a `1024 × 64` array, entry by entry. -/
def prod0 (a : S10240x1024.Idx → EReal) (b : S1024x64.Idx → EReal) : S10240x64.Idx → EReal :=
  fun i => ∑ k : Fin 1024, a (ix2 (n0 := 10240) (i 0) k) * b (ix2 (n1 := 64) k (i 1))

/-- An entry `(p, q)` of a block product is the entry `i` of the whole product as soon as the block of rows is
    read on row `i 0` (all columns) and the block of weights on column `i 1` (all rows).  `ea`, `eb`: where the two
    blocks sit in their arrays. -/
theorem block_entry0 (a : S10240x1024.Idx → EReal) (b : S1024x64.Idx → EReal)
    (ea : S1280x1024.Idx → S10240x1024.Idx) (eb : S1024x64.Idx → S1024x64.Idx) (i : S10240x64.Idx) (p : Fin 1280) (q : Fin 64)
    (ha : ∀ k : Fin 1024, ea (ix2 p k) = ix2 (n0 := 10240) (i 0) k) (hb : ∀ k : Fin 1024, eb (ix2 k q) = ix2 (n1 := 64) k (i 1)) :
    ∑ k : Fin 1024, a (ea (ix2 p k)) * b (eb (ix2 k q)) = prod0 a b i := by
  unfold prod0
  exact Finset.sum_congr rfl fun k _ => by rw [ha k, hb k]

/-- Every staging-buffer rectangle of the body starts at the origin. -/
theorem origin0 : (![0, 0] : Fin 2 → Nat) = fun _ => 0 :=
  funext fun a => by match a with | ⟨0, _⟩ => rfl | ⟨1, _⟩ => rfl

/-- The printed index maps, decided over the 8 grid points: the rows' window moves down with the output's and
    never sideways, the weights' window never moves, the output's window never moves sideways. -/
theorem idx_facts0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of the whole product. -/
theorem flushed0_eq (c : Dev nD) (t : Fin cfg0.N) :
    (dat0 (F := Ideal) V c).flushed 2 t
      = ((cfg0.win 2).blk t).view.read (Elt Ideal) (prod0 (V c main_v1) (V c main_v2)) := by
  show (cfg0.win 2).cut (grid0.coords t) ((dat0 (F := Ideal) V c).after 2 t) = _
  rw [after0_2]
  unfold out0_2
  rw [View.canon_unit_zero origin0]
  simp only [View.ld_unit_zero (S := S1280x1024) origin0, View.ld_unit_zero (S := S1024x64) origin0]
  obtain ⟨e0, e1, e2, e3, e4⟩ := idx_facts0 t
  funext y
  obtain ⟨p, q, rfl⟩ : ∃ (p : Fin 1280) (q : Fin 64), y = ix2 p q := ⟨y 0, y 1, eq_ix2 y⟩
  refine (k0_pay1_apply _ _ p q).trans ?_
  refine block_entry0 (V c main_v1) (V c main_v2) ((cfg0.win 0).blk t).view.emb ((cfg0.win 1).blk t).view.emb
    (((cfg0.win 2).blk t).view.emb (ix2 p q)) p q (fun k => ?_) (fun k => ?_)
  · funext a; apply Fin.ext
    match a with
    | ⟨0, _⟩ => show win0_0.index t (0 : Fin 2) * 1280 + 1 * p.val = win0_2.index t (0 : Fin 2) * 1280 + 1 * p.val; omega
    | ⟨1, _⟩ => show win0_0.index t (1 : Fin 2) * 1024 + 1 * k.val = k.val; omega
  · funext a; apply Fin.ext
    match a with
    | ⟨0, _⟩ => show win0_1.index t (0 : Fin 2) * 1024 + 1 * k.val = k.val; omega
    | ⟨1, _⟩ => show win0_1.index t (1 : Fin 2) * 64 + 1 * q.val = win0_2.index t (1 : Fin 2) * 64 + 1 * q.val; omega

/-- An index of the output array lies in point `t`'s block iff each coordinate lies in the block's range. -/
theorem mem_blk0 (t : Fin cfg0.N) (i : S10240x64.Idx) :
    i ∈ ((cfg0.win 2).blk t).view.set ↔ ∀ a : Fin 2, win0_2.index t a * S1280x64.size a ≤ (i a).val ∧ (i a).val < win0_2.index t a * S1280x64.size a + S1280x64.size a := by
  show i ∈ ((View.whole main_v3).slice (win0_2.rect t)).set ↔ _
  rw [View.set_slice_whole, Rect.mem_set_unit]
  exact Iff.rfl

/-- The blocks tile the array: row `r` is written back by the point whose row block is `r / 1280`. -/
theorem cover0 (i : S10240x64.Idx) :
    ∃ t : Fin cfg0.N, (cfg0.win 2).flush t = true ∧ i ∈ ((cfg0.win 2).blk t).view.set := by
  have hi0 : (i 0).val < 10240 := (i 0).isLt
  have hi1 : (i 1).val < 64 := (i 1).isLt
  obtain ⟨t, ht⟩ := idx_onto0 ⟨(i 0).val / 1280, by omega⟩
  have q0 : win0_2.index t (0 : Fin 2) = (i 0).val / 1280 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1280 ≤ (i 0).val ∧ (i 0).val < win0_2.index t (0 : Fin 2) * 1280 + 1280; omega
  | ⟨1, _⟩ => show win0_2.index t (1 : Fin 2) * 64 ≤ (i 1).val ∧ (i 1).val < win0_2.index t (1 : Fin 2) * 64 + 64; omega

/-- So the output array ends holding the whole product, -/
theorem arr0_eq (c : Dev nD) :
    (dat0 (F := Ideal) V c).arrAt 2 cfg0.N = prod0 (V c main_v1) (V c main_v2) :=
  (dat0 (F := Ideal) V c).arrAt_eq_of_cover 2 _ (fun t _ => flushed0_eq V c t) cover0

/-- The whole product read at row `r` and column `j`: the sum over `k` of the left array at `(r, k)` times the right
    array at `(k, j)`. -/
theorem prod0_apply (a : S10240x1024.Idx → EReal) (b : S1024x64.Idx → EReal) (r : Fin 10240) (j : Fin 64) :
    prod0 a b (ix2 r j) = ∑ k : Fin 1024, a (ix2 r k) * b (ix2 k j) := rfl

/-- and so the output array at row `r` and column `j` is that sum of the two input arrays as the pipeline found them. -/
theorem final0 (c : Dev nD) (r : Fin 10240) (j : Fin 64) :
    ((dat0 (F := Ideal) V c).arrAt 2 cfg0.N : S10240x64.Idx → EReal) (ix2 r j)
      = prod0 (V c main_v1) (V c main_v2) (ix2 r j) := by
  rw [arr0_eq]

/-- The same with the two input arrays named: whatever they are known to be, the output array at row `r` and
    column `j` is the sum over `k` of their products. -/
theorem final0_of (c : Dev nD) (r : Fin 10240) (j : Fin 64) (a : S10240x1024.Idx → EReal) (b : S1024x64.Idx → EReal)
    (ha : V c main_v1 = a) (hb : V c main_v2 = b) :
    ((dat0 (F := Ideal) V c).arrAt 2 cfg0.N : S10240x64.Idx → EReal) (ix2 r j)
      = ∑ k : Fin 1024, a (ix2 r k) * b (ix2 k j) := by
  subst ha hb
  rw [final0, prod0_apply]

end Value0

/-! ## The product block of pipeline 1 at an entry

The body's payload is one matrix product into a zero accumulator, contracting axis 1 of the left operand with
axis 0 of the right.  At the ideal values its entry `(p, q)` is the sum over the contraction coordinate `k` of
`x0 (p, k) * x1 (k, q)`.  First, the four coordinate facts of the dimension record: the operands' indices at an
output index and a contraction index. -/

theorem lhs_k1_0 (i : S1280x64.Idx) (q : dot_S1280x64_S64x64_S1280x64_1_0_0_1_n_n.contr.Idx) :
    (dot_S1280x64_S64x64_S1280x64_1_0_0_1_n_n.lhsIdx i q 0).val = (i 0).val := by
  unfold DotDims.lhsIdx
  rw [dif_neg (show ¬(0 : Fin S1280x64.rank) ∈ dot_S1280x64_S64x64_S1280x64_1_0_0_1_n_n.lhsBatch by decide), dif_pos (show (0 : Fin S1280x64.rank) ∈ dot_S1280x64_S64x64_S1280x64_1_0_0_1_n_n.lhsNonContracting by decide)]
  rfl
theorem lhs_k1_1 (i : S1280x64.Idx) (q : dot_S1280x64_S64x64_S1280x64_1_0_0_1_n_n.contr.Idx) :
    (dot_S1280x64_S64x64_S1280x64_1_0_0_1_n_n.lhsIdx i q 1).val = (q ⟨0, by decide⟩).val :=
  dot_S1280x64_S64x64_S1280x64_1_0_0_1_n_n.lhsIdx_val_of_single rfl i q
theorem rhs_k1_0 (i : S1280x64.Idx) (q : dot_S1280x64_S64x64_S1280x64_1_0_0_1_n_n.contr.Idx) :
    (dot_S1280x64_S64x64_S1280x64_1_0_0_1_n_n.rhsIdx i q 0).val = (q ⟨0, by decide⟩).val :=
  dot_S1280x64_S64x64_S1280x64_1_0_0_1_n_n.rhsIdx_val_of_single rfl i q
theorem rhs_k1_1 (i : S1280x64.Idx) (q : dot_S1280x64_S64x64_S1280x64_1_0_0_1_n_n.contr.Idx) :
    (dot_S1280x64_S64x64_S1280x64_1_0_0_1_n_n.rhsIdx i q 1).val = (i 1).val := by
  unfold DotDims.rhsIdx
  rw [dif_neg (show ¬(1 : Fin S64x64.rank) ∈ dot_S1280x64_S64x64_S1280x64_1_0_0_1_n_n.rhsBatch by decide), dif_pos (show (1 : Fin S64x64.rank) ∈ dot_S1280x64_S64x64_S1280x64_1_0_0_1_n_n.rhsNonContracting by decide)]
  rfl

/-- The payload at entry `(p, q)`: the two same-shape casts are the identity, the product into the zero splat is
    the bare sum over the contraction index, and that index set is `Fin 64` through its one coordinate. -/
theorem k1_pay1_apply (x0 : Vec Ideal S1280x64 .bf16) (x1 : Vec Ideal S64x64 .bf16) (p : Fin 1280) (q : Fin 64) :
    k1_pay1 (F := Ideal) x0 x1 (ix2 p q) = ∑ k : Fin 64, (x0 (ix2 p k) : EReal) * (x1 (ix2 k q) : EReal) := by
  unfold k1_pay1
  show FloatOps.matmul dot_S1280x64_S64x64_S1280x64_1_0_0_1_n_n none (shapeCast S1280x64 x0 shapeCasts_S1280x64_S1280x64 : FVec Ideal S1280x64 .bf16) (shapeCast S64x64 x1 shapeCasts_S64x64_S64x64 : FVec Ideal S64x64 .bf16)
      (constant S1280x64 .f32 0x00000000#32) (ix2 p q) = _
  rw [shapeCast_self, shapeCast_self, Ideal.matmul_constant_zero_apply,
    ← Equiv.sum_comp (contrEquiv1 dot_S1280x64_S64x64_S1280x64_1_0_0_1_n_n 64 rfl rfl).symm]
  refine Finset.sum_congr rfl fun k _ => ?_
  have hk := contrEquiv1_symm_val dot_S1280x64_S64x64_S1280x64_1_0_0_1_n_n 64 rfl rfl k
  have el : dot_S1280x64_S64x64_S1280x64_1_0_0_1_n_n.lhsIdx (ix2 p q) ((contrEquiv1 dot_S1280x64_S64x64_S1280x64_1_0_0_1_n_n 64 rfl rfl).symm k) = ix2 p k := funext fun a => Fin.ext (by
    match a with
    | ⟨0, _⟩ => exact lhs_k1_0 _ _
    | ⟨1, _⟩ => exact (lhs_k1_1 _ _).trans hk)
  have er : dot_S1280x64_S64x64_S1280x64_1_0_0_1_n_n.rhsIdx (ix2 p q) ((contrEquiv1 dot_S1280x64_S64x64_S1280x64_1_0_0_1_n_n 64 rfl rfl).symm k) = ix2 k q := funext fun a => Fin.ext (by
    match a with
    | ⟨0, _⟩ => exact (rhs_k1_0 _ _).trans hk
    | ⟨1, _⟩ => exact rhs_k1_1 _ _)
  rw [el, er]

/-! ## Pipeline 1: from blocks to the array

After all 8 grid points the output array holds, entry by entry, the product of the two input arrays as the
pipeline found them.  Point `t` writes back the rows `1280·t … 1280·t + 1279`: the product of block `t` of the
rows' array with the whole weights' array, which is those rows of the whole product; the 8 row blocks tile the
output array. -/

section Value1

variable (V : (c : Dev nD) → (b : Ref sig .tc) → Buf (Elt Ideal) ((c : Thread nD τ).loc b))

/-- The whole product of a `10240 × 64` array with a `64 × 64` array, entry by entry. -/
def prod1 (a : S10240x64.Idx → EReal) (b : S64x64.Idx → EReal) : S10240x64.Idx → EReal :=
  fun i => ∑ k : Fin 64, a (ix2 (n0 := 10240) (i 0) k) * b (ix2 (n1 := 64) k (i 1))

/-- An entry `(p, q)` of a block product is the entry `i` of the whole product as soon as the block of rows is
    read on row `i 0` (all columns) and the block of weights on column `i 1` (all rows).  `ea`, `eb`: where the two
    blocks sit in their arrays. -/
theorem block_entry1 (a : S10240x64.Idx → EReal) (b : S64x64.Idx → EReal)
    (ea : S1280x64.Idx → S10240x64.Idx) (eb : S64x64.Idx → S64x64.Idx) (i : S10240x64.Idx) (p : Fin 1280) (q : Fin 64)
    (ha : ∀ k : Fin 64, ea (ix2 p k) = ix2 (n0 := 10240) (i 0) k) (hb : ∀ k : Fin 64, eb (ix2 k q) = ix2 (n1 := 64) k (i 1)) :
    ∑ k : Fin 64, a (ea (ix2 p k)) * b (eb (ix2 k q)) = prod1 a b i := by
  unfold prod1
  exact Finset.sum_congr rfl fun k _ => by rw [ha k, hb k]

/-- Every staging-buffer rectangle of the body starts at the origin. -/
theorem origin1 : (![0, 0] : Fin 2 → Nat) = fun _ => 0 :=
  funext fun a => by match a with | ⟨0, _⟩ => rfl | ⟨1, _⟩ => rfl

/-- The printed index maps, decided over the 8 grid points: the rows' window moves down with the output's and
    never sideways, the weights' window never moves, the output's window never moves sideways. -/
theorem idx_facts1 : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every row block of the output is some point's. -/
theorem idx_onto1 : ∀ q0 : Fin 8, ∃ t : Fin cfg1.N, win1_2.index t = ![q0.val, 0] :=
  (by decide +kernel : ∀ q0 : Fin 8, ∃ t : Fin grid1.N, win1_2.index t = ![q0.val, 0])

/-- What point `t` writes back is block `t` of the whole product. -/
theorem flushed1_eq (c : Dev nD) (t : Fin cfg1.N) :
    (dat1 (F := Ideal) V c).flushed 2 t
      = ((cfg1.win 2).blk t).view.read (Elt Ideal) (prod1 (V c main_v20) (V c main_v22)) := by
  show (cfg1.win 2).cut (grid1.coords t) ((dat1 (F := Ideal) V c).after 2 t) = _
  rw [after1_2]
  unfold out1_2
  rw [View.canon_unit_zero origin1]
  simp only [View.ld_unit_zero (S := S1280x64) origin1, View.ld_unit_zero (S := S64x64) origin1]
  obtain ⟨e0, e1, e2, e3, e4⟩ := idx_facts1 t
  funext y
  obtain ⟨p, q, rfl⟩ : ∃ (p : Fin 1280) (q : Fin 64), y = ix2 p q := ⟨y 0, y 1, eq_ix2 y⟩
  refine (k1_pay1_apply _ _ p q).trans ?_
  refine block_entry1 (V c main_v20) (V c main_v22) ((cfg1.win 0).blk t).view.emb ((cfg1.win 1).blk t).view.emb
    (((cfg1.win 2).blk t).view.emb (ix2 p q)) p q (fun k => ?_) (fun k => ?_)
  · funext a; apply Fin.ext
    match a with
    | ⟨0, _⟩ => show win1_0.index t (0 : Fin 2) * 1280 + 1 * p.val = win1_2.index t (0 : Fin 2) * 1280 + 1 * p.val; omega
    | ⟨1, _⟩ => show win1_0.index t (1 : Fin 2) * 64 + 1 * k.val = k.val; omega
  · funext a; apply Fin.ext
    match a with
    | ⟨0, _⟩ => show win1_1.index t (0 : Fin 2) * 64 + 1 * k.val = k.val; omega
    | ⟨1, _⟩ => show win1_1.index t (1 : Fin 2) * 64 + 1 * q.val = win1_2.index t (1 : Fin 2) * 64 + 1 * q.val; omega

/-- An index of the output array lies in point `t`'s block iff each coordinate lies in the block's range. -/
theorem mem_blk1 (t : Fin cfg1.N) (i : S10240x64.Idx) :
    i ∈ ((cfg1.win 2).blk t).view.set ↔ ∀ a : Fin 2, win1_2.index t a * S1280x64.size a ≤ (i a).val ∧ (i a).val < win1_2.index t a * S1280x64.size a + S1280x64.size a := by
  show i ∈ ((View.whole main_v23).slice (win1_2.rect t)).set ↔ _
  rw [View.set_slice_whole, Rect.mem_set_unit]
  exact Iff.rfl

/-- The blocks tile the array: row `r` is written back by the point whose row block is `r / 1280`. -/
theorem cover1 (i : S10240x64.Idx) :
    ∃ t : Fin cfg1.N, (cfg1.win 2).flush t = true ∧ i ∈ ((cfg1.win 2).blk t).view.set := by
  have hi0 : (i 0).val < 10240 := (i 0).isLt
  have hi1 : (i 1).val < 64 := (i 1).isLt
  obtain ⟨t, ht⟩ := idx_onto1 ⟨(i 0).val / 1280, by omega⟩
  have q0 : win1_2.index t (0 : Fin 2) = (i 0).val / 1280 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1280 ≤ (i 0).val ∧ (i 0).val < win1_2.index t (0 : Fin 2) * 1280 + 1280; omega
  | ⟨1, _⟩ => show win1_2.index t (1 : Fin 2) * 64 ≤ (i 1).val ∧ (i 1).val < win1_2.index t (1 : Fin 2) * 64 + 64; omega

/-- So the output array ends holding the whole product, -/
theorem arr1_eq (c : Dev nD) :
    (dat1 (F := Ideal) V c).arrAt 2 cfg1.N = prod1 (V c main_v20) (V c main_v22) :=
  (dat1 (F := Ideal) V c).arrAt_eq_of_cover 2 _ (fun t _ => flushed1_eq V c t) cover1

/-- The whole product read at row `r` and column `j`: the sum over `k` of the left array at `(r, k)` times the right
    array at `(k, j)`. -/
theorem prod1_apply (a : S10240x64.Idx → EReal) (b : S64x64.Idx → EReal) (r : Fin 10240) (j : Fin 64) :
    prod1 a b (ix2 r j) = ∑ k : Fin 64, a (ix2 r k) * b (ix2 k j) := rfl

/-- and so the output array at row `r` and column `j` is that sum of the two input arrays as the pipeline found them. -/
theorem final1 (c : Dev nD) (r : Fin 10240) (j : Fin 64) :
    ((dat1 (F := Ideal) V c).arrAt 2 cfg1.N : S10240x64.Idx → EReal) (ix2 r j)
      = prod1 (V c main_v20) (V c main_v22) (ix2 r j) := by
  rw [arr1_eq]

/-- The same with the two input arrays named: whatever they are known to be, the output array at row `r` and
    column `j` is the sum over `k` of their products. -/
theorem final1_of (c : Dev nD) (r : Fin 10240) (j : Fin 64) (a : S10240x64.Idx → EReal) (b : S64x64.Idx → EReal)
    (ha : V c main_v20 = a) (hb : V c main_v22 = b) :
    ((dat1 (F := Ideal) V c).arrAt 2 cfg1.N : S10240x64.Idx → EReal) (ix2 r j)
      = ∑ k : Fin 64, a (ix2 r k) * b (ix2 k j) := by
  subst ha hb
  rw [final1, prod1_apply]

end Value1

end Cert.KernelIdeal.Frm

end
-- ==== Proof.KI.Val2.lean ====
/- What the third region leaves in its output array, at the ideal instance. The region's 64 grid points (i, j)
   each write the [1280,1280] block (i, j) of the output as the product of row block i of the input z with the
   transpose of row block j of the same z. Together the blocks tile the [10240,10240] array, which therefore ends
   holding the Gram matrix of z's rows: entry (r, s) is the inner product of rows r and s of z. -/
import proofs.«419583_j52913997087388_1_alg».proof.Proof.KI.Region2
import Idealize.ShloMosaic.Lib.ValueIdx
import Idealize.ShloMosaic.Lib.Pipeline.Value
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The Gram matrix of the rows of a [10240,32] array -/

/-- Entry (r, s): the inner product of rows r and s. -/
def gram (z : S10240x32.Idx → EReal) : S10240x10240.Idx → EReal :=
  fun i => ∑ k : Fin 32, z (ix2 (n0 := 10240) (i 0) k) * z (ix2 (n0 := 10240) (i 1) k)

theorem gram_apply (z : S10240x32.Idx → EReal) (r s : Fin 10240) :
    gram z (ix2 r s) = ∑ k : Fin 32, z (ix2 r k) * z (ix2 s k) := rfl

/-! ## The body's product at an index

The contraction runs over the second axis of BOTH operands: at output index (p, q) and contraction position k the
left operand is read at (p, k) and the right operand at (q, k). -/

theorem lhs_outer_0 (i : S1280x1280.Idx) (q : dot_S1280x32_S1280x32_S1280x1280_1_1_0_0_n_n.contr.Idx) :
    (dot_S1280x32_S1280x32_S1280x1280_1_1_0_0_n_n.lhsIdx i q 0).val = (i 0).val := by
  unfold DotDims.lhsIdx
  rw [dif_neg (show ¬(0 : Fin S1280x32.rank) ∈ dot_S1280x32_S1280x32_S1280x1280_1_1_0_0_n_n.lhsBatch by decide), dif_pos (show (0 : Fin S1280x32.rank) ∈ dot_S1280x32_S1280x32_S1280x1280_1_1_0_0_n_n.lhsNonContracting by decide)]
  rfl
theorem lhs_outer_1 (i : S1280x1280.Idx) (q : dot_S1280x32_S1280x32_S1280x1280_1_1_0_0_n_n.contr.Idx) :
    (dot_S1280x32_S1280x32_S1280x1280_1_1_0_0_n_n.lhsIdx i q 1).val = (q ⟨0, by decide⟩).val :=
  dot_S1280x32_S1280x32_S1280x1280_1_1_0_0_n_n.lhsIdx_val_of_single rfl i q
theorem rhs_outer_0 (i : S1280x1280.Idx) (q : dot_S1280x32_S1280x32_S1280x1280_1_1_0_0_n_n.contr.Idx) :
    (dot_S1280x32_S1280x32_S1280x1280_1_1_0_0_n_n.rhsIdx i q 0).val = (i 1).val := by
  unfold DotDims.rhsIdx
  rw [dif_neg (show ¬(0 : Fin S1280x32.rank) ∈ dot_S1280x32_S1280x32_S1280x1280_1_1_0_0_n_n.rhsBatch by decide), dif_pos (show (0 : Fin S1280x32.rank) ∈ dot_S1280x32_S1280x32_S1280x1280_1_1_0_0_n_n.rhsNonContracting by decide)]
  rfl
theorem rhs_outer_1 (i : S1280x1280.Idx) (q : dot_S1280x32_S1280x32_S1280x1280_1_1_0_0_n_n.contr.Idx) :
    (dot_S1280x32_S1280x32_S1280x1280_1_1_0_0_n_n.rhsIdx i q 1).val = (q ⟨0, by decide⟩).val :=
  dot_S1280x32_S1280x32_S1280x1280_1_1_0_0_n_n.rhsIdx_val_of_single rfl i q

/-- The stored value at (p, q): the sum over the 32 columns of x0 at (p, k) times x1 at (q, k). The accumulator is
    the zero constant, and the two shape casts are to the operands' own shape. -/
theorem outer_apply (x0 x1 : Vec Ideal S1280x32 .bf16) (p q : Fin 1280) :
    k2_pay1 (F := Ideal) x0 x1 (ix2 p q) = ∑ k : Fin 32, x0 (ix2 p k) * x1 (ix2 q k) := by
  unfold k2_pay1
  rw [shapeCast_self, shapeCast_self]
  show FloatOps.matmul _ _ _ _ _ _ = _
  rw [Ideal.matmul_constant_zero_apply,
    ← Equiv.sum_comp (contrEquiv1 dot_S1280x32_S1280x32_S1280x1280_1_1_0_0_n_n 32 rfl rfl).symm]
  refine Finset.sum_congr rfl fun k _ => ?_
  have hk := contrEquiv1_symm_val dot_S1280x32_S1280x32_S1280x1280_1_1_0_0_n_n 32 rfl rfl k
  have el : dot_S1280x32_S1280x32_S1280x1280_1_1_0_0_n_n.lhsIdx (ix2 p q) ((contrEquiv1 dot_S1280x32_S1280x32_S1280x1280_1_1_0_0_n_n 32 rfl rfl).symm k) = ix2 p k := funext fun a => Fin.ext (by
    match a with
    | ⟨0, _⟩ => exact lhs_outer_0 _ _
    | ⟨1, _⟩ => exact (lhs_outer_1 _ _).trans hk)
  have er : dot_S1280x32_S1280x32_S1280x1280_1_1_0_0_n_n.rhsIdx (ix2 p q) ((contrEquiv1 dot_S1280x32_S1280x32_S1280x1280_1_1_0_0_n_n 32 rfl rfl).symm k) = ix2 q k := funext fun a => Fin.ext (by
    match a with
    | ⟨0, _⟩ => exact rhs_outer_0 _ _
    | ⟨1, _⟩ => exact (rhs_outer_1 _ _).trans hk)
  rw [el, er]

/-- One entry of one block, from what the two loaded blocks are known to hold: if the rows p of x0 and q of x1 are
    the rows of z that the array index i names, the stored value at (p, q) is the Gram entry at i. -/
theorem outer_eq_gram (z : S10240x32.Idx → EReal) (x0 x1 : Vec Ideal S1280x32 .bf16) (i : S10240x10240.Idx) (p q : Fin 1280)
    (h0 : ∀ k : Fin 32, x0 (ix2 p k) = z (ix2 (n0 := 10240) (i 0) k))
    (h1 : ∀ k : Fin 32, x1 (ix2 q k) = z (ix2 (n0 := 10240) (i 1) k)) :
    k2_pay1 (F := Ideal) x0 x1 (ix2 p q) = gram z i := by
  rw [outer_apply]
  exact Finset.sum_congr rfl fun k _ => by rw [h0 k, h1 k]

/-! ## From blocks to the array -/

section Blocks
variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the 8×8 grid, decided point by point: the first input's row block is the output's
    row block, the second input's row block is the output's COLUMN block, neither input moves along its columns,
    and the output's block indices stay below 8. -/
theorem block_indices : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 7 ∧ win2_2.index t (1 : Fin 2) ≤ 7 :=
  (by decide +kernel : ∀ t : Fin grid2.N, _)

/-- Every pair of block indices is some grid point's. -/
theorem block_onto : ∀ (q0 q1 : Fin 8), ∃ t : Fin cfg2.N, win2_2.index t = ![q0.val, q1.val] :=
  (by decide +kernel : ∀ (q0 q1 : Fin 8), ∃ t : Fin grid2.N, win2_2.index t = ![q0.val, q1.val])

/-- What grid point t writes back is block t of the Gram matrix of z as the region finds it. -/
theorem flushed2_eq (c : Dev nD) (t : Fin cfg2.N) :
    (dat2 (F := Ideal) V c).flushed 2 t = ((cfg2.win 2).blk t).view.read (Elt Ideal) (gram (V c main_v44)) := by
  show (cfg2.win 2).cut (grid2.coords t) ((dat2 V c).after 2 t) = _
  rw [after2_2]
  unfold out2_2
  rw [View.canon_unit_zero zero_offsets]
  simp only [View.ld_unit_zero (S := S1280x32) zero_offsets]
  obtain ⟨e0, e1, e2, e3, e4, e5⟩ := block_indices t
  funext j
  obtain ⟨p, q, rfl⟩ : ∃ (p : Fin 1280) (q : Fin 1280), j = ix2 p q := ⟨j 0, j 1, eq_ix2 j⟩
  show k2_pay1 (F := Ideal) (iblk2 V c 0 t) (iblk2 V c 1 t) (ix2 p q) = gram (V c main_v44) (((cfg2.win 2).blk t).view.emb (ix2 p q))
  refine outer_eq_gram (V c main_v44) (iblk2 V c 0 t) (iblk2 V c 1 t) (((cfg2.win 2).blk t).view.emb (ix2 p q)) p q (fun k => ?_) (fun k => ?_)
  · show V c main_v44 (((cfg2.win 0).blk t).view.emb (ix2 p k)) = V c main_v44 _
    refine congrArg _ (funext fun a => Fin.ext ?_)
    match a with
    | ⟨0, _⟩ => show win2_0.index t (0 : Fin 2) * 1280 + 1 * p.val = win2_2.index t (0 : Fin 2) * 1280 + 1 * p.val; omega
    | ⟨1, _⟩ => show win2_0.index t (1 : Fin 2) * 32 + 1 * k.val = k.val; omega
  · show V c main_v44 (((cfg2.win 1).blk t).view.emb (ix2 q k)) = V c main_v44 _
    refine congrArg _ (funext fun a => Fin.ext ?_)
    match a with
    | ⟨0, _⟩ => show win2_1.index t (0 : Fin 2) * 1280 + 1 * q.val = win2_2.index t (1 : Fin 2) * 1280 + 1 * q.val; omega
    | ⟨1, _⟩ => show win2_1.index t (1 : Fin 2) * 32 + 1 * k.val = k.val; omega

/-- An index of the output array is in point t's block iff each coordinate is in the block's range on its axis. -/
theorem mem_blk2 (t : Fin cfg2.N) (i : S10240x10240.Idx) :
    i ∈ ((cfg2.win 2).blk t).view.set ↔ ∀ a : Fin 2, win2_2.index t a * S1280x1280.size a ≤ (i a).val ∧ (i a).val < win2_2.index t a * S1280x1280.size a + S1280x1280.size a := by
  show i ∈ ((View.whole main_v45).slice (win2_2.rect t)).set ↔ _
  rw [View.set_slice_whole, Rect.mem_set_unit]
  exact Iff.rfl

/-- The blocks cover the array: entry (r, s) lies in the block of the point with block indices (r / 1280, s / 1280). -/
theorem covered2 (i : S10240x10240.Idx) :
    ∃ t : Fin cfg2.N, (cfg2.win 2).flush t = true ∧ i ∈ ((cfg2.win 2).blk t).view.set := by
  have hi0 : (i 0).val < 10240 := (i 0).isLt
  have hi1 : (i 1).val < 10240 := (i 1).isLt
  obtain ⟨t, ht⟩ := block_onto ⟨(i 0).val / 1280, by omega⟩ ⟨(i 1).val / 1280, by omega⟩
  have q0 : win2_2.index t (0 : Fin 2) = (i 0).val / 1280 := congrFun ht 0
  have q1 : win2_2.index t (1 : Fin 2) = (i 1).val / 1280 := congrFun ht 1
  refine ⟨t, flush2_2 t, ?_⟩
  rw [mem_blk2]
  intro a
  match a with
  | ⟨0, _⟩ => show win2_2.index t (0 : Fin 2) * 1280 ≤ (i 0).val ∧ (i 0).val < win2_2.index t (0 : Fin 2) * 1280 + 1280; omega
  | ⟨1, _⟩ => show win2_2.index t (1 : Fin 2) * 1280 ≤ (i 1).val ∧ (i 1).val < win2_2.index t (1 : Fin 2) * 1280 + 1280; omega

/-- The output array after the region: the Gram matrix of the rows of z. -/
theorem arr2_eq_gram (c : Dev nD) : (dat2 (F := Ideal) V c).arrAt 2 cfg2.N = gram (V c main_v44) :=
  (dat2 (F := Ideal) V c).arrAt_eq_of_cover 2 (gram (V c main_v44)) (fun t _ => flushed2_eq V c t) covered2

/-- The input array z on core c as the region finds it, over its literal index type (so that its entries are
    extended reals on the nose). -/
abbrev zIn (c : Dev nD) : S10240x32.Idx → EReal := V c main_v44

/-- Entry (r, s) of the output array after the region: the inner product of rows r and s of z. -/
theorem final2 (c : Dev nD) (r s : Fin 10240) :
    @Eq EReal (((dat2 (F := Ideal) V c).arrAt 2 cfg2.N : S10240x10240.Idx → EReal) (ix2 r s))
      (∑ k : Fin 32, zIn V c (ix2 r k) * zIn V c (ix2 s k)) := by
  rw [arr2_eq_gram]
  rfl

end Blocks

end Cert.KernelIdeal.Frm

end
-- ==== Proof.Bridge.RefFns.lean ====
/-
  The reference's arithmetic, named once, stretch by stretch: the first product `x · W0`, the edge aggregation of a
  64-column and of a 32-column table (each edge adds its weighted source row to its destination row), the rectifier,
  the two second-layer products, the reparameterisation `z = mean + eps · exp(logstd)`, and the inner products of the
  rows of `z`, flattened. Each definition is spelt with exactly the operations the reference program prints, so that its
  run's result term is their composition by unfolding.
-/
import proofs.«419583_j52913997087388_1_alg».proof.Proof.Gen.ReferenceIdeal

noncomputable section

namespace Cert.ReferenceIdeal.Frm

open Idealize.ShloMosaic Cert.ReferenceIdeal Cert.ReferenceIdeal.Gen

variable {F : FTy → Type} [FloatOps F]

/-- The edges' source indices with negative values wrapped by the table's height, as a column of start indices. -/
def rSrc (src : IVec S320000 32) : IVec S320000x1 32 :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 10000#32))) src)

/-- The edge aggregation of a 64-column table. -/
def rAgg64 (h : FVec F S10000x64 .f32) (src dst : IVec S320000 32) (w : FVec F S320000 .f32) : FVec F S10000x64 .f32 :=
  Host.scatterAdd scatter_S10000x64_S320000x1_S320000x64_1_0_0_1
    (broadcastInDim S10000x64 ![] bcast_S_S10000x64 (constant S_ .f32 0x00000000#32))
    (broadcastInDim S320000x1 ![0] bcast_S320000_S320000x1_0 dst)
    (mulf (Host.gather gather_S10000x64_S320000x1_S320000x64_1_0_n_n_0_1_164 h (rSrc src))
      (broadcastInDim S320000x64 ![0, 1] bcast_S320000x1_S320000x64_0_1 (broadcastInDim S320000x1 ![0] bcast_S320000_S320000x1_0 w)))

/-- The edge aggregation of a 32-column table. -/
def rAgg32 (h : FVec F S10000x32 .f32) (src dst : IVec S320000 32) (w : FVec F S320000 .f32) : FVec F S10000x32 .f32 :=
  Host.scatterAdd scatter_S10000x32_S320000x1_S320000x32_1_0_0_1
    (broadcastInDim S10000x32 ![] bcast_S_S10000x32 (constant S_ .f32 0x00000000#32))
    (broadcastInDim S320000x1 ![0] bcast_S320000_S320000x1_0 dst)
    (mulf (Host.gather gather_S10000x32_S320000x1_S320000x32_1_0_n_n_0_1_132 h (rSrc src))
      (broadcastInDim S320000x32 ![0, 1] bcast_S320000x1_S320000x32_0_1 (broadcastInDim S320000x1 ![0] bcast_S320000_S320000x1_0 w)))

/-- The rectifier. -/
def rRelu (a : FVec F S10000x64 .f32) : FVec F S10000x64 .f32 :=
  maximumf a (broadcastInDim S10000x64 ![] bcast_S_S10000x64 (constant S_ .f32 0x00000000#32))

/-- The first product. -/
def rP0 (x : FVec F S10000x1024 .f32) (W0 : FVec F S1024x64 .f32) : FVec F S10000x64 .f32 :=
  Host.dotGeneral dot_S10000x1024_S1024x64_S10000x64_1_0_0_1_n_n none x W0

/-- The hidden layer from the first product. -/
def rH1 (p0 : FVec F S10000x64 .f32) (src dst : IVec S320000 32) (w : FVec F S320000 .f32) : FVec F S10000x64 .f32 :=
  rRelu (rAgg64 p0 src dst w)

/-- A second-layer product. -/
def rP1 (h1 : FVec F S10000x64 .f32) (W : FVec F S64x32 .f32) : FVec F S10000x32 .f32 :=
  Host.dotGeneral dot_S10000x64_S64x32_S10000x32_1_0_0_1_n_n none h1 W

/-- The latent code from the two second-layer products. -/
def rZ (pm pl : FVec F S10000x32 .f32) (src dst : IVec S320000 32) (w : FVec F S320000 .f32) (eps : FVec F S10000x32 .f32) : FVec F S10000x32 .f32 :=
  addf (rAgg32 pm src dst w) (mulf eps (Host.exp (rAgg32 pl src dst w)))

/-- The result from the latent code: all inner products of its rows, flattened. -/
def rOut (z : FVec F S10000x32 .f32) : FVec F S100000000 .f32 :=
  shapeCast _ (Host.dotGeneral dot_S10000x32_S32x10000_S10000x10000_1_0_0_1_n_n none z (transpose S32x10000 [1, 0] z transposes_S10000x32_S32x10000_1_0)) shapeCasts_S10000x10000_S100000000

/-- The reference's result as a function of its eight arguments. -/
def rAll (x : FVec F S10000x1024 .f32) (src dst : IVec S320000 32) (w : FVec F S320000 .f32) (W0 : FVec F S1024x64 .f32)
    (W1 W2 : FVec F S64x32 .f32) (eps : FVec F S10000x32 .f32) : FVec F S100000000 .f32 :=
  rOut (rZ (rP1 (rH1 (rP0 x W0) src dst w) W1) (rP1 (rH1 (rP0 x W0) src dst w) W2) src dst w eps)

end Cert.ReferenceIdeal.Frm

end
-- ==== Proof.Bridge.Prod.lean ====
/-
  The two dense products, kernel against reference.

  The kernel's program forms each product on a left operand lengthened by 240 rows of zeros (10000 rows become 10240),
  after a conversion to a narrower float format that is the identity on extended reals, and then keeps the first 10000
  rows of the result. A kept row `n < 10000` of the product is `∑ k, A' (n, k) · B (k, j)` where `A'` is the lengthened
  operand; since `n` lies inside the original operand, `A' (n, k) = A (n, k)`, so the kept row is the row of the product
  of the unpadded operands — which is what the reference's `dot_general` computes: its element at `(n, j)` is the sum
  over the one contracted axis of the left operand at `(n, k)` times the right operand at `(k, j)`.

  For the second layer the kernel multiplies by the two 64 × 32 weight matrices set side by side as one 64 × 64 matrix
  `[W1 | W2]`. Column `j < 32` of `[W1 | W2]` is column `j` of `W1` and column `32 + j` is column `j` of `W2`, so
  columns `0 … 31` of the product are the product with `W1` and columns `32 … 63` the product with `W2`.
-/
import proofs.«419583_j52913997087388_1_alg».proof.Proof.KI.HostFns
import proofs.«419583_j52913997087388_1_alg».proof.Proof.Bridge.RefFns
import proofs.«419583_j52913997087388_1_alg».proof.Proof.Gen.ReferenceIdeal.Read
import Idealize.ShloMosaic.Lib.Pipeline.Value
import Idealize.ShloMosaic.Lib.ValueIdx
import Idealize.ShloMosaic.Lib.KernelVsHost
import Idealize.ShloMosaic.PureOps.Ideal.Laws

noncomputable section

namespace Cert.Bridge

open Idealize.ShloMosaic Idealize.ShloMosaic.ValueIdx

/-! ## The kernel's operands at an index -/

/-- Inside the original rows, the lengthened first-layer left operand is the original one. -/
theorem kA0_apply (x : FVec Ideal Cert.KernelIdeal.S10000x1024 .f32) (n : Fin 10000) (k : Fin 1024) :
    Cert.KernelIdeal.Frm.kA0 (F := Ideal) x (ix2 (⟨n.val, by omega⟩ : Fin 10240) k) = x (ix2 n k) := by
  unfold Cert.KernelIdeal.Frm.kA0
  rw [truncf_apply]
  refine pad_apply_of_inside _ _ _ _ _ _ _ _ _ fun a => ?_
  match a with
  | ⟨0, _⟩ => simp
  | ⟨1, _⟩ => simp

/-- The first-layer right operand is the weight matrix itself. -/
theorem kB0_apply (W0 : FVec Ideal Cert.KernelIdeal.S1024x64 .f32) (i : Cert.KernelIdeal.S1024x64.Idx) :
    Cert.KernelIdeal.Frm.kB0 (F := Ideal) W0 i = W0 i := rfl

/-- Inside the original rows, the lengthened second-layer left operand is the original one. -/
theorem kA1_apply (h1 : FVec Ideal Cert.KernelIdeal.S10000x64 .f32) (n : Fin 10000) (k : Fin 64) :
    Cert.KernelIdeal.Frm.kA1 (F := Ideal) h1 (ix2 (⟨n.val, by omega⟩ : Fin 10240) k) = h1 (ix2 n k) := by
  unfold Cert.KernelIdeal.Frm.kA1
  rw [truncf_apply]
  refine pad_apply_of_inside _ _ _ _ _ _ _ _ _ fun a => ?_
  match a with
  | ⟨0, _⟩ => simp
  | ⟨1, _⟩ => simp

/-- The first 32 columns of the two weight matrices side by side are the first matrix. -/
theorem kB1_apply_left (W1 W2 : FVec Ideal Cert.KernelIdeal.S64x32 .f32) (k : Fin 64) (j : Fin 32) :
    Cert.KernelIdeal.Frm.kB1 (F := Ideal) W1 W2 (ix2 k (⟨j.val, by omega⟩ : Fin 64)) = W1 (ix2 k j) := by
  unfold Cert.KernelIdeal.Frm.kB1
  rw [truncf_apply]
  refine concatenate_pair_apply_left (t := Cert.KernelIdeal.S64x64) (s₁ := Cert.KernelIdeal.S64x32)
    (s₂ := Cert.KernelIdeal.S64x32) 1 W1 W2 _ _ (show (2 : Nat) = 2 from rfl) (ix2 k j) fun b => ?_
  match b with
  | ⟨0, _⟩ => rfl
  | ⟨1, _⟩ => rfl

/-- The last 32 columns of the two weight matrices side by side are the second matrix. -/
theorem kB1_apply_right (W1 W2 : FVec Ideal Cert.KernelIdeal.S64x32 .f32) (k : Fin 64) (j : Fin 32) :
    Cert.KernelIdeal.Frm.kB1 (F := Ideal) W1 W2 (ix2 k (⟨32 + j.val, by omega⟩ : Fin 64)) = W2 (ix2 k j) := by
  unfold Cert.KernelIdeal.Frm.kB1
  rw [truncf_apply]
  refine concatenate_pair_apply_right (t := Cert.KernelIdeal.S64x64) (s₁ := Cert.KernelIdeal.S64x32)
    (s₂ := Cert.KernelIdeal.S64x32) 1 W1 W2 _ _ (show (2 : Nat) = 2 from rfl) (show (2 : Nat) = 2 from rfl) (ix2 k j)
    (fun b hb => ?_) ?_
  · match b with
    | ⟨0, _⟩ => rfl
    | ⟨1, _⟩ => exact absurd rfl hb
  · show j.val + 32 = 32 + j.val
    omega

/-- Keeping the first 10000 rows: row `n` of the kept block is row `n` of the whole. -/
theorem keep_apply (P : FVec Ideal Cert.KernelIdeal.S10240x64 .f32) (n : Fin 10000) (j : Fin 64) :
    extractStridedSlice Cert.KernelIdeal.S10000x64 ![0, 0] P Cert.KernelIdeal.Gen.slices_S10240x64_S10000x64_0_0 (ix2 n j)
      = P (ix2 (⟨n.val, by omega⟩ : Fin 10240) j) := by
  refine extractStridedSlice_apply _ _ _ _ _ fun a => ?_
  match a with
  | ⟨0, _⟩ => simp
  | ⟨1, _⟩ => simp

/-! ## The reference's products at an index -/

/-- The first product at `(n, j)`: the sum over `k` of `x (n, k) · W0 (k, j)`. -/
theorem rP0_apply (x : FVec Ideal Cert.ReferenceIdeal.S10000x1024 .f32) (W0 : FVec Ideal Cert.ReferenceIdeal.S1024x64 .f32)
    (n : Fin 10000) (j : Fin 64) :
    Cert.ReferenceIdeal.Frm.rP0 (F := Ideal) x W0 (ix2 n j) = ∑ k : Fin 1024, x (ix2 n k) * W0 (ix2 k j) := by
  show Cert.ReferenceIdeal.Read.val_main_v0 (F := Ideal) x W0 (ix2 n j) = _
  rw [Cert.ReferenceIdeal.Read.val_main_v0_apply]
  refine Finset.sum_congr rfl fun k _ => ?_
  have el : Cert.ReferenceIdeal.Read.lidx_main_v0 (ix2 n j) k = ix2 n k :=
    funext fun a => Fin.ext (by match a with | ⟨0, _⟩ => rfl | ⟨1, _⟩ => rfl)
  have er : Cert.ReferenceIdeal.Read.ridx_main_v0 (ix2 n j) k = ix2 k j :=
    funext fun a => Fin.ext (by match a with | ⟨0, _⟩ => rfl | ⟨1, _⟩ => rfl)
  rw [el, er]

/-- A second-layer product at `(n, j)`: the sum over `k` of `h1 (n, k) · W (k, j)`. -/
theorem rP1_apply (h1 : FVec Ideal Cert.ReferenceIdeal.S10000x64 .f32) (W : FVec Ideal Cert.ReferenceIdeal.S64x32 .f32)
    (n : Fin 10000) (j : Fin 32) :
    Cert.ReferenceIdeal.Frm.rP1 (F := Ideal) h1 W (ix2 n j) = ∑ k : Fin 64, h1 (ix2 n k) * W (ix2 k j) := by
  unfold Cert.ReferenceIdeal.Frm.rP1
  simp only [Host.dotGeneral]
  rw [Ideal.dotGeneral_apply,
    ← Equiv.sum_comp (contrEquiv1 Cert.ReferenceIdeal.dot_S10000x64_S64x32_S10000x32_1_0_0_1_n_n 64 rfl rfl).symm]
  refine Finset.sum_congr rfl fun k _ => ?_
  have hk := contrEquiv1_symm_val Cert.ReferenceIdeal.dot_S10000x64_S64x32_S10000x32_1_0_0_1_n_n 64 rfl rfl k
  have el : Cert.ReferenceIdeal.dot_S10000x64_S64x32_S10000x32_1_0_0_1_n_n.lhsIdx (ix2 n j)
      ((contrEquiv1 Cert.ReferenceIdeal.dot_S10000x64_S64x32_S10000x32_1_0_0_1_n_n 64 rfl rfl).symm k) = ix2 n k :=
    funext fun a => Fin.ext (by
      match a with
      | ⟨0, _⟩ => exact Cert.ReferenceIdeal.Read.lhs_main_v15_0 _ _
      | ⟨1, _⟩ => exact (Cert.ReferenceIdeal.Read.lhs_main_v15_1 _ _).trans hk)
  have er : Cert.ReferenceIdeal.dot_S10000x64_S64x32_S10000x32_1_0_0_1_n_n.rhsIdx (ix2 n j)
      ((contrEquiv1 Cert.ReferenceIdeal.dot_S10000x64_S64x32_S10000x32_1_0_0_1_n_n 64 rfl rfl).symm k) = ix2 k j :=
    funext fun a => Fin.ext (by
      match a with
      | ⟨0, _⟩ => exact (Cert.ReferenceIdeal.Read.rhs_main_v15_0 _ _).trans hk
      | ⟨1, _⟩ => exact Cert.ReferenceIdeal.Read.rhs_main_v15_1 _ _)
  rw [el, er]

/-! ## The products agree -/

/-- The kept rows of the kernel's first product are the reference's first product. -/
theorem prod0 (x : FVec Ideal Cert.KernelIdeal.S10000x1024 .f32) (W0 : FVec Ideal Cert.KernelIdeal.S1024x64 .f32)
    (P0 : FVec Ideal Cert.KernelIdeal.S10240x64 .f32)
    (hP : ∀ (r : Fin 10240) (j : Fin 64), P0 (ix2 r j)
      = ∑ k : Fin 1024, Cert.KernelIdeal.Frm.kA0 x (ix2 r k) * Cert.KernelIdeal.Frm.kB0 W0 (ix2 k j)) :
    extractStridedSlice Cert.KernelIdeal.S10000x64 ![0, 0] P0 Cert.KernelIdeal.Gen.slices_S10240x64_S10000x64_0_0
      = Cert.ReferenceIdeal.Frm.rP0 x W0 := by
  funext i
  obtain ⟨n, j, rfl⟩ : ∃ (n : Fin 10000) (j : Fin 64), i = ix2 n j := ⟨i 0, i 1, eq_ix2 i⟩
  rw [keep_apply, hP, rP0_apply]
  refine Finset.sum_congr rfl fun k _ => ?_
  rw [kA0_apply, kB0_apply]

/-- The kept rows of the kernel's second product: columns `0 … 31` are the reference's product with `W1`, columns
    `32 … 63` its product with `W2`. -/
theorem prod1 (h1 : FVec Ideal Cert.KernelIdeal.S10000x64 .f32) (W1 W2 : FVec Ideal Cert.KernelIdeal.S64x32 .f32)
    (P1 : FVec Ideal Cert.KernelIdeal.S10240x64 .f32)
    (hP : ∀ (r : Fin 10240) (j : Fin 64), P1 (ix2 r j)
      = ∑ k : Fin 64, Cert.KernelIdeal.Frm.kA1 h1 (ix2 r k) * Cert.KernelIdeal.Frm.kB1 W1 W2 (ix2 k j))
    (n : Fin 10000) (j : Fin 32) :
    extractStridedSlice Cert.KernelIdeal.S10000x64 ![0, 0] P1 Cert.KernelIdeal.Gen.slices_S10240x64_S10000x64_0_0
        (ix2 n (⟨j.val, by omega⟩ : Fin 64)) = Cert.ReferenceIdeal.Frm.rP1 h1 W1 (ix2 n j)
    ∧ extractStridedSlice Cert.KernelIdeal.S10000x64 ![0, 0] P1 Cert.KernelIdeal.Gen.slices_S10240x64_S10000x64_0_0
        (ix2 n (⟨32 + j.val, by omega⟩ : Fin 64)) = Cert.ReferenceIdeal.Frm.rP1 h1 W2 (ix2 n j) := by
  refine ⟨?_, ?_⟩
  · rw [keep_apply, hP, rP1_apply]
    refine Finset.sum_congr rfl fun k _ => ?_
    rw [kA1_apply, kB1_apply_left]
  · rw [keep_apply, hP, rP1_apply]
    refine Finset.sum_congr rfl fun k _ => ?_
    rw [kA1_apply, kB1_apply_right]

end Cert.Bridge

end
-- ==== Proof.Bridge.Dec.lean ====
/-
  The decoder. The kernel pads the latent code `z` (10000 rows of 32 entries) by 240 zero rows, forms all inner products
  of the rows of the padded array (a 10240 × 10240 array), keeps the leading 10000 × 10000 corner and flattens it; the
  reference multiplies `z` by its transpose and flattens. Entry (n, p) of either 10000 × 10000 array is
  `∑ k, z (n, k) · z (p, k)`: on the kernel's side because rows below 10000 of the padded array are rows of `z`, on the
  reference's because entry (k, p) of the transpose is entry (p, k) of `z`. The two flattenings are the same shape cast.
-/
import proofs.«419583_j52913997087388_1_alg».proof.Proof.KI.HostFns
import proofs.«419583_j52913997087388_1_alg».proof.Proof.Bridge.RefFns
import proofs.«419583_j52913997087388_1_alg».proof.Proof.Gen.ReferenceIdeal.Read
import Idealize.ShloMosaic.Lib.Pipeline.Value
import Idealize.ShloMosaic.Lib.ValueIdx
import Idealize.ShloMosaic.Lib.KernelVsHost
import Idealize.ShloMosaic.PureOps.Ideal.Laws

noncomputable section

namespace Cert.Bridge

open Idealize.ShloMosaic Idealize.ShloMosaic.ValueIdx
open scoped BigOperators

/-- A row of the padded latent code below row 10000 is that row of the latent code (no low padding, no interior
    padding, and the conversion to bf16 is the identity on extended reals). -/
theorem kA2_apply (z : FVec Ideal Cert.KernelIdeal.S10000x32 .f32) (n : Fin 10000) (k : Fin 32) :
    Cert.KernelIdeal.Frm.kA2 z (ix2 (⟨n.val, by omega⟩ : Fin 10240) k) = z (ix2 n k) := by
  unfold Cert.KernelIdeal.Frm.kA2
  rw [truncf_apply]
  refine pad_apply_of_inside _ _ _ z _ _ _ _ (ix2 n k) fun a => ?_
  match a with
  | ⟨0, _⟩ => show n.val = 0 + n.val * (0 + 1); omega
  | ⟨1, _⟩ => show k.val = 0 + k.val * (0 + 1); omega

/-- The leading corner of a 10240 × 10240 array read at (n, p) is the array at (n, p). -/
theorem corner_apply (P2 : FVec Ideal Cert.KernelIdeal.S10240x10240 .f32) (n p : Fin 10000) :
    extractStridedSlice Cert.KernelIdeal.S10000x10000 ![0, 0] P2 Cert.KernelIdeal.Gen.slices_S10240x10240_S10000x10000_0_0 (ix2 n p)
      = P2 (ix2 (⟨n.val, by omega⟩ : Fin 10240) (⟨p.val, by omega⟩ : Fin 10240)) := by
  refine extractStridedSlice_apply _ P2 _ (ix2 n p) _ fun a => ?_
  match a with
  | ⟨0, _⟩ => show n.val = 0 + n.val; omega
  | ⟨1, _⟩ => show p.val = 0 + p.val; omega

/-- Entry (k, p) of the transpose is entry (p, k). -/
theorem transpose_z_apply (z : FVec Ideal Cert.ReferenceIdeal.S10000x32 .f32) (k : Fin 32) (p : Fin 10000) :
    transpose Cert.ReferenceIdeal.S32x10000 [1, 0] z Cert.ReferenceIdeal.Gen.transposes_S10000x32_S32x10000_1_0 (ix2 k p) = z (ix2 p k) :=
  transpose_apply [1, 0] z Cert.ReferenceIdeal.Gen.transposes_S10000x32_S32x10000_1_0 (ix2 k p) (ix2 p k) fun b =>
    match b with
    | ⟨0, _⟩ => rfl
    | ⟨1, _⟩ => rfl

/-- The reference's product read at (n, p): the sum over the 32 columns of the left operand's row n times the right
    operand's column p. -/
theorem dot_apply (l : FVec Ideal Cert.ReferenceIdeal.S10000x32 .f32) (r : FVec Ideal Cert.ReferenceIdeal.S32x10000 .f32) (n p : Fin 10000) :
    Host.dotGeneral (F := Ideal) Cert.ReferenceIdeal.dot_S10000x32_S32x10000_S10000x10000_1_0_0_1_n_n none l r (ix2 n p)
      = ∑ k : Fin 32, l (ix2 n k) * r (ix2 k p) := by
  simp only [Host.dotGeneral]
  rw [Ideal.dotGeneral_apply, ← Equiv.sum_comp (contrEquiv1 Cert.ReferenceIdeal.dot_S10000x32_S32x10000_S10000x10000_1_0_0_1_n_n 32 rfl rfl).symm]
  refine Finset.sum_congr rfl fun k _ => ?_
  have hk := contrEquiv1_symm_val Cert.ReferenceIdeal.dot_S10000x32_S32x10000_S10000x10000_1_0_0_1_n_n 32 rfl rfl k
  have el : Cert.ReferenceIdeal.dot_S10000x32_S32x10000_S10000x10000_1_0_0_1_n_n.lhsIdx (ix2 n p)
      ((contrEquiv1 Cert.ReferenceIdeal.dot_S10000x32_S32x10000_S10000x10000_1_0_0_1_n_n 32 rfl rfl).symm k) = ix2 n k :=
    funext fun a => Fin.ext (by
      match a with
      | ⟨0, _⟩ => exact Cert.ReferenceIdeal.Read.lhs_main_v47_0 _ _
      | ⟨1, _⟩ => exact (Cert.ReferenceIdeal.Read.lhs_main_v47_1 _ _).trans hk)
  have er : Cert.ReferenceIdeal.dot_S10000x32_S32x10000_S10000x10000_1_0_0_1_n_n.rhsIdx (ix2 n p)
      ((contrEquiv1 Cert.ReferenceIdeal.dot_S10000x32_S32x10000_S10000x10000_1_0_0_1_n_n 32 rfl rfl).symm k) = ix2 k p :=
    funext fun a => Fin.ext (by
      match a with
      | ⟨0, _⟩ => exact (Cert.ReferenceIdeal.Read.rhs_main_v47_0 _ _).trans hk
      | ⟨1, _⟩ => exact Cert.ReferenceIdeal.Read.rhs_main_v47_1 _ _)
  rw [el, er]

/-- The kernel's corner of the padded array's inner products is the reference's product of the latent code with its
    transpose, entry by entry. -/
theorem corner_eq_dot (z : FVec Ideal Cert.KernelIdeal.S10000x32 .f32) (P2 : FVec Ideal Cert.KernelIdeal.S10240x10240 .f32)
    (hP : ∀ (r s : Fin 10240), P2 (ix2 r s) = ∑ k : Fin 32, Cert.KernelIdeal.Frm.kA2 z (ix2 r k) * Cert.KernelIdeal.Frm.kA2 z (ix2 s k)) :
    extractStridedSlice Cert.KernelIdeal.S10000x10000 ![0, 0] P2 Cert.KernelIdeal.Gen.slices_S10240x10240_S10000x10000_0_0
      = Host.dotGeneral (F := Ideal) Cert.ReferenceIdeal.dot_S10000x32_S32x10000_S10000x10000_1_0_0_1_n_n none z
          (transpose Cert.ReferenceIdeal.S32x10000 [1, 0] z Cert.ReferenceIdeal.Gen.transposes_S10000x32_S32x10000_1_0) := by
  funext j
  obtain ⟨n, p, rfl⟩ : ∃ (n : Fin 10000) (p : Fin 10000), j = ix2 n p := ⟨j 0, j 1, eq_ix2 j⟩
  rw [corner_apply, hP]
  refine Eq.trans ?_ (dot_apply z _ n p).symm
  refine Finset.sum_congr rfl fun k _ => ?_
  rw [kA2_apply, kA2_apply, transpose_z_apply]

/-- The decoder: the kernel's result from the padded array's inner products is the reference's result from the latent
    code. -/
theorem dec (z : FVec Ideal Cert.KernelIdeal.S10000x32 .f32) (P2 : FVec Ideal Cert.KernelIdeal.S10240x10240 .f32)
    (hP : ∀ (r s : Fin 10240), P2 (ix2 r s) = ∑ k : Fin 32, Cert.KernelIdeal.Frm.kA2 z (ix2 r k) * Cert.KernelIdeal.Frm.kA2 z (ix2 s k)) :
    Cert.KernelIdeal.Frm.kOut P2 = Cert.ReferenceIdeal.Frm.rOut z := by
  unfold Cert.KernelIdeal.Frm.kOut Cert.ReferenceIdeal.Frm.rOut
  rw [corner_eq_dot z P2 hP]

end Cert.Bridge

end
-- ==== Proof.LibRowGatherScatter.lean ====
/-
  ROWS OF A TABLE, GATHERED AND SCATTER-ADDED, READ AT AN INDEX.

  For a table of shape [N, C] and E integer row indices (an [E, 1] array of words):

  * the row gather (dimension numbers: offset axis 1, collapsed axis 0, start index map [0], index vector on axis 1,
    slices of size [1, C]) has, at result position (e, j), the table's element at row idx[e, 0] — read as a signed
    integer and clamped into [0, N - 1] — and column j (gather_rows_apply);
  * the row scatter with an add body (window axis 1, inserted axis 0, scatter axis 0, index vector on axis 1) has, at
    the exact (extended-real) instance, at position (n, j) the operand's element plus the sum, over the rows e of the
    updates whose index idx[e, 0], read as a signed integer and NOT clamped, is exactly n, of upd[e, j]; a row whose
    index lies outside [0, N) contributes nowhere (scatterAdd_rows_apply);
  * both operations act column by column, so they commute with restricting every array to a block of columns
    c0, …, c0 + C' - 1 (gather_rows_cols, scatterAdd_rows_cols).
-/
import Idealize.ShloMosaic.Lib.ValueIdx
import Idealize.ShloMosaic.PureOps.Contract

noncomputable section

open scoped BigOperators

namespace Cert.LibRows

open Idealize.ShloMosaic Idealize.ShloMosaic.ValueIdx

/-! ## The row gather -/

section Gather
variable {α : Type}

/-- The row gather's dimension numbers for a table [N, C], start indices [E, 1] and result [E, C]; their conditions
    are decided on literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The conditions hold only of a table with at least one row: the size-1 slice must fit on axis 0. -/
theorem rowGather_pos {N E C : Nat}
    (wf : GatherDims.WF ⟨2, ![N, C]⟩ ⟨2, ![E, 1]⟩ ⟨2, ![E, C]⟩ [1] [0] [] [0] [] 1 ![1, C]) : 0 < N :=
  (rowGather N E C wf).slice_le 0

/-- THE ROW GATHER AT (e, j): the table at row idx[e, 0], read signed and clamped into [0, N - 1], and column j. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide
  -- axis 0 is collapsed: no offset coordinate; its start is the clamped index
  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1 is not indexed: its start is 0 and its offset coordinate the result's column
  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1

end Gather

/-! ## The row scatter with an add body -/

section Scatter

/-- The row scatter's dimension numbers for an operand [N, C], scatter indices [E, 1] and updates [E, C]; their
    conditions are decided on literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On axis 0 the window of update (e, j) starts at the index idx[e, 0], read signed. -/
theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1, which no index names, it starts at 0. -/
theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

/-- Axis 0 is an inserted axis: the window coordinate there is 0. -/
theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

/-- On axis 1 the window coordinate is the update's column. -/
theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

/-- WHERE AN UPDATE LANDS: update (e, j') goes to operand position (n, j) exactly when its row index idx[e, 0], read
    signed, is n and j' = j. (An index outside [0, N) is no n : Fin N: that update lands nowhere.) -/
theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

/-- THE ROW SCATTER-ADD AT (n, j), exact instance: the operand's element plus the sum of upd[e, j] over the update
    rows e whose index idx[e, 0], read signed and not clamped, is n. -/
theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1
  -- the updates that land at (n, j) are the (e, j) with idx[e, 0] = n: re-index the sum by the row e
  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

/-- The same of the host operation at the exact instance, for any float format. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

/-! ## Restriction to a block of columns -/

section Cols

/-- The columns c0, …, c0 + C' - 1 of an [R, C] array, as an [R, C'] array. -/
def cols {α : Type} {R C C' : Nat} (c0 : Nat) (h : c0 + C' ≤ C) (X : (⟨2, ![R, C]⟩ : Shape).Idx → α) :
    (⟨2, ![R, C']⟩ : Shape).Idx → α :=
  fun i => X (ix2 ⟨(i 0).val, idx2_lt0 i⟩ ⟨c0 + (i 1).val, by have := idx2_lt1 i; omega⟩)

/-- Its element (r, c) is the array's element (r, c0 + c). -/
theorem cols_apply {α : Type} {R C C' : Nat} (c0 : Nat) (h : c0 + C' ≤ C) (X : (⟨2, ![R, C]⟩ : Shape).Idx → α)
    (r : Fin R) (c : Fin C') : cols c0 h X (ix2 r c) = X (ix2 r ⟨c0 + c.val, by omega⟩) := rfl

/-- THE ROW GATHER COMMUTES WITH TAKING COLUMNS: gathering rows of the column block is the column block of the
    gathered rows (the row chosen depends on the index only). -/
theorem gather_rows_cols {α : Type} {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (c0 : Nat) (h : c0 + C' ≤ C) (x : (⟨2, ![N, C]⟩ : Shape).Idx → α) (idx : IVec ⟨2, ![E, 1]⟩ w) :
    Host.gather (rowGather N E C' wf') (cols c0 h x) idx = cols c0 h (Host.gather (rowGather N E C wf) x idx) := by
  funext i
  obtain ⟨e, c, rfl⟩ : ∃ (e : Fin E) (c : Fin C'), i = ix2 e c := ⟨i 0, i 1, eq_ix2 i⟩
  rw [gather_rows_apply hN wf', cols_apply, cols_apply, gather_rows_apply hN wf]

/-- THE ROW SCATTER-ADD COMMUTES WITH TAKING COLUMNS (exact instance): column c0 + c of the result is made of column
    c0 + c of the operand and of the updates only. -/
theorem scatterAdd_rows_cols {φ : FTy} {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (c0 : Nat) (h : c0 + C' ≤ C) (x : FVec Ideal ⟨2, ![N, C]⟩ φ) (idx : IVec ⟨2, ![E, 1]⟩ w)
    (upd : FVec Ideal ⟨2, ![E, C]⟩ φ) :
    Host.scatterAdd (F := Ideal) (rowScatter N E C' wf') (cols c0 h x) idx (cols c0 h upd)
      = cols c0 h (Host.scatterAdd (F := Ideal) (rowScatter N E C wf) x idx upd) := by
  funext i
  obtain ⟨n, c, rfl⟩ : ∃ (n : Fin N) (c : Fin C'), i = ix2 n c := ⟨i 0, i 1, eq_ix2 i⟩
  rw [host_scatterAdd_rows_apply wf', cols_apply, cols_apply, host_scatterAdd_rows_apply wf]
  rfl

end Cols

end Cert.LibRows

end
-- ==== Proof.Bridge.AggCols.lean ====
/-
  THE EDGE AGGREGATION ACTS COLUMN BY COLUMN.

  The aggregation of a table along the graph's edges — gather the rows at the (wrapped) source indices, scale row e by
  the edge weight w e, add it into row dst e of a zero table — treats each column on its own: the row an edge reads and
  the row it writes depend on the edge only, and the weight is constant along a row. So the columns c0, …, c0 + 31 of
  the aggregation of a 64-column table are the aggregation of the table's columns c0, …, c0 + 31 (agg_cols0,
  agg_cols32), at the exact (extended-real) instance, where the scatter's sum is a sum. The two programs' 64-column
  aggregations and rectifiers are the same functions (agg64_eq, relu_eq).
-/
import proofs.«419583_j52913997087388_1_alg».proof.Proof.KI.HostFns
import proofs.«419583_j52913997087388_1_alg».proof.Proof.Bridge.RefFns
import proofs.«419583_j52913997087388_1_alg».proof.Proof.LibRowGatherScatter
import Idealize.ShloMosaic.Lib.ValueLayout

noncomputable section

namespace Cert.Bridge

open Idealize.ShloMosaic Idealize.ShloMosaic.ValueIdx Cert.LibRows

/-- A unit-stride slice of a matrix along its columns from o is the block of columns o, …, o + m - 1. -/
theorem slice_eq_cols {α : Type} {n0 n1 m : Nat} (o : Nat) (h : o + m ≤ n1) (X : (⟨2, ![n0, n1]⟩ : Shape).Idx → α)
    (hs : (⟨2, ![n0, n1]⟩ : Shape).Slices ![0, o] ⟨2, ![n0, m]⟩) :
    extractStridedSlice ⟨2, ![n0, m]⟩ ![0, o] X hs = cols o h X := by
  funext i
  obtain ⟨a, j, rfl⟩ : ∃ (a : Fin n0) (j : Fin m), i = ix2 a j := ⟨i 0, i 1, eq_ix2 i⟩
  rw [slice2_axis1_eq, cols_apply]

/-- The two programs' 64-column aggregations are one function: the same operations at the same dimension numbers. -/
theorem agg64_eq {F : FTy → Type} [FloatOps F] (pre : FVec F Cert.KernelIdeal.S10000x64 .f32)
    (src dst : IVec Cert.KernelIdeal.S320000 32) (w : FVec F Cert.KernelIdeal.S320000 .f32) :
    Cert.KernelIdeal.Frm.kAgg64 pre src dst w = Cert.ReferenceIdeal.Frm.rAgg64 pre src dst w := rfl

/-- So are the two rectifiers. -/
theorem relu_eq {F : FTy → Type} [FloatOps F] (a : FVec F Cert.KernelIdeal.S10000x64 .f32) :
    Cert.KernelIdeal.Frm.kRelu a = Cert.ReferenceIdeal.Frm.rRelu a := rfl

/-- The wrapped source indices are the same words in both programs. -/
theorem src_eq (src : IVec Cert.KernelIdeal.S320000 32) :
    Cert.KernelIdeal.Frm.kSrc src = Cert.ReferenceIdeal.Frm.rSrc src := rfl

/-! ## Taking columns commutes with the aggregation's pieces -/

/-- A scalar broadcast over a matrix, restricted to a block of columns, is the scalar broadcast over the block. -/
theorem cols_bcast_scalar {α : Type} {R C C' : Nat} (c0 : Nat) (h : c0 + C' ≤ C)
    (hb : (⟨0, ![]⟩ : Shape).BroadcastsInDim ⟨2, ![R, C]⟩ ![]) (hb' : (⟨0, ![]⟩ : Shape).BroadcastsInDim ⟨2, ![R, C']⟩ ![])
    (v : (⟨0, ![]⟩ : Shape).Idx → α) :
    cols c0 h (broadcastInDim ⟨2, ![R, C]⟩ ![] hb v) = broadcastInDim ⟨2, ![R, C']⟩ ![] hb' v := by
  funext i
  obtain ⟨r, c, rfl⟩ : ∃ (r : Fin R) (c : Fin C'), i = ix2 r c := ⟨i 0, i 1, eq_ix2 i⟩
  rw [cols_apply]
  unfold broadcastInDim
  congr 1
  funext a
  exact a.elim0

/-- A column broadcast along the rows of a matrix (constant along each row), restricted to a block of columns, is the
    column broadcast along the rows of the block. -/
theorem cols_bcast_col {α : Type} {E C C' : Nat} (c0 : Nat) (h : c0 + C' ≤ C)
    (hb : (⟨2, ![E, 1]⟩ : Shape).BroadcastsInDim ⟨2, ![E, C]⟩ ![0, 1])
    (hb' : (⟨2, ![E, 1]⟩ : Shape).BroadcastsInDim ⟨2, ![E, C']⟩ ![0, 1]) (v : (⟨2, ![E, 1]⟩ : Shape).Idx → α) :
    cols c0 h (broadcastInDim ⟨2, ![E, C]⟩ ![0, 1] hb v) = broadcastInDim ⟨2, ![E, C']⟩ ![0, 1] hb' v := by
  funext i
  obtain ⟨e, c, rfl⟩ : ∃ (e : Fin E) (c : Fin C'), i = ix2 e c := ⟨i 0, i 1, eq_ix2 i⟩
  rw [cols_apply]
  unfold broadcastInDim
  congr 1
  funext a
  match a with
  | ⟨0, _⟩ => rfl
  | ⟨1, _⟩ => rfl

/-- A product of matrices taken element by element, restricted to a block of columns, is the product of the
    restrictions. -/
theorem cols_mulf {φ : FTy} {R C C' : Nat} (c0 : Nat) (h : c0 + C' ≤ C) (a b : FVec Ideal ⟨2, ![R, C]⟩ φ) :
    cols c0 h (mulf a b) = mulf (cols c0 h a) (cols c0 h b) := rfl

/-! ## The aggregation of a block of 32 columns -/

/-- Columns c0, …, c0 + 31 of the 64-column aggregation are the aggregation of the table's columns c0, …, c0 + 31. -/
theorem agg_cols (c0 : Nat) (h : c0 + 32 ≤ 64)
    (hs : Cert.KernelIdeal.S10000x64.Slices ![0, c0] Cert.KernelIdeal.S10000x32)
    (pre : FVec Ideal Cert.KernelIdeal.S10000x64 .f32) (src dst : IVec Cert.KernelIdeal.S320000 32)
    (w : FVec Ideal Cert.KernelIdeal.S320000 .f32) :
    extractStridedSlice Cert.KernelIdeal.S10000x32 ![0, c0] (Cert.KernelIdeal.Frm.kAgg64 pre src dst w) hs
      = Cert.ReferenceIdeal.Frm.rAgg32 (cols c0 h pre) src dst w := by
  rw [slice_eq_cols c0 h]
  unfold Cert.KernelIdeal.Frm.kAgg64 Cert.ReferenceIdeal.Frm.rAgg32
  -- the scatter-add of the column block is the column block of the scatter-add …
  refine (scatterAdd_rows_cols (φ := .f32) Cert.KernelIdeal.Gen.scatter_S10000x64_S320000x1_S320000x64_1_0_0_1_wf
    Cert.ReferenceIdeal.Gen.scatter_S10000x32_S320000x1_S320000x32_1_0_0_1_wf c0 h _ _ _).symm.trans ?_
  -- … and so are the zero table, the gathered rows and the weights laid along the rows
  have hG : cols c0 h (Host.gather Cert.KernelIdeal.gather_S10000x64_S320000x1_S320000x64_1_0_n_n_0_1_164 pre
        (Cert.KernelIdeal.Frm.kSrc src))
      = Host.gather Cert.ReferenceIdeal.gather_S10000x32_S320000x1_S320000x32_1_0_n_n_0_1_132 (cols c0 h pre)
        (Cert.ReferenceIdeal.Frm.rSrc src) :=
    (gather_rows_cols (by decide) Cert.KernelIdeal.Gen.gather_S10000x64_S320000x1_S320000x64_1_0_n_n_0_1_164_wf
      Cert.ReferenceIdeal.Gen.gather_S10000x32_S320000x1_S320000x32_1_0_n_n_0_1_132_wf c0 h pre
      (Cert.KernelIdeal.Frm.kSrc src)).symm
  rw [cols_mulf, hG, cols_bcast_scalar c0 h _ Cert.ReferenceIdeal.Gen.bcast_S_S10000x32,
    cols_bcast_col c0 h _ Cert.ReferenceIdeal.Gen.bcast_S320000x1_S320000x32_0_1]
  rfl

/-- Columns 0, …, 31. -/
theorem agg_cols0 (pre : FVec Ideal Cert.KernelIdeal.S10000x64 .f32) (src dst : IVec Cert.KernelIdeal.S320000 32)
    (w : FVec Ideal Cert.KernelIdeal.S320000 .f32) :
    extractStridedSlice Cert.KernelIdeal.S10000x32 ![0, 0] (Cert.KernelIdeal.Frm.kAgg64 pre src dst w)
        Cert.KernelIdeal.Gen.slices_S10000x64_S10000x32_0_0
      = Cert.ReferenceIdeal.Frm.rAgg32 (cols 0 (by decide) pre) src dst w :=
  agg_cols 0 (by decide) _ pre src dst w

/-- Columns 32, …, 63. -/
theorem agg_cols32 (pre : FVec Ideal Cert.KernelIdeal.S10000x64 .f32) (src dst : IVec Cert.KernelIdeal.S320000 32)
    (w : FVec Ideal Cert.KernelIdeal.S320000 .f32) :
    extractStridedSlice Cert.KernelIdeal.S10000x32 ![0, 32] (Cert.KernelIdeal.Frm.kAgg64 pre src dst w)
        Cert.KernelIdeal.Gen.slices_S10000x64_S10000x32_0_32
      = Cert.ReferenceIdeal.Frm.rAgg32 (cols 32 (by decide) pre) src dst w :=
  agg_cols 32 (by decide) _ pre src dst w

end Cert.Bridge

end
-- ==== Proof.Bridge.Join.lean ====
/-
  The kernel's arithmetic is the reference's. Given that the three products the kernel's regions compute are the
  matrix products of their operands (entry by entry a sum over the contracted axis), the result of the kernel's program,
  as a term of the eight arguments, is the reference's result function of the same arguments:
  * the kept rows of the first product are `x · W0`, since the 240 added rows are dropped again;
  * the hidden layer is the same aggregation and rectifier of that table;
  * columns 0…31 and 32…63 of the product with the two weight matrices side by side are the products with each, and
    aggregating a 64-column table and then taking 32 of its columns is aggregating those 32 columns: an edge moves
    whole rows;
  * so the latent codes agree, and the kept corner of all inner products of the lengthened code's rows is all inner
    products of the code's rows.
  No law of arithmetic is used beyond these re-indexings: both sides are the same sums of the same products.
-/
import proofs.«419583_j52913997087388_1_alg».proof.Proof.Bridge.Prod
import proofs.«419583_j52913997087388_1_alg».proof.Proof.Bridge.Dec
import proofs.«419583_j52913997087388_1_alg».proof.Proof.Bridge.AggCols

noncomputable section

namespace Cert.Bridge

open Idealize.ShloMosaic Idealize.ShloMosaic.ValueIdx Cert.LibRows
open Cert.KernelIdeal Cert.KernelIdeal.Gen Cert.KernelIdeal.Frm

variable (x : FVec Ideal S10000x1024 .f32) (src dst : IVec S320000 32) (w : FVec Ideal S320000 .f32)
  (W0 : FVec Ideal S1024x64 .f32) (W1 W2 : FVec Ideal S64x32 .f32) (eps : FVec Ideal S10000x32 .f32)

/-- The hidden layer: from a first product whose entries are the lengthened operands' sums of products. -/
theorem hidden_eq (P0 : FVec Ideal S10240x64 .f32)
    (h0 : ∀ (r : Fin 10240) (j : Fin 64), P0 (ix2 r j) = ∑ k : Fin 1024, kA0 x (ix2 r k) * kB0 W0 (ix2 k j)) :
    kH1 P0 src dst w = Cert.ReferenceIdeal.Frm.rH1 (Cert.ReferenceIdeal.Frm.rP0 x W0) src dst w := by
  unfold kH1 Cert.ReferenceIdeal.Frm.rH1
  rw [prod0 x W0 P0 h0, agg64_eq, relu_eq]

/-- Columns `c0 …` of the kept rows of the second product, as a table of their own. -/
theorem second_cols0 (h1 : FVec Ideal S10000x64 .f32) (P1 : FVec Ideal S10240x64 .f32)
    (hP : ∀ (r : Fin 10240) (j : Fin 64), P1 (ix2 r j) = ∑ k : Fin 64, kA1 h1 (ix2 r k) * kB1 W1 W2 (ix2 k j)) :
    cols 0 (by decide) (extractStridedSlice S10000x64 ![0, 0] P1 slices_S10240x64_S10000x64_0_0) = Cert.ReferenceIdeal.Frm.rP1 h1 W1 := by
  funext i
  obtain ⟨n, j, rfl⟩ : ∃ (n : Fin 10000) (j : Fin 32), i = ix2 n j := ⟨i 0, i 1, eq_ix2 i⟩
  rw [cols_apply]
  refine Eq.trans ?_ (prod1 h1 W1 W2 P1 hP n j).1
  exact congrArg _ (congrArg (ix2 n) (Fin.ext (Nat.zero_add _)))

theorem second_cols32 (h1 : FVec Ideal S10000x64 .f32) (P1 : FVec Ideal S10240x64 .f32)
    (hP : ∀ (r : Fin 10240) (j : Fin 64), P1 (ix2 r j) = ∑ k : Fin 64, kA1 h1 (ix2 r k) * kB1 W1 W2 (ix2 k j)) :
    cols 32 (by decide) (extractStridedSlice S10000x64 ![0, 0] P1 slices_S10240x64_S10000x64_0_0) = Cert.ReferenceIdeal.Frm.rP1 h1 W2 := by
  funext i
  obtain ⟨n, j, rfl⟩ : ∃ (n : Fin 10000) (j : Fin 32), i = ix2 n j := ⟨i 0, i 1, eq_ix2 i⟩
  rw [cols_apply]
  exact (prod1 h1 W1 W2 P1 hP n j).2

/-- The latent code: from a second product whose entries are the lengthened operands' sums of products. -/
theorem latent_eq (h1 : FVec Ideal S10000x64 .f32) (P1 : FVec Ideal S10240x64 .f32)
    (hP : ∀ (r : Fin 10240) (j : Fin 64), P1 (ix2 r j) = ∑ k : Fin 64, kA1 h1 (ix2 r k) * kB1 W1 W2 (ix2 k j)) :
    kZ P1 src dst w eps
      = Cert.ReferenceIdeal.Frm.rZ (Cert.ReferenceIdeal.Frm.rP1 h1 W1) (Cert.ReferenceIdeal.Frm.rP1 h1 W2) src dst w eps := by
  unfold kZ Cert.ReferenceIdeal.Frm.rZ
  rw [agg_cols0, agg_cols32, second_cols0 W1 W2 h1 P1 hP, second_cols32 W1 W2 h1 P1 hP]

/-- THE JOIN. The kernel's result term, over three products that are sums of products of their operands, is the
    reference's result function of the same eight arguments. -/
theorem result_eq (P0 P1 : FVec Ideal S10240x64 .f32) (P2 : FVec Ideal S10240x10240 .f32)
    (h0 : ∀ (r : Fin 10240) (j : Fin 64), P0 (ix2 r j) = ∑ k : Fin 1024, kA0 x (ix2 r k) * kB0 W0 (ix2 k j))
    (h1 : ∀ (r : Fin 10240) (j : Fin 64), P1 (ix2 r j) = ∑ k : Fin 64, kA1 (kH1 P0 src dst w) (ix2 r k) * kB1 W1 W2 (ix2 k j))
    (h2 : ∀ (r s : Fin 10240), P2 (ix2 r s) = ∑ k : Fin 32, kA2 (kZ P1 src dst w eps) (ix2 r k) * kA2 (kZ P1 src dst w eps) (ix2 s k)) :
    kOut P2 = Cert.ReferenceIdeal.Frm.rAll x src dst w W0 W1 W2 eps := by
  rw [dec (kZ P1 src dst w eps) P2 h2, latent_eq src dst w W1 W2 eps (kH1 P0 src dst w) P1 h1, hidden_eq x src dst w W0 P0 h0]
  try rfl

end Cert.Bridge

end
-- ==== Proof.KIValue.lean ====
/-
  The value of the kernel's program at the ideal instance. Its result buffer ends at the last host stretch applied to
  the decoder's product; the three products are, entry by entry, sums of products of their operands (each grid point
  writes its own block of rows, or its own block of rows and columns, and the blocks tile the array); the operands are
  the host stretches' terms of the arguments and of the earlier products. Hence, by the join of the two arithmetics,
  the result is the reference's result function of the eight argument arrays.
-/
import proofs.«419583_j52913997087388_1_alg».proof.Proof.KI.Segs
import proofs.«419583_j52913997087388_1_alg».proof.Proof.KI.Host
import proofs.«419583_j52913997087388_1_alg».proof.Proof.KI.Val01
import proofs.«419583_j52913997087388_1_alg».proof.Proof.KI.Val2
import proofs.«419583_j52913997087388_1_alg».proof.Proof.Bridge.Join

noncomputable section

namespace Cert.Bridge

open Idealize.ShloMosaic Idealize.ShloMosaic.TcCoe Idealize.ShloMosaic.ValueIdx Idealize.SL.Sem
open Cert.KernelIdeal Cert.KernelIdeal.Gen Cert.KernelIdeal.Frm

variable (m : (ℓ : Loc nD τ sig) → Buf (Elt Ideal) ℓ)

/-- The program's result buffer, after the run, as the reference's function of the argument arrays. -/
theorem kernel_value (c : Dev nD) :
    (V15 m (outs m) c main_v47 : FVec Ideal S100000000 .f32)
      = Cert.ReferenceIdeal.Frm.rAll (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [V15_v47 m (outs m) c, outs_v45]
  refine result_eq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (o4 m c) (o10 m c) (o14 m c) ?_ ?_ ?_
  · -- the first product: its operands are the lengthened features and the first weight matrix
    intro r j
    exact final0_of (VR3 m) c r j _ _ (V3_v1 m c) (V3_v2 m c)
  · -- the second product: its operands are the lengthened hidden layer and the two weight matrices side by side
    intro r j
    exact final1_of (VR9 m) c r j _ _ ((V9_v20 m (outs1 m) c).trans (by rw [outs1_v3])) (V9_v22 m (outs1 m) c)
  · -- the decoder's product: both operands are the lengthened latent code
    intro r s
    have hz : zIn (VR13 m) c = kA2 (F := Ideal) (kZ (o10 m c) (m ((c : Thread nD τ).loc main_arg1)) (m ((c : Thread nD τ).loc main_arg2))
        (m ((c : Thread nD τ).loc main_arg3)) (m ((c : Thread nD τ).loc main_arg7))) :=
      (V13_v44 m (outs2 m) c).trans (by rw [outs2_v23])
    rw [← hz]
    exact final2 (VR13 m) c r s

end Cert.Bridge

end
-- ==== Proof.RefRun.lean ====
/-
  The reference program's run, read back: every weakly fair execution of the reference ends with its result buffer at
  the composed term of its sixty host operations applied to the argument arrays. That term is, stretch by stretch, the
  composition of the named functions `rP0`, `rH1`, `rP1`, `rZ`, `rOut`: each was spelt with the operations the
  program prints, so the two terms are the same term.
-/
import proofs.«419583_j52913997087388_1_alg».proof.Proof.Gen.ReferenceIdeal.Run
import proofs.«419583_j52913997087388_1_alg».proof.Proof.Bridge.RefFns

noncomputable section

namespace Cert.ReferenceIdeal.Frm

open Idealize.ShloMosaic Idealize.ShloMosaic.TcCoe Idealize.SL.Sem Cert.ReferenceIdeal Cert.ReferenceIdeal.Gen

variable {F : FTy → Type} [FloatOps F]

set_option maxRecDepth 8192 in
/-- The run's result term is the reference's result function of the eight argument arrays. -/
theorem ref_value (m : (ℓ : Loc nD τ sig) → Buf (Elt F) ℓ) (c : Dev nD) :
    Cert.ReferenceIdeal.Value.res_main_v48 m c
      = rAll (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v48 rAll rOut rZ rP1 rH1 rP0 rRelu rAgg64 rAgg32 rSrc
  rfl

end Cert.ReferenceIdeal.Frm

end
-- ==== Proof.lean ====
/-
  The certificate of a graph variational auto-encoder's forward pass: node features `x` (10000 × 1024), 320000 weighted
  edges, three weight matrices and a noise table. Both programs compute

    h1 = relu (A (x · W0)),   mean = A (h1 · W1),   logstd = A (h1 · W2),   z = mean + eps · exp logstd,   result = flatten (z · zᵀ),

  where `A` adds to each destination row the edge weight times the source row, over all edges. The kernel's program forms
  the three dense products on the matrix unit — `x · W0`, `h1 · [W1 | W2]` (the two weight matrices side by side) and
  `z · zᵀ` — each over operands lengthened by 240 zero rows and cut into blocks of 1280 rows, and leaves everything else
  to the host; the reference forms them with whole-array contractions.

  Why the two agree at the ideal instance, where a float is an extended real and a change of format is the identity:
  row n < 10000 of a product of lengthened operands is row n of the product; column j of `h1 · [W1 | W2]` is column j of
  `h1 · W1` or column j − 32 of `h1 · W2`; aggregation moves whole rows, so it commutes with taking columns; and entry
  (n, p) of `z · zᵀ` is the inner product of rows n and p either way. Every entry is the same sum of the same products
  on both sides: no law that could fail at an infinity is used, and the inputs' finiteness is never needed.

  The frames: each program runs to the end without a fault and leaves its eight argument arrays as they were. For the
  kernel's program, read at words and at extended reals alike, each of its three regions stages blocks of its operands,
  runs one product per grid point, and writes the result block back; the third region reads one table through two
  windows, whose ownership it holds by halves. The ideal pass rewrote nothing, so there is nothing to preserve.
-/
import proofs.«419583_j52913997087388_1_alg».proof.Defs
import proofs.«419583_j52913997087388_1_alg».proof.Proof.Gen.Kernel
import proofs.«419583_j52913997087388_1_alg».proof.Proof.Gen.KernelIdeal
import proofs.«419583_j52913997087388_1_alg».proof.Proof.Gen.ReferenceIdeal
import proofs.«419583_j52913997087388_1_alg».proof.Proof.Gen.Pre_finite_inputs
import proofs.«419583_j52913997087388_1_alg».proof.Proof.K.Segs
import proofs.«419583_j52913997087388_1_alg».proof.Proof.KI.Segs
import proofs.«419583_j52913997087388_1_alg».proof.Proof.KIValue
import proofs.«419583_j52913997087388_1_alg».proof.Proof.RefRun
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_k : Cert.frame_Kernel := fun m ρ _ => Cert.Kernel.Frm.frame m ρ

/-- So does the same program read at extended reals. -/
theorem frame_ki : Cert.frame_KernelIdeal := fun m ρ _ => Cert.KernelIdeal.Frm.frame m ρ

/-- The reference is sixty host operations in a line: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments both programs end with the same result: each side's result is the
    one function `rAll` of its arguments. -/
theorem algebraic : Cert.algebraic_KernelIdeal_ReferenceIdeal := by
  intro m ρ m' ρ' _ hagree
  refine ⟨_, Cert.KernelIdeal.Frm.run_result m ρ, ?_⟩
  refine (θ_run Cert.ReferenceIdeal.defs _ _).mono (fun _ h c => ⟨(h c).1.trans ?_, (h c).2⟩)
    (Cert.ReferenceIdeal.Value.run (F := Ideal) m' ρ')
  rw [Cert.Bridge.kernel_value m c, Cert.ReferenceIdeal.Frm.ref_value m' c, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
